-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v54_1)) (v1 : (c : Dev Cert.KernelIdeal.nD) → Buf (Elt Ideal) ((c.tc : Thread Cert.KernelIdeal.nD Cert.KernelIdeal.τ).loc Cert.KernelIdeal.main_v54_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54_1) = v0 c
          ∧ r.2.mem ((c.tc : Thread Cert.KernelIdeal.nD Cert.KernelIdeal.τ).loc Cert.KernelIdeal.main_v54_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v173) = v0 c
          ∧ r.2.mem ((c.tc : Thread Cert.ReferenceIdeal.nD Cert.ReferenceIdeal.τ).loc Cert.ReferenceIdeal.main_v168) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S256x128 : Shape := ⟨2, ![256, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S256x128 : S_.BroadcastsInDim S256x128 (![] : Fin 0 → Fin S256x128.rank)
  reducesTo_S256x128_S_d0_1 : S256x128.ReducesTo [0, 1] S_

variable [Facts]

def fn_part4 {F : FTy → Type} [FloatOps F] (main_arg16 : FVec F S128x128 .f32) (main_arg17 : FVec F S128 .f32) (main_v63 : IVec S_ 1) (main_v67 : IVec S_ 1) : IVec S_ 1 :=
  let main_v68 : IVec S_ 1 := andi main_v63 main_v67
  let main_v69 : FVec F S128x128 .f32 := Host.absf main_arg16
  let main_cst_26 : FVec F S_ .f32 := constant S_ .f32 0x7F800000#32
  let main_v70 : FVec F S128x128 .f32 := broadcastInDim S128x128 ![] bcast_S_S128x128 main_cst_26
  let main_v71 : IVec S128x128 1 := cmpf .olt main_v69 main_v70
  let main_c_27 : IVec S_ 1 := constantI S_ 1 1#1
  let main_v72 : IVec S_ 1 := (fun x v => Host.reduce IntOp.andi x v reducesTo_S128x128_S_d0_1 h_S_) main_v71 main_c_27
  let main_v73 : IVec S_ 1 := andi main_v68 main_v72
  let main_v74 : FVec F S128 .f32 := Host.absf main_arg17
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  main_v78

def fn_part3 {F : FTy → Type} [FloatOps F] (main_arg13 : FVec F S128 .f32) (main_arg14 : FVec F S256x128 .f32) (main_arg15 : FVec F S128 .f32) (main_arg16 : FVec F S128x128 .f32) (main_arg17 : FVec F S128 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S256x128 .f32 := Host.absf main_arg14
  let main_cst_22 : FVec F S_ .f32 := constant S_ .f32 0x7F800000#32
  let main_v60 : FVec F S256x128 .f32 := broadcastInDim S256x128 ![] bcast_S_S256x128 main_cst_22
  let main_v61 : IVec S256x128 1 := cmpf .olt main_v59 main_v60
  let main_c_23 : IVec S_ 1 := constantI S_ 1 1#1
  let main_v62 : IVec S_ 1 := (fun x v => Host.reduce IntOp.andi x v reducesTo_S256x128_S_d0_1 h_S_) main_v61 main_c_23
  let main_v63 : IVec S_ 1 := andi main_v58 main_v62
  let main_v64 : FVec F S128 .f32 := Host.absf main_arg15
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg16 main_arg17 main_v63 main_v67

def fn_part2 {F : FTy → Type} [FloatOps F] (main_arg9 : FVec F S128 .f32) (main_arg10 : FVec F S256x128 .f32) (main_arg11 : FVec F S128 .f32) (main_arg12 : FVec F S128x128 .f32) (main_arg13 : FVec F S128 .f32) (main_arg14 : FVec F S256x128 .f32) (main_arg15 : FVec F S128 .f32) (main_arg16 : FVec F S128x128 .f32) (main_arg17 : FVec F S128 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S256x128 .f32 := Host.absf main_arg10
  let main_cst_14 : FVec F S_ .f32 := constant S_ .f32 0x7F800000#32
  let main_v40 : FVec F S256x128 .f32 := broadcastInDim S256x128 ![] bcast_S_S256x128 main_cst_14
  let main_v41 : IVec S256x128 1 := cmpf .olt main_v39 main_v40
  let main_c_15 : IVec S_ 1 := constantI S_ 1 1#1
  let main_v42 : IVec S_ 1 := (fun x v => Host.reduce IntOp.andi x v reducesTo_S256x128_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg12
  let main_cst_18 : FVec F S_ .f32 := constant S_ .f32 0x7F800000#32
  let main_v50 : FVec F S128x128 .f32 := broadcastInDim S128x128 ![] bcast_S_S128x128 main_cst_18
  fn_part3 (F := F) main_arg13 main_arg14 main_arg15 main_arg16 main_arg17 main_v48 main_v49 main_v50

def fn_part1 {F : FTy → Type} [FloatOps F] (main_arg6 : FVec F S256x128 .f32) (main_arg7 : FVec F S128 .f32) (main_arg8 : FVec F S128x128 .f32) (main_arg9 : FVec F S128 .f32) (main_arg10 : FVec F S256x128 .f32) (main_arg11 : FVec F S128 .f32) (main_arg12 : FVec F S128x128 .f32) (main_arg13 : FVec F S128 .f32) (main_arg14 : FVec F S256x128 .f32) (main_arg15 : FVec F S128 .f32) (main_arg16 : FVec F S128x128 .f32) (main_arg17 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S256x128 .f32 := Host.absf main_arg6
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_arg10 main_arg11 main_arg12 main_arg13 main_arg14 main_arg15 main_arg16 main_arg17 main_v33

def fn {F : FTy → Type} [FloatOps F] (main_arg0 : FVec F S50000x128 .f32) (main_arg1 : IVec S800000 32) (main_arg2 : IVec S800000 32) (main_arg3 : FVec F S50000x128 .f32) (main_arg4 : FVec F S128x128 .f32) (main_arg5 : FVec F S128 .f32) (main_arg6 : FVec F S256x128 .f32) (main_arg7 : FVec F S128 .f32) (main_arg8 : FVec F S128x128 .f32) (main_arg9 : FVec F S128 .f32) (main_arg10 : FVec F S256x128 .f32) (main_arg11 : FVec F S128 .f32) (main_arg12 : FVec F S128x128 .f32) (main_arg13 : FVec F S128 .f32) (main_arg14 : FVec F S256x128 .f32) (main_arg15 : FVec F S128 .f32) (main_arg16 : FVec F S128x128 .f32) (main_arg17 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x128 .f32 := Host.absf main_arg3
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_arg13 main_arg14 main_arg15 main_arg16 main_arg17 main_v13 main_v16
-- ==== Kernel.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S256x128 : Shape := ⟨2, ![256, 128]⟩
abbrev S50000 : Shape := ⟨1, ![50000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S10000x128 : Shape := ⟨2, ![10000, 128]⟩

abbrev nBuf : Space → Nat
  | .hbm => 85
  | .vmem => 25
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S50000x128, .f32⟩
  | .hbm, ⟨4, _⟩ => ⟨S128x128, .f32⟩
  | .hbm, ⟨5, _⟩ => ⟨S128, .f32⟩
  | .hbm, ⟨6, _⟩ => ⟨S256x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S256x128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S256x128, .f32⟩
  | .hbm, ⟨15, _⟩ => ⟨S128, .f32⟩
  | .hbm, ⟨16, _⟩ => ⟨S128x128, .f32⟩
  | .hbm, ⟨17, _⟩ => ⟨S128, .f32⟩
  | .hbm, ⟨18, _⟩ => ⟨S50000, .i32⟩
  | .hbm, ⟨19, _⟩ => ⟨S850000, .i32⟩
  | .hbm, ⟨20, _⟩ => ⟨S850000, .i32⟩
  | .hbm, ⟨21, _⟩ => ⟨S_, .f32⟩
  | .hbm, ⟨22, _⟩ => ⟨S850000, .f32⟩
  | .hbm, ⟨23, _⟩ => ⟨S_, .f32⟩
  | .hbm, ⟨24, _⟩ => ⟨S50000, .f32⟩
  | .hbm, ⟨25, _⟩ => ⟨S850000x1, .i32⟩
  | .hbm, ⟨26, _⟩ => ⟨S50000, .f32⟩
  | .hbm, ⟨27, _⟩ => ⟨S_, .f32⟩
  | .hbm, ⟨28, _⟩ => ⟨S50000, .f32⟩
  | .hbm, ⟨29, _⟩ => ⟨S50000, .i1⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S_, .i32⟩
  | .hbm, ⟨35, _⟩ => ⟨S850000, .i32⟩
  | .hbm, ⟨36, _⟩ => ⟨S850000, .i1⟩
  | .hbm, ⟨37, _⟩ => ⟨S_, .i32⟩
  | .hbm, ⟨38, _⟩ => ⟨S850000, .i32⟩
  | .hbm, ⟨39, _⟩ => ⟨S850000, .i32⟩
  | .hbm, ⟨40, _⟩ => ⟨S850000, .i32⟩
  | .hbm, ⟨41, _⟩ => ⟨S850000x1, .i32⟩
  | .hbm, ⟨42, _⟩ => ⟨S850000, .f32⟩
  | .hbm, ⟨43, _⟩ => ⟨S850000, .f32⟩
  | .hbm, ⟨44, _⟩ => ⟨S_, .i32⟩
  | .hbm, ⟨45, _⟩ => ⟨S850000, .i32⟩
  | .hbm, ⟨46, _⟩ => ⟨S850000, .i1⟩
  | .hbm, ⟨47, _⟩ => ⟨S_, .i32⟩
  | .hbm, ⟨48, _⟩ => ⟨S850000, .i32⟩
  | .hbm, ⟨49, _⟩ => ⟨S850000, .i32⟩
  | .hbm, ⟨50, _⟩ => ⟨S850000, .i32⟩
  | .hbm, ⟨51, _⟩ => ⟨S850000x1, .i32⟩
  | .hbm, ⟨52, _⟩ => ⟨S850000, .f32⟩
  | .hbm, ⟨53, _⟩ => ⟨S850000, .f32⟩
  | .hbm, ⟨54, _⟩ => ⟨S_, .i32⟩
  | .hbm, ⟨55, _⟩ => ⟨S850000, .i32⟩
  | .hbm, ⟨56, _⟩ => ⟨S850000, .i1⟩
  | .hbm, ⟨57, _⟩ => ⟨S_, .i32⟩
  | .hbm, ⟨58, _⟩ => ⟨S850000, .i32⟩
  | .hbm, ⟨59, _⟩ => ⟨S850000, .i32⟩
  | .hbm, ⟨60, _⟩ => ⟨S850000, .i32⟩
  | .hbm, ⟨61, _⟩ => ⟨S850000x1, .i32⟩
  | .hbm, ⟨62, _⟩ => ⟨S850000x128, .f32⟩
  | .hbm, ⟨63, _⟩ => ⟨S850000x1, .f32⟩
  | .hbm, ⟨64, _⟩ => ⟨S850000x128, .f32⟩
  | .hbm, ⟨65, _⟩ => ⟨S850000x128, .f32⟩
  | .hbm, ⟨66, _⟩ => ⟨S_, .f32⟩
  | .hbm, ⟨67, _⟩ => ⟨S50000x128, .f32⟩
  | .hbm, ⟨68, _⟩ => ⟨S850000x1, .i32⟩
  | .hbm, ⟨69, _⟩ => ⟨S50000x128, .f32⟩
  | .hbm, ⟨70, _⟩ => ⟨S128x128, .f32⟩
  | .hbm, ⟨71, _⟩ => ⟨S128x128, .f32⟩
  | .hbm, ⟨72, _⟩ => ⟨S128x128, .f32⟩
  | .hbm, ⟨73, _⟩ => ⟨S128x128, .f32⟩
  | .hbm, ⟨74, _⟩ => ⟨S128x128, .f32⟩
  | .hbm, ⟨75, _⟩ => ⟨S128x128, .f32⟩
  | .hbm, ⟨76, _⟩ => ⟨S1x128, .f32⟩
  | .hbm, ⟨77, _⟩ => ⟨S1x128, .f32⟩
  | .hbm, ⟨78, _⟩ => ⟨S1x128, .f32⟩
  | .hbm, ⟨79, _⟩ => ⟨S1x128, .f32⟩
  | .hbm, ⟨80, _⟩ => ⟨S1x128, .f32⟩
  | .hbm, ⟨81, _⟩ => ⟨S1x128, .f32⟩
  | .hbm, ⟨82, _⟩ => ⟨S1x128, .f32⟩
  | .hbm, ⟨83, _⟩ => ⟨S50000x128, .f32⟩
  | .hbm, ⟨84, _⟩ => ⟨S50000x128, .f32⟩
  | .local _ .vmem, ⟨0, _⟩ => ⟨S10000x128, .f32⟩
  | .local _ .vmem, ⟨1, _⟩ => ⟨S10000x128, .f32⟩
  | .local _ .vmem, ⟨2, _⟩ => ⟨S10000x128, .f32⟩
  | .local _ .vmem, ⟨3, _⟩ => ⟨S10000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S128x128, .f32⟩
  | .local _ .vmem, ⟨9, _⟩ => ⟨S1x128, .f32⟩
  | .local _ .vmem, ⟨10, _⟩ => ⟨S128x128, .f32⟩
  | .local _ .vmem, ⟨11, _⟩ => ⟨S128x128, .f32⟩
  | .local _ .vmem, ⟨12, _⟩ => ⟨S1x128, .f32⟩
  | .local _ .vmem, ⟨13, _⟩ => ⟨S128x128, .f32⟩
  | .local _ .vmem, ⟨14, _⟩ => ⟨S128x128, .f32⟩
  | .local _ .vmem, ⟨15, _⟩ => ⟨S1x128, .f32⟩
  | .local _ .vmem, ⟨16, _⟩ => ⟨S128x128, .f32⟩
  | .local _ .vmem, ⟨17, _⟩ => ⟨S128x128, .f32⟩
  | .local _ .vmem, ⟨18, _⟩ => ⟨S1x128, .f32⟩
  | .local _ .vmem, ⟨19, _⟩ => ⟨S128x128, .f32⟩
  | .local _ .vmem, ⟨20, _⟩ => ⟨S1x128, .f32⟩
  | .local _ .vmem, ⟨21, _⟩ => ⟨S10000x128, .f32⟩
  | .local _ .vmem, ⟨22, _⟩ => ⟨S10000x128, .f32⟩
  | .local _ .vmem, ⟨23, _⟩ => ⟨S10000x128, .f32⟩
  | .local _ .vmem, ⟨24, _⟩ => ⟨S10000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_cst : Ref sig .tc := ⟨.hbm, 21, rfl⟩
abbrev main_v3 : Ref sig .tc := ⟨.hbm, 22, rfl⟩
abbrev main_cst_0 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_cst_1 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_cst_2 : Ref sig .tc := ⟨.hbm, 31, rfl⟩
abbrev main_v10 : Ref sig .tc := ⟨.hbm, 32, rfl⟩
abbrev main_v11 : Ref sig .tc := ⟨.hbm, 33, rfl⟩
abbrev main_c : Ref sig .tc := ⟨.hbm, 34, rfl⟩
abbrev main_v12 : Ref sig .tc := ⟨.hbm, 35, rfl⟩
abbrev main_v13 : Ref sig .tc := ⟨.hbm, 36, rfl⟩
abbrev main_c_3 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_c_4 : Ref sig .tc := ⟨.hbm, 44, rfl⟩
abbrev main_v20 : Ref sig .tc := ⟨.hbm, 45, rfl⟩
abbrev main_v21 : Ref sig .tc := ⟨.hbm, 46, rfl⟩
abbrev main_c_5 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_c_6 : Ref sig .tc := ⟨.hbm, 54, rfl⟩
abbrev main_v28 : Ref sig .tc := ⟨.hbm, 55, rfl⟩
abbrev main_v29 : Ref sig .tc := ⟨.hbm, 56, rfl⟩
abbrev main_c_7 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_cst_8 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54_0 : Ref sig .tc := ⟨.hbm, 83, rfl⟩
abbrev main_v54_1 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg17_0 : Ref sig .tc := ⟨.vmem, 19, rfl⟩
abbrev cc0_stg18_0 : Ref sig .tc := ⟨.vmem, 20, rfl⟩
abbrev cc0_stg19_0 : Ref sig .tc := ⟨.vmem, 21, rfl⟩
abbrev cc0_stg19_1 : Ref sig .tc := ⟨.vmem, 22, rfl⟩
abbrev cc0_stg20_0 : Ref sig .tc := ⟨.vmem, 23, rfl⟩
abbrev cc0_stg20_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem17_0 : DmaSem sig := 19
abbrev cc0_sem18_0 : DmaSem sig := 20
abbrev cc0_sem19_0 : DmaSem sig := 21
abbrev cc0_sem19_1 : DmaSem sig := 22
abbrev cc0_sem20_0 : DmaSem sig := 23
abbrev cc0_sem20_1 : DmaSem sig := 24

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S128x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S128x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S128x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 2 → Memref sig .tc .vmem S10000x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S10000x128 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

class Facts₀ : Prop where
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  slices_S256x128_S128x128_0_0 : S256x128.Slices ![0, 0] S128x128
  slices_S256x128_S128x128_128_0 : S256x128.Slices ![128, 0] S128x128
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  shapeCasts_S128x128_S128x128 : S128x128.ShapeCasts S128x128
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S10000x128_S128x128_S10000x128_1_0_0_1_n_n_wf : DotDims.WF S10000x128 S128x128 S10000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S50000x128.size a
  hwx0_0 : ∀ i : grid0.Coords, EltTy.bits .f32 = 32 ∨ (Rect.block (s := S50000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S50000x128.size a
  hwx0_1 : ∀ i : grid0.Coords, EltTy.bits .f32 = 32 ∨ (Rect.block (s := S50000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .f32 = 32 ∨ (Rect.block (s := S128x128) S128x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x128.size a ≤ S128x128.size a
  hwx0_8 : ∀ i : grid0.Coords, EltTy.bits .f32 = 32 ∨ (Rect.block (s := S128x128) S128x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x128.size a ≤ S128x128.size a
  hwx0_9 : ∀ i : grid0.Coords, EltTy.bits .f32 = 32 ∨ (Rect.block (s := S128x128) S128x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x128.size a ≤ S1x128.size a
  hwx0_10 : ∀ i : grid0.Coords, EltTy.bits .f32 = 32 ∨ (Rect.block (s := S1x128) S1x128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S128x128.size a ≤ S128x128.size a
  hwx0_11 : ∀ i : grid0.Coords, EltTy.bits .f32 = 32 ∨ (Rect.block (s := S128x128) S128x128.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S128x128.size a ≤ S128x128.size a
  hwx0_12 : ∀ i : grid0.Coords, EltTy.bits .f32 = 32 ∨ (Rect.block (s := S128x128) S128x128.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x128.size a ≤ S1x128.size a
  hwx0_13 : ∀ i : grid0.Coords, EltTy.bits .f32 = 32 ∨ (Rect.block (s := S1x128) S1x128.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S128x128.size a ≤ S128x128.size a
  hwx0_14 : ∀ i : grid0.Coords, EltTy.bits .f32 = 32 ∨ (Rect.block (s := S128x128) S128x128.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S128x128.size a ≤ S128x128.size a
  hwx0_15 : ∀ i : grid0.Coords, EltTy.bits .f32 = 32 ∨ (Rect.block (s := S128x128) S128x128.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S1x128.size a ≤ S1x128.size a
  hwx0_16 : ∀ i : grid0.Coords, EltTy.bits .f32 = 32 ∨ (Rect.block (s := S1x128) S1x128.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S128x128.size a ≤ S128x128.size a
  hwx0_17 : ∀ i : grid0.Coords, EltTy.bits .f32 = 32 ∨ (Rect.block (s := S128x128) S128x128.size (cc0_transform_17 i) (hinb0_17 i)).WholeWords (EltTy.packing .f32)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S1x128.size a ≤ S1x128.size a
  hwx0_18 : ∀ i : grid0.Coords, EltTy.bits .f32 = 32 ∨ (Rect.block (s := S1x128) S1x128.size (cc0_transform_18 i) (hinb0_18 i)).WholeWords (EltTy.packing .f32)
  hstage0_19 : ∀ j, (stage0_19 j).IsWhole
  nbuf0_19 : grid0.bufCount reads0_19 false = 2
  hreads0_19 : ∀ i i' : grid0.Coords, (∀ a, reads0_19 a = true → i a = i' a) → cc0_transform_19 i = cc0_transform_19 i'
  hinb0_19 : ∀ (i : grid0.Coords) a, (cc0_transform_19 i a + 1) * S10000x128.size a ≤ S50000x128.size a
  hwx0_19 : ∀ i : grid0.Coords, EltTy.bits .f32 = 32 ∨ (Rect.block (s := S50000x128) S10000x128.size (cc0_transform_19 i) (hinb0_19 i)).WholeWords (EltTy.packing .f32)
  hstage0_20 : ∀ j, (stage0_20 j).IsWhole
  nbuf0_20 : grid0.bufCount reads0_20 false = 2
  hreads0_20 : ∀ i i' : grid0.Coords, (∀ a, reads0_20 a = true → i a = i' a) → cc0_transform_20 i = cc0_transform_20 i'
  hinb0_20 : ∀ (i : grid0.Coords) a, (cc0_transform_20 i a + 1) * S10000x128.size a ≤ S50000x128.size a
  hwx0_20 : ∀ i : grid0.Coords, EltTy.bits .f32 = 32 ∨ (Rect.block (s := S50000x128) S10000x128.size (cc0_transform_20 i) (hinb0_20 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

abbrev win0_0 : Pipeline.Window sig grid0 :=
  Pipeline.Window.ofSpec (Memref.whole main_v40) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S10000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v47) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg8) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v48) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg12) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v49) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v41) S128x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v42) S128x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v50) S1x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v43) S128x128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v44) S128x128.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v51) S1x128.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v45) S128x128.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v46) S128x128.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v52) S1x128.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_arg16) S128x128.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_v53) S1x128.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_v54_0) S10000x128.size cc0_transform_19 reads0_19 true false 2 stage0_19 sem0_19
    hrank0 hreads0_19 hinb0_19 nbuf0_19 (Memref.isWhole_whole _) hwx0_19 hstage0_19

abbrev win0_20 : Pipeline.Window sig grid0 :=
  Pipeline.Window.ofSpec (Memref.whole main_v54_1) S10000x128.size cc0_transform_20 reads0_20 true false 2 stage0_20 sem0_20
    hrank0 hreads0_20 hinb0_20 nbuf0_20 (Memref.isWhole_whole _) hwx0_20 hstage0_20

abbrev win0 : Fin 21 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | ⟨_ + 21, h⟩ => absurd h (Nat.not_lt.2 (Nat.le_add_left _ _))
abbrev spec0 : Fin 21 → Pipeline.WinSpec sig grid0.rank := fun w => (win0 w).toWinSpec

class Facts : Prop extends Facts₀ where

variable [Facts]
-- ==== ReferenceIdeal.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S256x128 : Shape := ⟨2, ![256, 128]⟩
abbrev S50000 : Shape := ⟨1, ![50000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S50000x256 : Shape := ⟨2, ![50000, 256]⟩

abbrev nBuf : Space → Nat
  | .hbm => 232
  | .vmem => 0
  | .smem => 0
  | _ => 0

abbrev hbmTy0_0 (i : Nat) : BufTy := match i % 128 with
  | 0 => ⟨S50000x128, .f32⟩
  | 1 => ⟨S800000, .i32⟩
  | 2 => ⟨S800000, .i32⟩
  | 3 => ⟨S50000x128, .f32⟩
  | 4 => ⟨S128x128, .f32⟩
  | 5 => ⟨S128, .f32⟩
  | 6 => ⟨S256x128, .f32⟩
  | 7 => ⟨S128, .f32⟩
  | 8 => ⟨S128x128, .f32⟩
  | 9 => ⟨S128, .f32⟩
  | 10 => ⟨S256x128, .f32⟩
  | 11 => ⟨S128, .f32⟩
  | 12 => ⟨S128x128, .f32⟩
  | 13 => ⟨S128, .f32⟩
  | 14 => ⟨S256x128, .f32⟩
  | 15 => ⟨S128, .f32⟩
  | 16 => ⟨S128x128, .f32⟩
  | 17 => ⟨S128, .f32⟩
  | 18 => ⟨S50000x128, .f32⟩
  | 19 => ⟨S50000, .i32⟩
  | 20 => ⟨S850000, .i32⟩
  | 21 => ⟨S850000, .i32⟩
  | 22 => ⟨S_, .f32⟩
  | 23 => ⟨S850000, .f32⟩
  | 24 => ⟨S_, .f32⟩
  | 25 => ⟨S50000, .f32⟩
  | 26 => ⟨S850000x1, .i32⟩
  | 27 => ⟨S50000, .f32⟩
  | 28 => ⟨S_, .f32⟩
  | 29 => ⟨S50000, .f32⟩
  | 30 => ⟨S50000, .i1⟩
  | 31 => ⟨S50000, .f32⟩
  | 32 => ⟨S_, .f32⟩
  | 33 => ⟨S50000, .f32⟩
  | 34 => ⟨S50000, .f32⟩
  | 35 => ⟨S_, .i32⟩
  | 36 => ⟨S850000, .i32⟩
  | 37 => ⟨S850000, .i1⟩
  | 38 => ⟨S_, .i32⟩
  | 39 => ⟨S850000, .i32⟩
  | 40 => ⟨S850000, .i32⟩
  | 41 => ⟨S850000, .i32⟩
  | 42 => ⟨S850000x1, .i32⟩
  | 43 => ⟨S850000, .f32⟩
  | 44 => ⟨S850000, .f32⟩
  | 45 => ⟨S_, .i32⟩
  | 46 => ⟨S850000, .i32⟩
  | 47 => ⟨S850000, .i1⟩
  | 48 => ⟨S_, .i32⟩
  | 49 => ⟨S850000, .i32⟩
  | 50 => ⟨S850000, .i32⟩
  | 51 => ⟨S850000, .i32⟩
  | 52 => ⟨S850000x1, .i32⟩
  | 53 => ⟨S850000, .f32⟩
  | 54 => ⟨S850000, .f32⟩
  | 55 => ⟨S850000x1, .f32⟩
  | 56 => ⟨S_, .i32⟩
  | 57 => ⟨S850000, .i32⟩
  | 58 => ⟨S850000, .i1⟩
  | 59 => ⟨S_, .i32⟩
  | 60 => ⟨S850000, .i32⟩
  | 61 => ⟨S850000, .i32⟩
  | 62 => ⟨S850000, .i32⟩
  | 63 => ⟨S850000x1, .i32⟩
  | 64 => ⟨S850000x128, .f32⟩
  | 65 => ⟨S850000x128, .f32⟩
  | 66 => ⟨S850000x128, .f32⟩
  | 67 => ⟨S_, .f32⟩
  | 68 => ⟨S50000x128, .f32⟩
  | 69 => ⟨S850000x1, .i32⟩
  | 70 => ⟨S50000x128, .f32⟩
  | 71 => ⟨S1x128, .f32⟩
  | 72 => ⟨S50000x128, .f32⟩
  | 73 => ⟨S50000x128, .f32⟩
  | 74 => ⟨S50000x256, .f32⟩
  | 75 => ⟨S50000x128, .f32⟩
  | 76 => ⟨S1x128, .f32⟩
  | 77 => ⟨S50000x128, .f32⟩
  | 78 => ⟨S50000x128, .f32⟩
  | 79 => ⟨S50000x128, .f32⟩
  | 80 => ⟨S50000x128, .f32⟩
  | 81 => ⟨S_, .f32⟩
  | 82 => ⟨S50000x128, .f32⟩
  | 83 => ⟨S50000x128, .f32⟩
  | 84 => ⟨S_, .f32⟩
  | 85 => ⟨S50000x128, .f32⟩
  | 86 => ⟨S50000x128, .f32⟩
  | 87 => ⟨S50000x128, .f32⟩
  | 88 => ⟨S50000, .i32⟩
  | 89 => ⟨S850000, .i32⟩
  | 90 => ⟨S850000, .i32⟩
  | 91 => ⟨S_, .f32⟩
  | 92 => ⟨S850000, .f32⟩
  | 93 => ⟨S_, .f32⟩
  | 94 => ⟨S50000, .f32⟩
  | 95 => ⟨S850000x1, .i32⟩
  | 96 => ⟨S50000, .f32⟩
  | 97 => ⟨S_, .f32⟩
  | 98 => ⟨S50000, .f32⟩
  | 99 => ⟨S50000, .i1⟩
  | 100 => ⟨S50000, .f32⟩
  | 101 => ⟨S_, .f32⟩
  | 102 => ⟨S50000, .f32⟩
  | 103 => ⟨S50000, .f32⟩
  | 104 => ⟨S_, .i32⟩
  | 105 => ⟨S850000, .i32⟩
  | 106 => ⟨S850000, .i1⟩
  | 107 => ⟨S_, .i32⟩
  | 108 => ⟨S850000, .i32⟩
  | 109 => ⟨S850000, .i32⟩
  | 110 => ⟨S850000, .i32⟩
  | 111 => ⟨S850000x1, .i32⟩
  | 112 => ⟨S850000, .f32⟩
  | 113 => ⟨S850000, .f32⟩
  | 114 => ⟨S_, .i32⟩
  | 115 => ⟨S850000, .i32⟩
  | 116 => ⟨S850000, .i1⟩
  | 117 => ⟨S_, .i32⟩
  | 118 => ⟨S850000, .i32⟩
  | 119 => ⟨S850000, .i32⟩
  | 120 => ⟨S850000, .i32⟩
  | 121 => ⟨S850000x1, .i32⟩
  | 122 => ⟨S850000, .f32⟩
  | 123 => ⟨S850000, .f32⟩
  | 124 => ⟨S850000x1, .f32⟩
  | 125 => ⟨S_, .i32⟩
  | 126 => ⟨S850000, .i32⟩
  | 127 => ⟨S850000, .i1⟩
  | _ => ⟨S50000x128, .f32⟩

abbrev hbmTy0_1 (i : Nat) : BufTy := match i % 128 with
  | 0 => ⟨S_, .i32⟩
  | 1 => ⟨S850000, .i32⟩
  | 2 => ⟨S850000, .i32⟩
  | 3 => ⟨S850000, .i32⟩
  | 4 => ⟨S850000x1, .i32⟩
  | 5 => ⟨S850000x128, .f32⟩
  | 6 => ⟨S850000x128, .f32⟩
  | 7 => ⟨S850000x128, .f32⟩
  | 8 => ⟨S_, .f32⟩
  | 9 => ⟨S50000x128, .f32⟩
  | 10 => ⟨S850000x1, .i32⟩
  | 11 => ⟨S50000x128, .f32⟩
  | 12 => ⟨S1x128, .f32⟩
  | 13 => ⟨S50000x128, .f32⟩
  | 14 => ⟨S50000x128, .f32⟩
  | 15 => ⟨S50000x256, .f32⟩
  | 16 => ⟨S50000x128, .f32⟩
  | 17 => ⟨S1x128, .f32⟩
  | 18 => ⟨S50000x128, .f32⟩
  | 19 => ⟨S50000x128, .f32⟩
  | 20 => ⟨S50000x128, .f32⟩
  | 21 => ⟨S50000x128, .f32⟩
  | 22 => ⟨S_, .f32⟩
  | 23 => ⟨S50000x128, .f32⟩
  | 24 => ⟨S50000x128, .f32⟩
  | 25 => ⟨S_, .f32⟩
  | 26 => ⟨S50000x128, .f32⟩
  | 27 => ⟨S50000x128, .f32⟩
  | 28 => ⟨S50000x128, .f32⟩
  | 29 => ⟨S50000, .i32⟩
  | 30 => ⟨S850000, .i32⟩
  | 31 => ⟨S850000, .i32⟩
  | 32 => ⟨S_, .f32⟩
  | 33 => ⟨S850000, .f32⟩
  | 34 => ⟨S_, .f32⟩
  | 35 => ⟨S50000, .f32⟩
  | 36 => ⟨S850000x1, .i32⟩
  | 37 => ⟨S50000, .f32⟩
  | 38 => ⟨S_, .f32⟩
  | 39 => ⟨S50000, .f32⟩
  | 40 => ⟨S50000, .i1⟩
  | 41 => ⟨S50000, .f32⟩
  | 42 => ⟨S_, .f32⟩
  | 43 => ⟨S50000, .f32⟩
  | 44 => ⟨S50000, .f32⟩
  | 45 => ⟨S_, .i32⟩
  | 46 => ⟨S850000, .i32⟩
  | 47 => ⟨S850000, .i1⟩
  | 48 => ⟨S_, .i32⟩
  | 49 => ⟨S850000, .i32⟩
  | 50 => ⟨S850000, .i32⟩
  | 51 => ⟨S850000, .i32⟩
  | 52 => ⟨S850000x1, .i32⟩
  | 53 => ⟨S850000, .f32⟩
  | 54 => ⟨S850000, .f32⟩
  | 55 => ⟨S_, .i32⟩
  | 56 => ⟨S850000, .i32⟩
  | 57 => ⟨S850000, .i1⟩
  | 58 => ⟨S_, .i32⟩
  | 59 => ⟨S850000, .i32⟩
  | 60 => ⟨S850000, .i32⟩
  | 61 => ⟨S850000, .i32⟩
  | 62 => ⟨S850000x1, .i32⟩
  | 63 => ⟨S850000, .f32⟩
  | 64 => ⟨S850000, .f32⟩
  | 65 => ⟨S850000x1, .f32⟩
  | 66 => ⟨S_, .i32⟩
  | 67 => ⟨S850000, .i32⟩
  | 68 => ⟨S850000, .i1⟩
  | 69 => ⟨S_, .i32⟩
  | 70 => ⟨S850000, .i32⟩
  | 71 => ⟨S850000, .i32⟩
  | 72 => ⟨S850000, .i32⟩
  | 73 => ⟨S850000x1, .i32⟩
  | 74 => ⟨S850000x128, .f32⟩
  | 75 => ⟨S850000x128, .f32⟩
  | 76 => ⟨S850000x128, .f32⟩
  | 77 => ⟨S_, .f32⟩
  | 78 => ⟨S50000x128, .f32⟩
  | 79 => ⟨S850000x1, .i32⟩
  | 80 => ⟨S50000x128, .f32⟩
  | 81 => ⟨S1x128, .f32⟩
  | 82 => ⟨S50000x128, .f32⟩
  | 83 => ⟨S50000x128, .f32⟩
  | 84 => ⟨S50000x128, .f32⟩
  | 85 => ⟨S50000x256, .f32⟩
  | 86 => ⟨S50000x128, .f32⟩
  | 87 => ⟨S1x128, .f32⟩
  | 88 => ⟨S50000x128, .f32⟩
  | 89 => ⟨S50000x128, .f32⟩
  | 90 => ⟨S50000x128, .f32⟩
  | 91 => ⟨S50000x128, .f32⟩
  | 92 => ⟨S_, .f32⟩
  | 93 => ⟨S50000x128, .f32⟩
  | 94 => ⟨S50000x128, .f32⟩
  | 95 => ⟨S50000x128, .f32⟩
  | 96 => ⟨S50000x128, .f32⟩
  | 97 => ⟨S_, .f32⟩
  | 98 => ⟨S50000x128, .f32⟩
  | 99 => ⟨S50000x128, .f32⟩
  | 100 => ⟨S50000x128, .f32⟩
  | 101 => ⟨S1x128, .f32⟩
  | 102 => ⟨S50000x128, .f32⟩
  | 103 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_cst : Ref sig .tc := ⟨.hbm, 22, rfl⟩
abbrev main_v4 : Ref sig .tc := ⟨.hbm, 23, rfl⟩
abbrev main_cst_0 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_cst_1 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_cst_2 : Ref sig .tc := ⟨.hbm, 32, rfl⟩
abbrev main_v11 : Ref sig .tc := ⟨.hbm, 33, rfl⟩
abbrev main_v12 : Ref sig .tc := ⟨.hbm, 34, rfl⟩
abbrev main_c : Ref sig .tc := ⟨.hbm, 35, rfl⟩
abbrev main_v13 : Ref sig .tc := ⟨.hbm, 36, rfl⟩
abbrev main_v14 : Ref sig .tc := ⟨.hbm, 37, rfl⟩
abbrev main_c_3 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_c_4 : Ref sig .tc := ⟨.hbm, 45, rfl⟩
abbrev main_v21 : Ref sig .tc := ⟨.hbm, 46, rfl⟩
abbrev main_v22 : Ref sig .tc := ⟨.hbm, 47, rfl⟩
abbrev main_c_5 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_c_6 : Ref sig .tc := ⟨.hbm, 56, rfl⟩
abbrev main_v30 : Ref sig .tc := ⟨.hbm, 57, rfl⟩
abbrev main_v31 : Ref sig .tc := ⟨.hbm, 58, rfl⟩
abbrev main_c_7 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_cst_8 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_cst_9 : Ref sig .tc := ⟨.hbm, 81, rfl⟩
abbrev main_v52 : Ref sig .tc := ⟨.hbm, 82, rfl⟩
abbrev main_v53 : Ref sig .tc := ⟨.hbm, 83, rfl⟩
abbrev main_cst_10 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_cst_11 : Ref sig .tc := ⟨.hbm, 91, rfl⟩
abbrev main_v60 : Ref sig .tc := ⟨.hbm, 92, rfl⟩
abbrev main_cst_12 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_cst_13 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_cst_14 : Ref sig .tc := ⟨.hbm, 101, rfl⟩
abbrev main_v67 : Ref sig .tc := ⟨.hbm, 102, rfl⟩
abbrev main_v68 : Ref sig .tc := ⟨.hbm, 103, rfl⟩
abbrev main_c_15 : Ref sig .tc := ⟨.hbm, 104, rfl⟩
abbrev main_v69 : Ref sig .tc := ⟨.hbm, 105, rfl⟩
abbrev main_v70 : Ref sig .tc := ⟨.hbm, 106, rfl⟩
abbrev main_c_16 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_c_17 : Ref sig .tc := ⟨.hbm, 114, rfl⟩
abbrev main_v77 : Ref sig .tc := ⟨.hbm, 115, rfl⟩
abbrev main_v78 : Ref sig .tc := ⟨.hbm, 116, rfl⟩
abbrev main_c_18 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_c_19 : Ref sig .tc := ⟨.hbm, 125, rfl⟩
abbrev main_v86 : Ref sig .tc := ⟨.hbm, 126, rfl⟩
abbrev main_v87 : Ref sig .tc := ⟨.hbm, 127, rfl⟩
abbrev main_c_20 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_cst_21 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_cst_22 : Ref sig .tc := ⟨.hbm, 150, rfl⟩
abbrev main_v108 : Ref sig .tc := ⟨.hbm, 151, rfl⟩
abbrev main_v109 : Ref sig .tc := ⟨.hbm, 152, rfl⟩
abbrev main_cst_23 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_cst_24 : Ref sig .tc := ⟨.hbm, 160, rfl⟩
abbrev main_v116 : Ref sig .tc := ⟨.hbm, 161, rfl⟩
abbrev main_cst_25 : Ref sig .tc := ⟨.hbm, 162, rfl⟩
abbrev main_v117 : Ref sig .tc := ⟨.hbm, 163, rfl⟩
abbrev main_v118 : Ref sig .tc := ⟨.hbm, 164, rfl⟩
abbrev main_v119 : Ref sig .tc := ⟨.hbm, 165, rfl⟩
abbrev main_cst_26 : Ref sig .tc := ⟨.hbm, 166, rfl⟩
abbrev main_v120 : Ref sig .tc := ⟨.hbm, 167, rfl⟩
abbrev main_v121 : Ref sig .tc := ⟨.hbm, 168, rfl⟩
abbrev main_v122 : Ref sig .tc := ⟨.hbm, 169, rfl⟩
abbrev main_cst_27 : Ref sig .tc := ⟨.hbm, 170, rfl⟩
abbrev main_v123 : Ref sig .tc := ⟨.hbm, 171, rfl⟩
abbrev main_v124 : Ref sig .tc := ⟨.hbm, 172, rfl⟩
abbrev main_c_28 : Ref sig .tc := ⟨.hbm, 173, rfl⟩
abbrev main_v125 : Ref sig .tc := ⟨.hbm, 174, rfl⟩
abbrev main_v126 : Ref sig .tc := ⟨.hbm, 175, rfl⟩
abbrev main_c_29 : Ref sig .tc := ⟨.hbm, 176, rfl⟩
abbrev main_v127 : Ref sig .tc := ⟨.hbm, 177, rfl⟩
abbrev main_v128 : Ref sig .tc := ⟨.hbm, 178, rfl⟩
abbrev main_v129 : Ref sig .tc := ⟨.hbm, 179, rfl⟩
abbrev main_v130 : Ref sig .tc := ⟨.hbm, 180, rfl⟩
abbrev main_v131 : Ref sig .tc := ⟨.hbm, 181, rfl⟩
abbrev main_v132 : Ref sig .tc := ⟨.hbm, 182, rfl⟩
abbrev main_c_30 : Ref sig .tc := ⟨.hbm, 183, rfl⟩
abbrev main_v133 : Ref sig .tc := ⟨.hbm, 184, rfl⟩
abbrev main_v134 : Ref sig .tc := ⟨.hbm, 185, rfl⟩
abbrev main_c_31 : Ref sig .tc := ⟨.hbm, 186, rfl⟩
abbrev main_v135 : Ref sig .tc := ⟨.hbm, 187, rfl⟩
abbrev main_v136 : Ref sig .tc := ⟨.hbm, 188, rfl⟩
abbrev main_v137 : Ref sig .tc := ⟨.hbm, 189, rfl⟩
abbrev main_v138 : Ref sig .tc := ⟨.hbm, 190, rfl⟩
abbrev main_v139 : Ref sig .tc := ⟨.hbm, 191, rfl⟩
abbrev main_v140 : Ref sig .tc := ⟨.hbm, 192, rfl⟩
abbrev main_v141 : Ref sig .tc := ⟨.hbm, 193, rfl⟩
abbrev main_c_32 : Ref sig .tc := ⟨.hbm, 194, rfl⟩
abbrev main_v142 : Ref sig .tc := ⟨.hbm, 195, rfl⟩
abbrev main_v143 : Ref sig .tc := ⟨.hbm, 196, rfl⟩
abbrev main_c_33 : Ref sig .tc := ⟨.hbm, 197, rfl⟩
abbrev main_v144 : Ref sig .tc := ⟨.hbm, 198, rfl⟩
abbrev main_v145 : Ref sig .tc := ⟨.hbm, 199, rfl⟩
abbrev main_v146 : Ref sig .tc := ⟨.hbm, 200, rfl⟩
abbrev main_v147 : Ref sig .tc := ⟨.hbm, 201, rfl⟩
abbrev main_v148 : Ref sig .tc := ⟨.hbm, 202, rfl⟩
abbrev main_v149 : Ref sig .tc := ⟨.hbm, 203, rfl⟩
abbrev main_v150 : Ref sig .tc := ⟨.hbm, 204, rfl⟩
abbrev main_cst_34 : Ref sig .tc := ⟨.hbm, 205, rfl⟩
abbrev main_v151 : Ref sig .tc := ⟨.hbm, 206, rfl⟩
abbrev main_v152 : Ref sig .tc := ⟨.hbm, 207, rfl⟩
abbrev main_v153 : Ref sig .tc := ⟨.hbm, 208, rfl⟩
abbrev main_v154 : Ref sig .tc := ⟨.hbm, 209, rfl⟩
abbrev main_v155 : Ref sig .tc := ⟨.hbm, 210, rfl⟩
abbrev main_v156 : Ref sig .tc := ⟨.hbm, 211, rfl⟩
abbrev main_v157 : Ref sig .tc := ⟨.hbm, 212, rfl⟩
abbrev main_v158 : Ref sig .tc := ⟨.hbm, 213, rfl⟩
abbrev main_v159 : Ref sig .tc := ⟨.hbm, 214, rfl⟩
abbrev main_v160 : Ref sig .tc := ⟨.hbm, 215, rfl⟩
abbrev main_v161 : Ref sig .tc := ⟨.hbm, 216, rfl⟩
abbrev main_v162 : Ref sig .tc := ⟨.hbm, 217, rfl⟩
abbrev main_v163 : Ref sig .tc := ⟨.hbm, 218, rfl⟩
abbrev main_v164 : Ref sig .tc := ⟨.hbm, 219, rfl⟩
abbrev main_cst_35 : Ref sig .tc := ⟨.hbm, 220, rfl⟩
abbrev main_v165 : Ref sig .tc := ⟨.hbm, 221, rfl⟩
abbrev main_v166 : Ref sig .tc := ⟨.hbm, 222, rfl⟩
abbrev main_v167 : Ref sig .tc := ⟨.hbm, 223, rfl⟩
abbrev main_v168 : Ref sig .tc := ⟨.hbm, 224, rfl⟩
abbrev main_call3_cst : Ref sig .tc := ⟨.hbm, 225, rfl⟩
abbrev main_call3_v0 : Ref sig .tc := ⟨.hbm, 226, rfl⟩
abbrev main_v169 : Ref sig .tc := ⟨.hbm, 227, rfl⟩
abbrev main_v170 : Ref sig .tc := ⟨.hbm, 228, rfl⟩
abbrev main_v171 : Ref sig .tc := ⟨.hbm, 229, rfl⟩
abbrev main_v172 : Ref sig .tc := ⟨.hbm, 230, rfl⟩
abbrev main_v173 : Ref sig .tc := ⟨.hbm, 231, rfl⟩

abbrev nD : Nat := 1
abbrev τ : Topo := Topo.v7x

variable {F : FTy → Type} [FloatOps F]

class Facts₀ : Prop where
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  concatenates_S50000x128_S50000x128_S50000x256_d1 : Shape.Concatenates [S50000x128, S50000x128] S50000x256 1
  dot_S50000x128_S128x128_S50000x128_1_0_0_1_n_n_wf : DotDims.WF S50000x128 S128x128 S50000x128 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x256_S256x128_S50000x128_1_0_0_1_n_n_wf : DotDims.WF S50000x256 S256x128 S50000x128 [1] [0] [0] [1] [] []

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf

class Facts : Prop extends Facts₀ where

variable [Facts]
-- ==== Proof.RefRunA.lean ====
/-
  The reference's first stretch, read back. From any contents `V` of the device's buffers, after the 56 operations
  up to the first convolution's output, that output holds the first convolution's stage of the inputs as `V` has
  them, and every input is as `V` has it (no operation of the stretch writes an input).
-/
import proofs.«110313_j28329604284505_2_alg».proof.Proof.RunP
import proofs.«110313_j28329604284505_2_alg».proof.Proof.ReadP
import Idealize.ShloMosaic.Lib.StableHlo.Run

noncomputable section

namespace Cert.ReferenceIdeal.RefRun

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo

variable {F : FTy → Type} [FloatOps F]

set_option maxHeartbeats 2000000 in
/-- After the first stretch the first convolution's output is its stage of the inputs: each operation's result is
    read at its own buffer and every other buffer is as before, so the fold of the 56 operations at `main_v44` is the
    composition of their functions over the contents of the five inputs, which is how the stage is defined. -/
theorem A_v44 (V : Valuation τ sig (Elt F)) :
    after opsA V (Proc.devRef .tc main_v44)
      = val_main_v44 (F := F) (V (Proc.devRef .tc main_arg0)) (V (Proc.devRef .tc main_arg1)) (V (Proc.devRef .tc main_arg2)) (V (Proc.devRef .tc main_arg4)) (V (Proc.devRef .tc main_arg5)) := by
  delta opsA
  after_results_simp
  all_goals rfl

/-- Closes `after opsA V r = V r` for a reference `r` no operation of the stretch writes: each operation writes one
    buffer, a reference other than `r`. -/
local macro "stretch_keeps" : tactic => `(tactic|
  exact StableHlo.after_of_forall_not_mem _ _ (List.forall_iff_forall_mem.mp (by
    simp only [opsA, List.Forall, StableHlo.nullary_writes, StableHlo.unary_writes, StableHlo.binary_writes,
      StableHlo.ternary_writes, Finset.mem_singleton]
    repeat' apply And.intro
    all_goals exact StableHlo.devRef_ne_of_ne (by decide))))

/-- The first stretch writes no input. -/
theorem A_arg0 (V : Valuation τ sig (Elt F)) : after opsA V (Proc.devRef .tc main_arg0) = V (Proc.devRef .tc main_arg0) := by stretch_keeps
theorem A_arg1 (V : Valuation τ sig (Elt F)) : after opsA V (Proc.devRef .tc main_arg1) = V (Proc.devRef .tc main_arg1) := by stretch_keeps
theorem A_arg2 (V : Valuation τ sig (Elt F)) : after opsA V (Proc.devRef .tc main_arg2) = V (Proc.devRef .tc main_arg2) := by stretch_keeps
theorem A_arg3 (V : Valuation τ sig (Elt F)) : after opsA V (Proc.devRef .tc main_arg3) = V (Proc.devRef .tc main_arg3) := by stretch_keeps
theorem A_arg4 (V : Valuation τ sig (Elt F)) : after opsA V (Proc.devRef .tc main_arg4) = V (Proc.devRef .tc main_arg4) := by stretch_keeps
theorem A_arg5 (V : Valuation τ sig (Elt F)) : after opsA V (Proc.devRef .tc main_arg5) = V (Proc.devRef .tc main_arg5) := by stretch_keeps
theorem A_arg6 (V : Valuation τ sig (Elt F)) : after opsA V (Proc.devRef .tc main_arg6) = V (Proc.devRef .tc main_arg6) := by stretch_keeps
theorem A_arg7 (V : Valuation τ sig (Elt F)) : after opsA V (Proc.devRef .tc main_arg7) = V (Proc.devRef .tc main_arg7) := by stretch_keeps
theorem A_arg8 (V : Valuation τ sig (Elt F)) : after opsA V (Proc.devRef .tc main_arg8) = V (Proc.devRef .tc main_arg8) := by stretch_keeps
theorem A_arg9 (V : Valuation τ sig (Elt F)) : after opsA V (Proc.devRef .tc main_arg9) = V (Proc.devRef .tc main_arg9) := by stretch_keeps
theorem A_arg10 (V : Valuation τ sig (Elt F)) : after opsA V (Proc.devRef .tc main_arg10) = V (Proc.devRef .tc main_arg10) := by stretch_keeps
theorem A_arg11 (V : Valuation τ sig (Elt F)) : after opsA V (Proc.devRef .tc main_arg11) = V (Proc.devRef .tc main_arg11) := by stretch_keeps
theorem A_arg12 (V : Valuation τ sig (Elt F)) : after opsA V (Proc.devRef .tc main_arg12) = V (Proc.devRef .tc main_arg12) := by stretch_keeps
theorem A_arg13 (V : Valuation τ sig (Elt F)) : after opsA V (Proc.devRef .tc main_arg13) = V (Proc.devRef .tc main_arg13) := by stretch_keeps
theorem A_arg14 (V : Valuation τ sig (Elt F)) : after opsA V (Proc.devRef .tc main_arg14) = V (Proc.devRef .tc main_arg14) := by stretch_keeps
theorem A_arg15 (V : Valuation τ sig (Elt F)) : after opsA V (Proc.devRef .tc main_arg15) = V (Proc.devRef .tc main_arg15) := by stretch_keeps
theorem A_arg16 (V : Valuation τ sig (Elt F)) : after opsA V (Proc.devRef .tc main_arg16) = V (Proc.devRef .tc main_arg16) := by stretch_keeps
theorem A_arg17 (V : Valuation τ sig (Elt F)) : after opsA V (Proc.devRef .tc main_arg17) = V (Proc.devRef .tc main_arg17) := by stretch_keeps

end Cert.ReferenceIdeal.RefRun

end
-- ==== Proof.RefRunB.lean ====
/-
  The reference's remaining three stretches, read back. From any contents `W` of the device's buffers (in
  particular: what the first stretch leaves), the two results after the remaining 158 operations are functions of
  `W` at the first convolution's output and at the inputs; and when that output holds the first convolution's stage,
  those functions are the stages of the two results. Each stretch begins with the join of a block computed in the
  stretch before, so within a stretch every operand is either read from the stretch's starting contents or computed
  by a line of the same stretch.
-/
import proofs.«110313_j28329604284505_2_alg».proof.Proof.RunP
import proofs.«110313_j28329604284505_2_alg».proof.Proof.ReadP
import Idealize.ShloMosaic.Lib.StableHlo.Run

noncomputable section

namespace Cert.ReferenceIdeal.RefRun

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo

variable {F : FTy → Type} [FloatOps F]

/-! ### The cell's three pieces, as functions of whole arrays -/

/-- A gate of the cell: the rows of `c` and of `h` joined along the columns, through the 256 × 128 matrix `Wm`,
    plus the bias `b` on every row, then `1 / (1 + e^(−·))` element by element. -/
def gateOf (c h : FVec F S50000x128 .f32) (Wm : FVec F S256x128 .f32) (b : FVec F S128 .f32) : FVec F S50000x128 .f32 :=
  Host.divf (broadcastInDim S50000x128 ![] bcast_S_S50000x128 (constant S_ .f32 0x3F800000#32))
    (addf (broadcastInDim S50000x128 ![] bcast_S_S50000x128 (constant S_ .f32 0x3F800000#32))
      (Host.exp (Host.negf (addf (Host.dotGeneral dot_S50000x256_S256x128_S50000x128_1_0_0_1_n_n none (concatenate S50000x256 1 [⟨S50000x128, c⟩, ⟨S50000x128, h⟩] concatenates_S50000x128_S50000x128_S50000x256_d1) Wm)
        (broadcastInDim S50000x128 ![0, 1] bcast_S1x128_S50000x128_0_1 (broadcastInDim S1x128 ![1] bcast_S128_S1x128_1 b))))))

/-- The new hidden state from the update gate `z`, the hidden input `h`, the third convolution's output `ch` and the
    hidden input scaled by the reset gate `hr`: `z ⊙ h + (1 − z) ⊙ tanh([ch | hr]·Wm + b)`. -/
def hidOf (z h ch hr : FVec F S50000x128 .f32) (Wm : FVec F S256x128 .f32) (b : FVec F S128 .f32) : FVec F S50000x128 .f32 :=
  addf (mulf z h)
    (mulf (subf (broadcastInDim S50000x128 ![] bcast_S_S50000x128 (constant S_ .f32 0x3F800000#32)) z)
      (Host.tanh (addf (Host.dotGeneral dot_S50000x256_S256x128_S50000x128_1_0_0_1_n_n none (concatenate S50000x256 1 [⟨S50000x128, ch⟩, ⟨S50000x128, hr⟩] concatenates_S50000x128_S50000x128_S50000x256_d1) Wm)
        (broadcastInDim S50000x128 ![0, 1] bcast_S1x128_S50000x128_0_1 (broadcastInDim S1x128 ![1] bcast_S128_S1x128_1 b)))))

/-- The output from the new hidden state `h0`: `max(h0, 0)·Wm + b`. -/
def outOf (h0 : FVec F S50000x128 .f32) (Wm : FVec F S128x128 .f32) (b : FVec F S128 .f32) : FVec F S50000x128 .f32 :=
  addf (Host.dotGeneral dot_S50000x128_S128x128_S50000x128_1_0_0_1_n_n none
      (maximumf h0 (broadcastInDim S50000x128 ![] bcast_S_S50000x128 (constant S_ .f32 0x00000000#32))) Wm)
    (broadcastInDim S50000x128 ![0, 1] bcast_S1x128_S50000x128_0_1 (broadcastInDim S1x128 ![1] bcast_S128_S1x128_1 b))

/-! ### The last stretch, from any contents -/

set_option maxHeartbeats 2000000 in
/-- After the last stretch, the new hidden state is the combination of the update gate, the hidden input, the third
    convolution's output and the scaled hidden input the stretch starts from. -/
private theorem D_v168 (V : Valuation τ sig (Elt F)) :
    after opsD V (Proc.devRef .tc main_v168)
      = hidOf (V (Proc.devRef .tc main_v55)) (V (Proc.devRef .tc main_arg3)) (V (Proc.devRef .tc main_v156)) (V (Proc.devRef .tc main_v157)) (V (Proc.devRef .tc main_arg14)) (V (Proc.devRef .tc main_arg15)) := by
  simp only [opsD]
  after_results_simp
  rfl

set_option maxHeartbeats 2000000 in
/-- After the last stretch, the output is that new hidden state rectified, through the output matrix, plus the bias. -/
private theorem D_v173 (V : Valuation τ sig (Elt F)) :
    after opsD V (Proc.devRef .tc main_v173)
      = outOf (hidOf (V (Proc.devRef .tc main_v55)) (V (Proc.devRef .tc main_arg3)) (V (Proc.devRef .tc main_v156)) (V (Proc.devRef .tc main_v157)) (V (Proc.devRef .tc main_arg14)) (V (Proc.devRef .tc main_arg15)))
          (V (Proc.devRef .tc main_arg16)) (V (Proc.devRef .tc main_arg17)) := by
  simp only [opsD]
  after_results_simp
  simp only [TRef.ofBuf, TRef.toBuf, cast_eq]
  rfl

/-! ### The third stretch, from any contents -/

set_option maxHeartbeats 2000000 in
/-- After the third stretch, the scaled hidden input is the hidden input times the reset gate of the second
    convolution's output the stretch starts from. -/
private theorem C_v157 (V : Valuation τ sig (Elt F)) :
    after opsC V (Proc.devRef .tc main_v157)
      = mulf (V (Proc.devRef .tc main_arg3)) (gateOf (V (Proc.devRef .tc main_v100)) (V (Proc.devRef .tc main_arg3)) (V (Proc.devRef .tc main_arg10)) (V (Proc.devRef .tc main_arg11))) := by
  simp only [opsC]
  after_results_simp
  rfl

set_option maxHeartbeats 2000000 in
/-- After the third stretch, the third convolution's output is its stage at the inputs. -/
private theorem C_v156 (V : Valuation τ sig (Elt F)) :
    after opsC V (Proc.devRef .tc main_v156)
      = val_main_v156 (F := F) (V (Proc.devRef .tc main_arg0)) (V (Proc.devRef .tc main_arg1)) (V (Proc.devRef .tc main_arg2)) (V (Proc.devRef .tc main_arg12)) (V (Proc.devRef .tc main_arg13)) := by
  simp only [opsC]
  after_results_simp
  simp only [TRef.ofBuf, TRef.toBuf, cast_eq]
  rfl

set_option maxHeartbeats 2000000 in
/-- The third stretch leaves `main_v55` as it was. -/
private theorem C_keep_v55 (V : Valuation τ sig (Elt F)) :
    after opsC V (Proc.devRef .tc main_v55) = V (Proc.devRef .tc main_v55) := by
  simp only [opsC]
  after_results_simp

set_option maxHeartbeats 2000000 in
/-- The third stretch leaves `main_arg3` as it was. -/
private theorem C_keep_arg3 (V : Valuation τ sig (Elt F)) :
    after opsC V (Proc.devRef .tc main_arg3) = V (Proc.devRef .tc main_arg3) := by
  simp only [opsC]
  after_results_simp

set_option maxHeartbeats 2000000 in
/-- The third stretch leaves `main_arg14` as it was. -/
private theorem C_keep_arg14 (V : Valuation τ sig (Elt F)) :
    after opsC V (Proc.devRef .tc main_arg14) = V (Proc.devRef .tc main_arg14) := by
  simp only [opsC]
  after_results_simp

set_option maxHeartbeats 2000000 in
/-- The third stretch leaves `main_arg15` as it was. -/
private theorem C_keep_arg15 (V : Valuation τ sig (Elt F)) :
    after opsC V (Proc.devRef .tc main_arg15) = V (Proc.devRef .tc main_arg15) := by
  simp only [opsC]
  after_results_simp

set_option maxHeartbeats 2000000 in
/-- The third stretch leaves `main_arg16` as it was. -/
private theorem C_keep_arg16 (V : Valuation τ sig (Elt F)) :
    after opsC V (Proc.devRef .tc main_arg16) = V (Proc.devRef .tc main_arg16) := by
  simp only [opsC]
  after_results_simp

set_option maxHeartbeats 2000000 in
/-- The third stretch leaves `main_arg17` as it was. -/
private theorem C_keep_arg17 (V : Valuation τ sig (Elt F)) :
    after opsC V (Proc.devRef .tc main_arg17) = V (Proc.devRef .tc main_arg17) := by
  simp only [opsC]
  after_results_simp

/-! ### The second stretch, from any contents -/

set_option maxHeartbeats 2000000 in
/-- After the second stretch, the update gate is the gate of the first convolution's output the stretch starts from. -/
private theorem B_v55 (V : Valuation τ sig (Elt F)) :
    after opsB V (Proc.devRef .tc main_v55)
      = gateOf (V (Proc.devRef .tc main_v44)) (V (Proc.devRef .tc main_arg3)) (V (Proc.devRef .tc main_arg6)) (V (Proc.devRef .tc main_arg7)) := by
  simp only [opsB]
  after_results_simp
  rfl

set_option maxHeartbeats 2000000 in
/-- After the second stretch, the second convolution's output is its stage at the inputs. -/
private theorem B_v100 (V : Valuation τ sig (Elt F)) :
    after opsB V (Proc.devRef .tc main_v100)
      = val_main_v100 (F := F) (V (Proc.devRef .tc main_arg0)) (V (Proc.devRef .tc main_arg1)) (V (Proc.devRef .tc main_arg2)) (V (Proc.devRef .tc main_arg8)) (V (Proc.devRef .tc main_arg9)) := by
  simp only [opsB]
  after_results_simp
  simp only [TRef.ofBuf, TRef.toBuf, cast_eq]
  rfl

set_option maxHeartbeats 2000000 in
/-- The second stretch leaves `main_arg0` as it was. -/
private theorem B_keep_arg0 (V : Valuation τ sig (Elt F)) :
    after opsB V (Proc.devRef .tc main_arg0) = V (Proc.devRef .tc main_arg0) := by
  simp only [opsB]
  after_results_simp

set_option maxHeartbeats 2000000 in
/-- The second stretch leaves `main_arg1` as it was. -/
private theorem B_keep_arg1 (V : Valuation τ sig (Elt F)) :
    after opsB V (Proc.devRef .tc main_arg1) = V (Proc.devRef .tc main_arg1) := by
  simp only [opsB]
  after_results_simp

set_option maxHeartbeats 2000000 in
/-- The second stretch leaves `main_arg2` as it was. -/
private theorem B_keep_arg2 (V : Valuation τ sig (Elt F)) :
    after opsB V (Proc.devRef .tc main_arg2) = V (Proc.devRef .tc main_arg2) := by
  simp only [opsB]
  after_results_simp

set_option maxHeartbeats 2000000 in
/-- The second stretch leaves `main_arg3` as it was. -/
private theorem B_keep_arg3 (V : Valuation τ sig (Elt F)) :
    after opsB V (Proc.devRef .tc main_arg3) = V (Proc.devRef .tc main_arg3) := by
  simp only [opsB]
  after_results_simp

set_option maxHeartbeats 2000000 in
/-- The second stretch leaves `main_arg10` as it was. -/
private theorem B_keep_arg10 (V : Valuation τ sig (Elt F)) :
    after opsB V (Proc.devRef .tc main_arg10) = V (Proc.devRef .tc main_arg10) := by
  simp only [opsB]
  after_results_simp

set_option maxHeartbeats 2000000 in
/-- The second stretch leaves `main_arg11` as it was. -/
private theorem B_keep_arg11 (V : Valuation τ sig (Elt F)) :
    after opsB V (Proc.devRef .tc main_arg11) = V (Proc.devRef .tc main_arg11) := by
  simp only [opsB]
  after_results_simp

set_option maxHeartbeats 2000000 in
/-- The second stretch leaves `main_arg12` as it was. -/
private theorem B_keep_arg12 (V : Valuation τ sig (Elt F)) :
    after opsB V (Proc.devRef .tc main_arg12) = V (Proc.devRef .tc main_arg12) := by
  simp only [opsB]
  after_results_simp

set_option maxHeartbeats 2000000 in
/-- The second stretch leaves `main_arg13` as it was. -/
private theorem B_keep_arg13 (V : Valuation τ sig (Elt F)) :
    after opsB V (Proc.devRef .tc main_arg13) = V (Proc.devRef .tc main_arg13) := by
  simp only [opsB]
  after_results_simp

set_option maxHeartbeats 2000000 in
/-- The second stretch leaves `main_arg14` as it was. -/
private theorem B_keep_arg14 (V : Valuation τ sig (Elt F)) :
    after opsB V (Proc.devRef .tc main_arg14) = V (Proc.devRef .tc main_arg14) := by
  simp only [opsB]
  after_results_simp

set_option maxHeartbeats 2000000 in
/-- The second stretch leaves `main_arg15` as it was. -/
private theorem B_keep_arg15 (V : Valuation τ sig (Elt F)) :
    after opsB V (Proc.devRef .tc main_arg15) = V (Proc.devRef .tc main_arg15) := by
  simp only [opsB]
  after_results_simp

set_option maxHeartbeats 2000000 in
/-- The second stretch leaves `main_arg16` as it was. -/
private theorem B_keep_arg16 (V : Valuation τ sig (Elt F)) :
    after opsB V (Proc.devRef .tc main_arg16) = V (Proc.devRef .tc main_arg16) := by
  simp only [opsB]
  after_results_simp

set_option maxHeartbeats 2000000 in
/-- The second stretch leaves `main_arg17` as it was. -/
private theorem B_keep_arg17 (V : Valuation τ sig (Elt F)) :
    after opsB V (Proc.devRef .tc main_arg17) = V (Proc.devRef .tc main_arg17) := by
  simp only [opsB]
  after_results_simp

/-! ### The three stretches in a row -/

/-- The new hidden state as a function of the first convolution's output `cz` and the inputs. -/
def G168 (cz : FVec F S50000x128 .f32) (x0 : FVec F S50000x128 .f32) (x1 : IVec S800000 32) (x2 : IVec S800000 32) (x3 : FVec F S50000x128 .f32) (x4 : FVec F S128x128 .f32) (x5 : FVec F S128 .f32) (x6 : FVec F S256x128 .f32) (x7 : FVec F S128 .f32) (x8 : FVec F S128x128 .f32) (x9 : FVec F S128 .f32) (x10 : FVec F S256x128 .f32) (x11 : FVec F S128 .f32) (x12 : FVec F S128x128 .f32) (x13 : FVec F S128 .f32) (x14 : FVec F S256x128 .f32) (x15 : FVec F S128 .f32) : FVec F S50000x128 .f32 :=
  hidOf (gateOf cz x3 x6 x7) x3 (val_main_v156 (F := F) x0 x1 x2 x12 x13)
    (mulf x3 (gateOf (val_main_v100 (F := F) x0 x1 x2 x8 x9) x3 x10 x11)) x14 x15

/-- The output as a function of the first convolution's output `cz` and the inputs. -/
def G173 (cz : FVec F S50000x128 .f32) (x0 : FVec F S50000x128 .f32) (x1 : IVec S800000 32) (x2 : IVec S800000 32) (x3 : FVec F S50000x128 .f32) (x4 : FVec F S128x128 .f32) (x5 : FVec F S128 .f32) (x6 : FVec F S256x128 .f32) (x7 : FVec F S128 .f32) (x8 : FVec F S128x128 .f32) (x9 : FVec F S128 .f32) (x10 : FVec F S256x128 .f32) (x11 : FVec F S128 .f32) (x12 : FVec F S128x128 .f32) (x13 : FVec F S128 .f32) (x14 : FVec F S256x128 .f32) (x15 : FVec F S128 .f32) (x16 : FVec F S128x128 .f32) (x17 : FVec F S128 .f32) : FVec F S50000x128 .f32 :=
  outOf (G168 (F := F) cz x0 x1 x2 x3 x4 x5 x6 x7 x8 x9 x10 x11 x12 x13 x14 x15) x16 x17

/-- After the last three stretches the hidden-state result is `G168` of the starting contents. -/
theorem BCD_v168 (W : Valuation τ sig (Elt F)) :
    after (opsB ++ opsC ++ opsD) W (Proc.devRef .tc main_v168) = G168 (F := F) (W (Proc.devRef .tc main_v44)) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) := by
  rw [after_append, after_append]
  rw [D_v168, C_keep_v55, C_keep_arg3, C_v156, C_v157, C_keep_arg14, C_keep_arg15,
    B_v55, B_v100, B_keep_arg0, B_keep_arg1, B_keep_arg2, B_keep_arg3, B_keep_arg10, B_keep_arg11, B_keep_arg12, B_keep_arg13,
    B_keep_arg14, B_keep_arg15]
  rfl

/-- After the last three stretches the output result is `G173` of the starting contents. -/
theorem BCD_v173 (W : Valuation τ sig (Elt F)) :
    after (opsB ++ opsC ++ opsD) W (Proc.devRef .tc main_v173) = G173 (F := F) (W (Proc.devRef .tc main_v44)) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)) (W (Proc.devRef .tc main_arg17)) := by
  rw [after_append, after_append]
  rw [D_v173, C_keep_v55, C_keep_arg3, C_v156, C_v157, C_keep_arg14, C_keep_arg15, C_keep_arg16, C_keep_arg17,
    B_v55, B_v100, B_keep_arg0, B_keep_arg1, B_keep_arg2, B_keep_arg3, B_keep_arg10, B_keep_arg11, B_keep_arg12, B_keep_arg13,
    B_keep_arg14, B_keep_arg15, B_keep_arg16, B_keep_arg17]
  rfl

/-- At the first convolution's stage, `G168` is the stage of the new hidden state. -/
theorem G168_eq (x0 : FVec F S50000x128 .f32) (x1 : IVec S800000 32) (x2 : IVec S800000 32) (x3 : FVec F S50000x128 .f32) (x4 : FVec F S128x128 .f32) (x5 : FVec F S128 .f32) (x6 : FVec F S256x128 .f32) (x7 : FVec F S128 .f32) (x8 : FVec F S128x128 .f32) (x9 : FVec F S128 .f32) (x10 : FVec F S256x128 .f32) (x11 : FVec F S128 .f32) (x12 : FVec F S128x128 .f32) (x13 : FVec F S128 .f32) (x14 : FVec F S256x128 .f32) (x15 : FVec F S128 .f32) :
    G168 (F := F) (val_main_v44 (F := F) x0 x1 x2 x4 x5) x0 x1 x2 x3 x4 x5 x6 x7 x8 x9 x10 x11 x12 x13 x14 x15 = val_main_v168 (F := F) x0 x1 x2 x3 x4 x5 x6 x7 x8 x9 x10 x11 x12 x13 x14 x15 := by
  unfold G168 hidOf gateOf val_main_v168 val_main_v164 val_main_v167 val_main_v166 val_main_v165 val_main_cst_35 val_main_v163 val_main_v162 val_main_v161 val_main_v160 val_main_v159 val_main_v158 val_main_v157
    val_main_v111 val_main_v110 val_main_cst_23 val_main_v109 val_main_v108 val_main_cst_22 val_main_v107 val_main_v106 val_main_v105 val_main_v104 val_main_v103 val_main_v102 val_main_v101
    val_main_v55 val_main_v54 val_main_cst_10 val_main_v53 val_main_v52 val_main_cst_9 val_main_v51 val_main_v50 val_main_v49 val_main_v48 val_main_v47 val_main_v46 val_main_v45
  rfl

/-- At the first convolution's stage, `G173` is the stage of the output. -/
theorem G173_eq (x0 : FVec F S50000x128 .f32) (x1 : IVec S800000 32) (x2 : IVec S800000 32) (x3 : FVec F S50000x128 .f32) (x4 : FVec F S128x128 .f32) (x5 : FVec F S128 .f32) (x6 : FVec F S256x128 .f32) (x7 : FVec F S128 .f32) (x8 : FVec F S128x128 .f32) (x9 : FVec F S128 .f32) (x10 : FVec F S256x128 .f32) (x11 : FVec F S128 .f32) (x12 : FVec F S128x128 .f32) (x13 : FVec F S128 .f32) (x14 : FVec F S256x128 .f32) (x15 : FVec F S128 .f32) (x16 : FVec F S128x128 .f32) (x17 : FVec F S128 .f32) :
    G173 (F := F) (val_main_v44 (F := F) x0 x1 x2 x4 x5) x0 x1 x2 x3 x4 x5 x6 x7 x8 x9 x10 x11 x12 x13 x14 x15 x16 x17 = val_main_v173 (F := F) x0 x1 x2 x3 x4 x5 x6 x7 x8 x9 x10 x11 x12 x13 x14 x15 x16 x17 := by
  unfold G173 outOf val_main_v173 val_main_v172 val_main_v171 val_main_v170 val_main_v169 val_main_call3_v0 val_main_call3_cst
  rw [G168_eq]

end Cert.ReferenceIdeal.RefRun

end
-- ==== Proof.RefRun.lean ====
/-
  The reference's run. Its @main is a straight line of 214 host operations, so from any memory every weakly fair
  execution ends with each buffer at the fold of the operations over the launch contents. The fold is read in four
  stretches: the first leaves the first convolution's output at its stage of the inputs and the inputs untouched;
  the other three turn that output and the inputs into the two results. Composing them, the two results are their
  stages of the inputs as launched; and no operation writes an input.
-/
import proofs.«110313_j28329604284505_2_alg».proof.Proof.RefRunA
import proofs.«110313_j28329604284505_2_alg».proof.Proof.RefRunB

noncomputable section

namespace Cert.ReferenceIdeal.RefRun

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo

variable {F : FTy → Type} [FloatOps F]

/-- Running one list of operations after another is running their concatenation. -/
theorem after_append' (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- @main's operations are the first stretch followed by the other three. -/
theorem ops_split' : (ops : List (HloOp τ sig (Elt F))) = opsA ++ (opsB ++ opsC ++ opsD) := by
  rw [ops_split]; simp only [List.append_assoc]

/-- After all of @main the hidden-state result holds its stage of the inputs. -/
theorem after_v168 (V : Valuation τ sig (Elt F)) :
    after ops V (Proc.devRef .tc main_v168) = val_main_v168 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) := by
  rw [ops_split', after_append', BCD_v168, A_v44, A_arg0, A_arg1, A_arg2, A_arg3, A_arg4, A_arg5, A_arg6, A_arg7, A_arg8, A_arg9, A_arg10, A_arg11, A_arg12, A_arg13, A_arg14, A_arg15, G168_eq]

/-- After all of @main the output result holds its stage of the inputs. -/
theorem after_v173 (V : Valuation τ sig (Elt F)) :
    after ops V (Proc.devRef .tc main_v173) = val_main_v173 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) := by
  rw [ops_split', after_append', BCD_v173, A_v44, A_arg0, A_arg1, A_arg2, A_arg3, A_arg4, A_arg5, A_arg6, A_arg7, A_arg8, A_arg9, A_arg10, A_arg11, A_arg12, A_arg13, A_arg14, A_arg15, A_arg16, A_arg17, G173_eq]

/-! No operation of @main writes an input. -/
set_option maxHeartbeats 4000000 in
theorem after_arg0 (V : Valuation τ sig (Elt F)) : after ops V (Proc.devRef .tc main_arg0) = V (Proc.devRef .tc main_arg0) := by
  after_results_simp <;> rfl
set_option maxHeartbeats 4000000 in
theorem after_arg1 (V : Valuation τ sig (Elt F)) : after ops V (Proc.devRef .tc main_arg1) = V (Proc.devRef .tc main_arg1) := by
  after_results_simp <;> rfl
set_option maxHeartbeats 4000000 in
theorem after_arg2 (V : Valuation τ sig (Elt F)) : after ops V (Proc.devRef .tc main_arg2) = V (Proc.devRef .tc main_arg2) := by
  after_results_simp <;> rfl
set_option maxHeartbeats 4000000 in
theorem after_arg3 (V : Valuation τ sig (Elt F)) : after ops V (Proc.devRef .tc main_arg3) = V (Proc.devRef .tc main_arg3) := by
  after_results_simp <;> rfl
set_option maxHeartbeats 4000000 in
theorem after_arg4 (V : Valuation τ sig (Elt F)) : after ops V (Proc.devRef .tc main_arg4) = V (Proc.devRef .tc main_arg4) := by
  after_results_simp <;> rfl
set_option maxHeartbeats 4000000 in
theorem after_arg5 (V : Valuation τ sig (Elt F)) : after ops V (Proc.devRef .tc main_arg5) = V (Proc.devRef .tc main_arg5) := by
  after_results_simp <;> rfl
set_option maxHeartbeats 4000000 in
theorem after_arg6 (V : Valuation τ sig (Elt F)) : after ops V (Proc.devRef .tc main_arg6) = V (Proc.devRef .tc main_arg6) := by
  after_results_simp <;> rfl
set_option maxHeartbeats 4000000 in
theorem after_arg7 (V : Valuation τ sig (Elt F)) : after ops V (Proc.devRef .tc main_arg7) = V (Proc.devRef .tc main_arg7) := by
  after_results_simp <;> rfl
set_option maxHeartbeats 4000000 in
theorem after_arg8 (V : Valuation τ sig (Elt F)) : after ops V (Proc.devRef .tc main_arg8) = V (Proc.devRef .tc main_arg8) := by
  after_results_simp <;> rfl
set_option maxHeartbeats 4000000 in
theorem after_arg9 (V : Valuation τ sig (Elt F)) : after ops V (Proc.devRef .tc main_arg9) = V (Proc.devRef .tc main_arg9) := by
  after_results_simp <;> rfl
set_option maxHeartbeats 4000000 in
theorem after_arg10 (V : Valuation τ sig (Elt F)) : after ops V (Proc.devRef .tc main_arg10) = V (Proc.devRef .tc main_arg10) := by
  after_results_simp <;> rfl
set_option maxHeartbeats 4000000 in
theorem after_arg11 (V : Valuation τ sig (Elt F)) : after ops V (Proc.devRef .tc main_arg11) = V (Proc.devRef .tc main_arg11) := by
  after_results_simp <;> rfl
set_option maxHeartbeats 4000000 in
theorem after_arg12 (V : Valuation τ sig (Elt F)) : after ops V (Proc.devRef .tc main_arg12) = V (Proc.devRef .tc main_arg12) := by
  after_results_simp <;> rfl
set_option maxHeartbeats 4000000 in
theorem after_arg13 (V : Valuation τ sig (Elt F)) : after ops V (Proc.devRef .tc main_arg13) = V (Proc.devRef .tc main_arg13) := by
  after_results_simp <;> rfl
set_option maxHeartbeats 4000000 in
theorem after_arg14 (V : Valuation τ sig (Elt F)) : after ops V (Proc.devRef .tc main_arg14) = V (Proc.devRef .tc main_arg14) := by
  after_results_simp <;> rfl
set_option maxHeartbeats 4000000 in
theorem after_arg15 (V : Valuation τ sig (Elt F)) : after ops V (Proc.devRef .tc main_arg15) = V (Proc.devRef .tc main_arg15) := by
  after_results_simp <;> rfl
set_option maxHeartbeats 4000000 in
theorem after_arg16 (V : Valuation τ sig (Elt F)) : after ops V (Proc.devRef .tc main_arg16) = V (Proc.devRef .tc main_arg16) := by
  after_results_simp <;> rfl
set_option maxHeartbeats 4000000 in
theorem after_arg17 (V : Valuation τ sig (Elt F)) : after ops V (Proc.devRef .tc main_arg17) = V (Proc.devRef .tc main_arg17) := by
  after_results_simp <;> rfl

set_option maxRecDepth 8192 in
set_option maxHeartbeats 85600000 in
/-- On every device, for any float family, from any memory with zero counters: every weakly fair execution of @main
    terminates with the two results at their stages of the inputs as launched, and the inputs unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v173) = val_main_v173 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17))
      ∧ r.2.mem ((c.tc : Thread nD τ).loc main_v168) = val_main_v168 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17) :=
  (θ_run defs _ _).mono (fun _ h c => ⟨(h c main_v173).trans (after_v173 _), (h c main_v168).trans (after_v168 _),
      (h c main_arg0).trans (after_arg0 _),
      (h c main_arg1).trans (after_arg1 _),
      (h c main_arg2).trans (after_arg2 _),
      (h c main_arg3).trans (after_arg3 _),
      (h c main_arg4).trans (after_arg4 _),
      (h c main_arg5).trans (after_arg5 _),
      (h c main_arg6).trans (after_arg6 _),
      (h c main_arg7).trans (after_arg7 _),
      (h c main_arg8).trans (after_arg8 _),
      (h c main_arg9).trans (after_arg9 _),
      (h c main_arg10).trans (after_arg10 _),
      (h c main_arg11).trans (after_arg11 _),
      (h c main_arg12).trans (after_arg12 _),
      (h c main_arg13).trans (after_arg13 _),
      (h c main_arg14).trans (after_arg14 _),
      (h c main_arg15).trans (after_arg15 _),
      (h c main_arg16).trans (after_arg16 _),
      (h c main_arg17).trans (after_arg17 _)⟩)
    (run_seq scopedRefs_eq scopedSems_eq defs main (fun _ => ops) main_eq (fun _ => ops_sub) m ρ)

end Cert.ReferenceIdeal.RefRun

end
-- ==== Proof.KArr.lean ====
/-
  The arrays the region's windows stage, as the region finds them, each at its literal shape: the aggregated
  node features, the hidden state, the three projection matrices with their bias rows, the two halves of each
  gate matrix with the gate's bias row, and the output matrix with its bias row.
-/
import proofs.«110313_j28329604284505_2_alg».proof.Proof.Gen.KernelIdeal.Frame
import Idealize.ShloMosaic.PureOps.Ideal

noncomputable section

namespace Cert.KernelIdeal.Arr

open Cert.KernelIdeal Cert.KernelIdeal.Gen Idealize.ShloMosaic Idealize.ShloMosaic.TcCoe Idealize.SL.Sem

variable (m : (ℓ : Loc nD τ sig) → Buf (Elt Ideal) ℓ)

/-- Window 0: the normalised neighbourhood sums of the node features, one row per node. -/
abbrev agg (c : Dev nD) : FVec Ideal S50000x128 .f32 := V m c main_v40
/-- Window 1: the hidden state, one row per node. -/
abbrev hid (c : Dev nD) : FVec Ideal S50000x128 .f32 := V m c main_arg3
/-- Windows 2, 4, 6: the projection matrices of the update gate, the reset gate and the candidate. -/
abbrev wcz (c : Dev nD) : FVec Ideal S128x128 .f32 := V m c main_arg4
abbrev wcr (c : Dev nD) : FVec Ideal S128x128 .f32 := V m c main_arg8
abbrev wch (c : Dev nD) : FVec Ideal S128x128 .f32 := V m c main_arg12
/-- Windows 3, 5, 7: their bias rows. -/
abbrev bcz (c : Dev nD) : FVec Ideal S1x128 .f32 := V m c main_v47
abbrev bcr (c : Dev nD) : FVec Ideal S1x128 .f32 := V m c main_v48
abbrev bch (c : Dev nD) : FVec Ideal S1x128 .f32 := V m c main_v49
/-- Windows 8, 9, 11, 12, 14, 15: the upper and lower halves of the three gate matrices. -/
abbrev wz1 (c : Dev nD) : FVec Ideal S128x128 .f32 := V m c main_v41
abbrev wz2 (c : Dev nD) : FVec Ideal S128x128 .f32 := V m c main_v42
abbrev wr1 (c : Dev nD) : FVec Ideal S128x128 .f32 := V m c main_v43
abbrev wr2 (c : Dev nD) : FVec Ideal S128x128 .f32 := V m c main_v44
abbrev wh1 (c : Dev nD) : FVec Ideal S128x128 .f32 := V m c main_v45
abbrev wh2 (c : Dev nD) : FVec Ideal S128x128 .f32 := V m c main_v46
/-- Windows 10, 13, 16: the gates' bias rows. -/
abbrev blz (c : Dev nD) : FVec Ideal S1x128 .f32 := V m c main_v50
abbrev blr (c : Dev nD) : FVec Ideal S1x128 .f32 := V m c main_v51
abbrev blh (c : Dev nD) : FVec Ideal S1x128 .f32 := V m c main_v52
/-- Windows 17, 18: the output matrix and its bias row. -/
abbrev wlin (c : Dev nD) : FVec Ideal S128x128 .f32 := V m c main_arg16
abbrev blin (c : Dev nD) : FVec Ideal S1x128 .f32 := V m c main_v53

end Cert.KernelIdeal.Arr

end
-- ==== Proof.Spec.lean ====
/-
  The mathematics of one node's update, as functions of ROWS of 128 extended reals.

  A node `n` of the graph carries a feature row; the three graph convolutions hand the cell three rows
  `cz`, `cr`, `ch` (the normalised neighbourhood sums, projected, plus a bias), and with the node's hidden row `h`
  the gated recurrent cell computes

    Z  = σ(cz·Wz₁ + h·Wz₂ + bz),   R = σ(cr·Wr₁ + h·Wr₂ + br),   H̃ = tanh(ch·Wh₁ + (h ⊙ R)·Wh₂ + bh),
    h₀ = Z ⊙ h + (1 − Z) ⊙ H̃,      z = max(h₀, 0)·W + b.

  Everything here is over `EReal` with coordinates in `Fin 128`; no program is mentioned. The two facts
  about sums proved here hold in any additive commutative monoid, so they need no finiteness: a sum over 256
  indices is the sum over the first 128 plus the sum over the last 128, and `1 / (1 + e^(−x))` is the logistic
  function where the constant is the float word of 1.
-/
import Idealize.ShloMosaic.PureOps.Ideal
import Idealize.ShloMosaic.PureOps.Ideal.Laws
import Idealize.ShloMosaic.Lib.ValueIdx

noncomputable section

open scoped BigOperators

namespace Cert.GruSpec

open Idealize.ShloMosaic Idealize.ShloMosaic.ValueIdx

/-- A row of 128 extended reals. -/
abbrev Row := Fin 128 → EReal
/-- A 128 × 128 matrix of extended reals, by row and column. -/
abbrev Mat := Fin 128 → Fin 128 → EReal

/-- Row `p` of an array of `n` rows of 128. -/
def rowOf {n : Nat} (A : (⟨2, ![n, 128]⟩ : Shape).Idx → EReal) (p : Fin n) : Row := fun k => A (ix2 p k)
/-- A 128 × 128 array by its coordinates. -/
def matOf (W : (⟨2, ![128, 128]⟩ : Shape).Idx → EReal) : Mat := fun k j => W (ix2 k j)
/-- The first 128 rows of a 256 × 128 array. -/
def topOf (W : (⟨2, ![256, 128]⟩ : Shape).Idx → EReal) : Mat := fun k j => W (ix2 (Fin.castAdd 128 k) j)
/-- The last 128 rows of a 256 × 128 array. -/
def botOf (W : (⟨2, ![256, 128]⟩ : Shape).Idx → EReal) : Mat := fun k j => W (ix2 (Fin.natAdd 128 k) j)
/-- A vector of 128 by its coordinate. -/
def vecOf (b : (⟨1, ![128]⟩ : Shape).Idx → EReal) : Row := fun j => b (ix1 j)
/-- The one row of a 1 × 128 array. -/
def vec1Of (b : (⟨2, ![1, 128]⟩ : Shape).Idx → EReal) : Row := fun j => b (ix2 (0 : Fin 1) j)

/-- The float word of 1.0, read at the extended reals. -/
def one32 : EReal := Ideal.ofBits .f32 0x3F800000#32
/-- The float word of 0.0, read at the extended reals. -/
def zero32 : EReal := Ideal.ofBits .f32 0x00000000#32

/-- A row times a matrix. -/
def rmul (a : Row) (W : Mat) : Row := fun j => ∑ k, a k * W k j
/-- A row times a matrix, plus a bias row. -/
def aff (a : Row) (W : Mat) (b : Row) : Row := fun j => rmul a W j + b j
/-- What a gate applies its nonlinearity to: two rows through two matrices, summed, plus a bias. -/
def gate (u v : Row) (W1 W2 : Mat) (b : Row) : Row := fun j => (rmul u W1 j + rmul v W2 j) + b j

/-- The update gate's row. -/
def zgate (cz h : Row) (Wz1 Wz2 : Mat) (bz : Row) : Row := fun j => Ideal.logistic (gate cz h Wz1 Wz2 bz j)
/-- The candidate row: the reset gate scales the hidden row before the second matrix. -/
def cand (cr ch h : Row) (Wr1 Wr2 : Mat) (br : Row) (Wh1 Wh2 : Mat) (bh : Row) : Row := fun j =>
  Ideal.tanh (gate ch (fun k => h k * Ideal.logistic (gate cr h Wr1 Wr2 br k)) Wh1 Wh2 bh j)

/-- The new hidden row of one node. -/
def h0row (cz cr ch h : Row) (Wz1 Wz2 : Mat) (bz : Row) (Wr1 Wr2 : Mat) (br : Row) (Wh1 Wh2 : Mat) (bh : Row) : Row :=
  fun j => zgate cz h Wz1 Wz2 bz j * h j + (one32 - zgate cz h Wz1 Wz2 bz j) * cand cr ch h Wr1 Wr2 br Wh1 Wh2 bh j

/-- The output row of one node: the rectified hidden row through the last matrix, plus its bias. -/
def zoutrow (h0 : Row) (W : Mat) (b : Row) : Row := fun j => rmul (fun k => max (h0 k) zero32) W j + b j

/-- The word `0x3F800000` is the real number one. -/
theorem one32_eq : one32 = 1 := by
  simp only [one32, Ideal.ofBits, Ideal.ieee]
  simp
  norm_cast
  norm_num

/-- Spelt with the float word of one, `1 / (1 + e^(−x))` is the logistic function. -/
theorem logistic_spelt (x : EReal) : Ideal.div one32 (one32 + Ideal.exp (-x)) = Ideal.logistic x := by
  rw [one32_eq]; rfl

/-- A sum over 256 indices splits into the first 128 and the last 128. -/
theorem sum_256 (f : Fin 256 → EReal) :
    ∑ k : Fin 256, f k = ∑ k : Fin 128, f (Fin.castAdd 128 k) + ∑ k : Fin 128, f (Fin.natAdd 128 k) :=
  Fin.sum_univ_add (a := 128) (b := 128) f

end Cert.GruSpec

end
-- ==== Proof.KPay.lean ====
/-
  The kernel body's arithmetic, read at one element. Row `p` of the block the body stores is a function of row
  `p` of the aggregated block and row `p` of the hidden block only: each matrix product of the body, read at
  `(p, q)`, is the sum over `k` of the left operand at `(p, k)` times the right at `(k, q)`, and every other
  operation is pointwise or a bias row broadcast down the rows.
-/
import proofs.«110313_j28329604284505_2_alg».proof.Proof.Gen.KernelIdeal.Skeleton
import proofs.«110313_j28329604284505_2_alg».proof.Proof.Spec
import Idealize.ShloMosaic.PureOps.Ideal.Laws
import Idealize.ShloMosaic.Lib.ValueIdx
import Idealize.ShloMosaic.Lib.Pipeline.Value
import Idealize.ShloMosaic.Lib.ValueLayout

noncomputable section

open scoped BigOperators

namespace Cert.KernelIdeal.Pay

open Cert.KernelIdeal Cert.KernelIdeal.Gen Cert.GruSpec Idealize.ShloMosaic Idealize.ShloMosaic.ValueIdx

/-- On the left operand's row axis the product's index keeps the output's row. -/
private theorem mm_lhs_0 (i : S10000x128.Idx) (c : dot_S10000x128_S128x128_S10000x128_1_0_0_1_n_n.contr.Idx) :
    (dot_S10000x128_S128x128_S10000x128_1_0_0_1_n_n.lhsIdx i c 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
/-- On the left operand's column axis it is the summation coordinate. -/
private theorem mm_lhs_1 (i : S10000x128.Idx) (c : dot_S10000x128_S128x128_S10000x128_1_0_0_1_n_n.contr.Idx) :
    (dot_S10000x128_S128x128_S10000x128_1_0_0_1_n_n.lhsIdx i c 1).val = (c ⟨0, by decide⟩).val :=
  dot_S10000x128_S128x128_S10000x128_1_0_0_1_n_n.lhsIdx_val_of_single rfl i c
/-- On the right operand's row axis it is the summation coordinate. -/
private theorem mm_rhs_0 (i : S10000x128.Idx) (c : dot_S10000x128_S128x128_S10000x128_1_0_0_1_n_n.contr.Idx) :
    (dot_S10000x128_S128x128_S10000x128_1_0_0_1_n_n.rhsIdx i c 0).val = (c ⟨0, by decide⟩).val :=
  dot_S10000x128_S128x128_S10000x128_1_0_0_1_n_n.rhsIdx_val_of_single rfl i c
/-- On the right operand's column axis the product's index keeps the output's column. -/
private theorem mm_rhs_1 (i : S10000x128.Idx) (c : dot_S10000x128_S128x128_S10000x128_1_0_0_1_n_n.contr.Idx) :
    (dot_S10000x128_S128x128_S10000x128_1_0_0_1_n_n.rhsIdx i c 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- One matrix product of the body into the zero accumulator, at `(p, q)`. -/
theorem mm_apply (A : FVec Ideal S10000x128 .f32) (W : FVec Ideal S128x128 .f32) (p : Fin 10000) (q : Fin 128) :
    matmul dot_S10000x128_S128x128_S10000x128_1_0_0_1_n_n none A W (constant S10000x128 .f32 0x00000000#32) (ix2 p q)
      = ∑ k : Fin 128, A (ix2 p k) * W (ix2 k q) := by
  simp only [matmul]
  rw [Ideal.matmul_constant_zero_apply, ← Equiv.sum_comp (ValueIdx.contrEquiv1 dot_S10000x128_S128x128_S10000x128_1_0_0_1_n_n 128 rfl rfl).symm]
  refine Finset.sum_congr rfl fun k _ => ?_
  have hk := ValueIdx.contrEquiv1_symm_val dot_S10000x128_S128x128_S10000x128_1_0_0_1_n_n 128 rfl rfl k
  have el : dot_S10000x128_S128x128_S10000x128_1_0_0_1_n_n.lhsIdx (ix2 p q) ((ValueIdx.contrEquiv1 dot_S10000x128_S128x128_S10000x128_1_0_0_1_n_n 128 rfl rfl).symm k) = ix2 p k := funext fun a => Fin.ext (by
    match a with
    | ⟨0, _⟩ => exact mm_lhs_0 _ _
    | ⟨1, _⟩ => exact (mm_lhs_1 _ _).trans hk)
  have er : dot_S10000x128_S128x128_S10000x128_1_0_0_1_n_n.rhsIdx (ix2 p q) ((ValueIdx.contrEquiv1 dot_S10000x128_S128x128_S10000x128_1_0_0_1_n_n 128 rfl rfl).symm k) = ix2 k q := funext fun a => Fin.ext (by
    match a with
    | ⟨0, _⟩ => exact (mm_rhs_0 _ _).trans hk
    | ⟨1, _⟩ => exact mm_rhs_1 _ _)
  rw [el, er]

/-- A bias row broadcast down the rows reads, at `(p, q)`, the row's entry `q`. -/
private theorem bias_apply (b : FVec Ideal S1x128 .f32) (p : Fin 10000) (q : Fin 128) :
    broadcastTo S10000x128 b broadcasts_S1x128_S10000x128 (ix2 p q) = vec1Of b q :=
  broadcastTo_1b_ab_apply b broadcasts_S1x128_S10000x128 p q

/-- The logistic function of an array, at an index, is the logistic function of the entry. -/
private theorem logistic_at {s : Shape} {φ : FTy} (a : FVec Ideal s φ) (i : s.Idx) : logistic a i = Ideal.logistic (a i) := rfl

/-- The hyperbolic tangent of an array, at an index, is the hyperbolic tangent of the entry. -/
private theorem tanh_at {s : Shape} {φ : FTy} (a : FVec Ideal s φ) (i : s.Idx) : tanh a i = Ideal.tanh (a i) := rfl

/-- A product plus a bias row, at `(p, q)`: row `p` of the left operand through the matrix, plus the bias. -/
private theorem aff_apply (A : FVec Ideal S10000x128 .f32) (W : FVec Ideal S128x128 .f32) (b : FVec Ideal S1x128 .f32) (p : Fin 10000) (q : Fin 128) :
    addf (matmul dot_S10000x128_S128x128_S10000x128_1_0_0_1_n_n none A W (constant S10000x128 .f32 0x00000000#32)) (broadcastTo S10000x128 b broadcasts_S1x128_S10000x128) (ix2 p q) = aff (rowOf A p) (matOf W) (vec1Of b) q := by
  rw [addf_apply, mm_apply, bias_apply]
  rfl

/-- Row `p` of a product plus a bias row is the affine image of row `p` of the left operand. -/
private theorem row_aff (A : FVec Ideal S10000x128 .f32) (W : FVec Ideal S128x128 .f32) (b : FVec Ideal S1x128 .f32) (p : Fin 10000) :
    rowOf (addf (matmul dot_S10000x128_S128x128_S10000x128_1_0_0_1_n_n none A W (constant S10000x128 .f32 0x00000000#32)) (broadcastTo S10000x128 b broadcasts_S1x128_S10000x128)) p = aff (rowOf A p) (matOf W) (vec1Of b) :=
  funext fun k => aff_apply A W b p k

/-- Two products summed, plus a bias row, at `(p, q)`: what a gate applies its nonlinearity to, of rows `p`. -/
private theorem gate_apply (U V : FVec Ideal S10000x128 .f32) (W1 W2 : FVec Ideal S128x128 .f32) (b : FVec Ideal S1x128 .f32) (p : Fin 10000) (q : Fin 128) :
    addf (addf (matmul dot_S10000x128_S128x128_S10000x128_1_0_0_1_n_n none U W1 (constant S10000x128 .f32 0x00000000#32)) (matmul dot_S10000x128_S128x128_S10000x128_1_0_0_1_n_n none V W2 (constant S10000x128 .f32 0x00000000#32))) (broadcastTo S10000x128 b broadcasts_S1x128_S10000x128) (ix2 p q)
      = gate (rowOf U p) (rowOf V p) (matOf W1) (matOf W2) (vec1Of b) q := by
  rw [addf_apply, addf_apply, mm_apply, mm_apply, bias_apply]
  rfl

/-- Row `p` of an array scaled entry by entry by the logistic function of a gate's argument. -/
private theorem row_scaled (H U V : FVec Ideal S10000x128 .f32) (W1 W2 : FVec Ideal S128x128 .f32) (b : FVec Ideal S1x128 .f32) (p : Fin 10000) :
    rowOf (mulf H (logistic (addf (addf (matmul dot_S10000x128_S128x128_S10000x128_1_0_0_1_n_n none U W1 (constant S10000x128 .f32 0x00000000#32)) (matmul dot_S10000x128_S128x128_S10000x128_1_0_0_1_n_n none V W2 (constant S10000x128 .f32 0x00000000#32))) (broadcastTo S10000x128 b broadcasts_S1x128_S10000x128)))) p
      = fun k => rowOf H p k * Ideal.logistic (gate (rowOf U p) (rowOf V p) (matOf W1) (matOf W2) (vec1Of b) k) :=
  funext fun k => by
    show mulf H _ (ix2 p k) = _
    rw [mulf_apply, logistic_at, gate_apply]
    rfl

/-- The update gate's payload at `(p, q)`. -/
private theorem pay3_apply (P0 P1 : FVec Ideal S10000x128 .f32) (P2 : FVec Ideal S128x128 .f32) (P3 : FVec Ideal S1x128 .f32) (P4 P5 : FVec Ideal S128x128 .f32) (P6 : FVec Ideal S1x128 .f32) (p : Fin 10000) (q : Fin 128) :
    k0_pay3 (F := Ideal) P0 P1 P2 P3 P4 P5 P6 (ix2 p q)
      = zgate (aff (rowOf P0 p) (matOf P2) (vec1Of P3)) (rowOf P1 p) (matOf P4) (matOf P5) (vec1Of P6) q := by
  simp only [k0_pay3, k0_pay2, shapeCast_self]
  rw [logistic_at, gate_apply, row_aff]
  rfl

/-- The hidden-state payload at `(p, q)` is the node update of rows `p`. -/
theorem pay_h0 (P0 P1 : FVec Ideal S10000x128 .f32) (P2 : FVec Ideal S128x128 .f32) (P3 : FVec Ideal S1x128 .f32) (P4 P5 : FVec Ideal S128x128 .f32) (P6 : FVec Ideal S1x128 .f32) (P7 : FVec Ideal S128x128 .f32) (P8 : FVec Ideal S1x128 .f32) (P9 P10 : FVec Ideal S128x128 .f32) (P11 : FVec Ideal S1x128 .f32) (P12 : FVec Ideal S128x128 .f32) (P13 : FVec Ideal S1x128 .f32) (P14 P15 : FVec Ideal S128x128 .f32) (P16 : FVec Ideal S1x128 .f32) (p : Fin 10000) (q : Fin 128) :
    k0_pay6 (F := Ideal) (k0_pay2 P0) P1 (k0_pay3 P0 P1 P2 P3 P4 P5 P6) (k0_pay4 P0 P7 P8 P9) (k0_pay5 P10) P11 P12 P13 P14 P15 P16 (ix2 p q)
      = h0row (aff (rowOf P0 p) (matOf P2) (vec1Of P3)) (aff (rowOf P0 p) (matOf P7) (vec1Of P8)) (aff (rowOf P0 p) (matOf P12) (vec1Of P13)) (rowOf P1 p) (matOf P4) (matOf P5) (vec1Of P6) (matOf P9) (matOf P10) (vec1Of P11) (matOf P14) (matOf P15) (vec1Of P16) q := by
  simp only [k0_pay6, k0_pay4, k0_pay2, k0_pay5, shapeCast_self]
  rw [addf_apply, mulf_apply, mulf_apply, subf_apply, broadcast_apply, tanh_at, gate_apply, pay3_apply, row_aff, row_scaled, row_aff]
  rfl

/-- An array rectified at zero, through a matrix, plus a bias row, at `(p, q)`: the output row of the row that row `p` of
    the array is. -/
private theorem zout_apply (X : FVec Ideal S10000x128 .f32) (W : FVec Ideal S128x128 .f32) (b : FVec Ideal S1x128 .f32) (h0 : Row) (p : Fin 10000)
    (hX : ∀ k, X (ix2 p k) = h0 k) (q : Fin 128) :
    addf (matmul dot_S10000x128_S128x128_S10000x128_1_0_0_1_n_n none (maximumf X (broadcast S10000x128 (Scalar.ofBits (F := Ideal) .f32 0x00000000#32))) W (constant S10000x128 .f32 0x00000000#32)) (broadcastTo S10000x128 b broadcasts_S1x128_S10000x128) (ix2 p q)
      = zoutrow h0 (matOf W) (vec1Of b) q := by
  have hrow : rowOf (maximumf X (broadcast S10000x128 (Scalar.ofBits (F := Ideal) .f32 0x00000000#32))) p = fun k => max (h0 k) zero32 :=
    funext fun k => by
      show maximumf X _ (ix2 p k) = _
      rw [maximumf_apply, broadcast_apply, hX]
      rfl
  rw [aff_apply, hrow]
  rfl

/-- The output payload at `(p, q)` is the rectified new hidden row through the output matrix, plus its bias. -/
theorem pay_zout (P0 P1 : FVec Ideal S10000x128 .f32) (P2 : FVec Ideal S128x128 .f32) (P3 : FVec Ideal S1x128 .f32) (P4 P5 : FVec Ideal S128x128 .f32) (P6 : FVec Ideal S1x128 .f32) (P7 : FVec Ideal S128x128 .f32) (P8 : FVec Ideal S1x128 .f32) (P9 P10 : FVec Ideal S128x128 .f32) (P11 : FVec Ideal S1x128 .f32) (P12 : FVec Ideal S128x128 .f32) (P13 : FVec Ideal S1x128 .f32) (P14 P15 : FVec Ideal S128x128 .f32) (P16 : FVec Ideal S1x128 .f32) (P17 : FVec Ideal S128x128 .f32) (P18 : FVec Ideal S1x128 .f32) (p : Fin 10000) (q : Fin 128) :
    k0_pay1 (F := Ideal) (k0_pay7 (k0_pay2 P0) P1 (k0_pay3 P0 P1 P2 P3 P4 P5 P6) (k0_pay4 P0 P7 P8 P9) (k0_pay5 P10) P11 P12 P13 P14 P15 P16 P17) (k0_pay8 P18) (ix2 p q)
      = zoutrow (h0row (aff (rowOf P0 p) (matOf P2) (vec1Of P3)) (aff (rowOf P0 p) (matOf P7) (vec1Of P8)) (aff (rowOf P0 p) (matOf P12) (vec1Of P13)) (rowOf P1 p) (matOf P4) (matOf P5) (vec1Of P6) (matOf P9) (matOf P10) (vec1Of P11) (matOf P14) (matOf P15) (vec1Of P16)) (matOf P17) (vec1Of P18) q := by
  simp only [k0_pay1, k0_pay7, k0_pay8, shapeCast_self]
  exact zout_apply _ P17 P18 _ p (fun k => pay_h0 P0 P1 P2 P3 P4 P5 P6 P7 P8 P9 P10 P11 P12 P13 P14 P15 P16 p k) q

end Cert.KernelIdeal.Pay

end
-- ==== Proof.KBlocks.lean ====
/-
  From blocks to arrays. The grid has five points; point `t` stages rows `10000·t … 10000·t + 9999` of the
  aggregated array and of the hidden array, the whole of every weight and bias array, and writes back the same
  rows of the two results. So after the run, row `n` of each result is the node update of row `n` of the
  region-entry arrays: the five blocks tile the 50000 rows.
-/
import proofs.«110313_j28329604284505_2_alg».proof.Proof.Gen.KernelIdeal.Value
import proofs.«110313_j28329604284505_2_alg».proof.Proof.KArr
import proofs.«110313_j28329604284505_2_alg».proof.Proof.KPay
import proofs.«110313_j28329604284505_2_alg».proof.Proof.Spec

set_option maxRecDepth 16384

noncomputable section

open scoped BigOperators

namespace Cert.KernelIdeal.Blocks

open Cert.KernelIdeal Cert.KernelIdeal.Gen Cert.KernelIdeal.Value Cert.KernelIdeal.Arr Cert.GruSpec
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The new hidden row of node `n`, from the arrays as the region finds them. -/
def h0K (c : Dev nD) (n : Fin 50000) : Row :=
  h0row (aff (rowOf (agg m c) n) (matOf (wcz m c)) (vec1Of (bcz m c))) (aff (rowOf (agg m c) n) (matOf (wcr m c)) (vec1Of (bcr m c)))
    (aff (rowOf (agg m c) n) (matOf (wch m c)) (vec1Of (bch m c))) (rowOf (hid m c) n)
    (matOf (wz1 m c)) (matOf (wz2 m c)) (vec1Of (blz m c)) (matOf (wr1 m c)) (matOf (wr2 m c)) (vec1Of (blr m c))
    (matOf (wh1 m c)) (matOf (wh2 m c)) (vec1Of (blh m c))

/-- The output row of node `n`. -/
def zoutK (c : Dev nD) (n : Fin 50000) : Row := zoutrow (h0K m c n) (matOf (wlin m c)) (vec1Of (blin m c))

/-- The zero offsets of a whole-buffer rectangle, as the constant function. -/
private theorem zero_off : (![0, 0] : Fin 2 → Nat) = fun _ => 0 := funext fun a => by fin_cases a <;> rfl

/-- The row windows move together: at every grid point the aggregated block, the hidden block and the two result
    blocks sit at the same row-block index, which is at most 4, and at column-block index 0. -/
private theorem rows_index : ∀ t : Fin cfg0.N,
    win0_0.index t (0 : Fin 2) = win0_19.index t (0 : Fin 2) ∧ win0_0.index t (1 : Fin 2) = 0
    ∧ win0_1.index t (0 : Fin 2) = win0_19.index t (0 : Fin 2) ∧ win0_1.index t (1 : Fin 2) = 0
    ∧ win0_20.index t (0 : Fin 2) = win0_19.index t (0 : Fin 2) ∧ win0_20.index t (1 : Fin 2) = 0
    ∧ win0_19.index t (0 : Fin 2) ≤ 4 ∧ win0_19.index t (1 : Fin 2) = 0 :=
  (by decide +kernel : ∀ t : Fin grid0.N, _)

/-- Each of the five row blocks is some grid point's. -/
private theorem rows_onto : ∀ q0 : Fin 5, ∃ t : Fin cfg0.N, win0_19.index t (0 : Fin 2) = q0.val :=
  (by decide +kernel : ∀ q0 : Fin 5, ∃ t : Fin grid0.N, win0_19.index t (0 : Fin 2) = q0.val)

/-- Every matrix window and every bias window stays at block (0, 0): its block is its whole array at every point. -/
private theorem whole_index : ∀ t : Fin cfg0.N,
    (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = 0 ∧ win0_11.index t (1 : Fin 2) = 0)
    ∧ (win0_12.index t (0 : Fin 2) = 0 ∧ win0_12.index t (1 : Fin 2) = 0)
    ∧ (win0_13.index t (0 : Fin 2) = 0 ∧ win0_13.index t (1 : Fin 2) = 0)
    ∧ (win0_14.index t (0 : Fin 2) = 0 ∧ win0_14.index t (1 : Fin 2) = 0)
    ∧ (win0_15.index t (0 : Fin 2) = 0 ∧ win0_15.index t (1 : Fin 2) = 0)
    ∧ (win0_16.index t (0 : Fin 2) = 0 ∧ win0_16.index t (1 : Fin 2) = 0)
    ∧ (win0_17.index t (0 : Fin 2) = 0 ∧ win0_17.index t (1 : Fin 2) = 0)
    ∧ (win0_18.index t (0 : Fin 2) = 0 ∧ win0_18.index t (1 : Fin 2) = 0) :=
  (by decide +kernel : ∀ t : Fin grid0.N, _)

/-! The nineteen input blocks at a grid point, each at its literal shape. -/

private abbrev aggB (c : Dev nD) (t : Fin cfg0.N) : FVec Ideal S10000x128 .f32 := iblk m c 0 t
private abbrev hidB (c : Dev nD) (t : Fin cfg0.N) : FVec Ideal S10000x128 .f32 := iblk m c 1 t
private abbrev wczB (c : Dev nD) (t : Fin cfg0.N) : FVec Ideal S128x128 .f32 := iblk m c 2 t
private abbrev bczB (c : Dev nD) (t : Fin cfg0.N) : FVec Ideal S1x128 .f32 := iblk m c 3 t
private abbrev wcrB (c : Dev nD) (t : Fin cfg0.N) : FVec Ideal S128x128 .f32 := iblk m c 4 t
private abbrev bcrB (c : Dev nD) (t : Fin cfg0.N) : FVec Ideal S1x128 .f32 := iblk m c 5 t
private abbrev wchB (c : Dev nD) (t : Fin cfg0.N) : FVec Ideal S128x128 .f32 := iblk m c 6 t
private abbrev bchB (c : Dev nD) (t : Fin cfg0.N) : FVec Ideal S1x128 .f32 := iblk m c 7 t
private abbrev wz1B (c : Dev nD) (t : Fin cfg0.N) : FVec Ideal S128x128 .f32 := iblk m c 8 t
private abbrev wz2B (c : Dev nD) (t : Fin cfg0.N) : FVec Ideal S128x128 .f32 := iblk m c 9 t
private abbrev blzB (c : Dev nD) (t : Fin cfg0.N) : FVec Ideal S1x128 .f32 := iblk m c 10 t
private abbrev wr1B (c : Dev nD) (t : Fin cfg0.N) : FVec Ideal S128x128 .f32 := iblk m c 11 t
private abbrev wr2B (c : Dev nD) (t : Fin cfg0.N) : FVec Ideal S128x128 .f32 := iblk m c 12 t
private abbrev blrB (c : Dev nD) (t : Fin cfg0.N) : FVec Ideal S1x128 .f32 := iblk m c 13 t
private abbrev wh1B (c : Dev nD) (t : Fin cfg0.N) : FVec Ideal S128x128 .f32 := iblk m c 14 t
private abbrev wh2B (c : Dev nD) (t : Fin cfg0.N) : FVec Ideal S128x128 .f32 := iblk m c 15 t
private abbrev blhB (c : Dev nD) (t : Fin cfg0.N) : FVec Ideal S1x128 .f32 := iblk m c 16 t
private abbrev wlinB (c : Dev nD) (t : Fin cfg0.N) : FVec Ideal S128x128 .f32 := iblk m c 17 t
private abbrev blinB (c : Dev nD) (t : Fin cfg0.N) : FVec Ideal S1x128 .f32 := iblk m c 18 t

/-- Through window 0's block at point `t`, element `(p, k)` of an array of 50000 rows is its element `(i·10000 + p, k)`, `i` the point's
    row-block index. -/
private theorem read_rows0 (A : FVec Ideal S50000x128 .f32) (t : Fin cfg0.N) (p : Fin 10000) (n : Fin 50000)
    (hn : n.val = win0_19.index t (0 : Fin 2) * 10000 + p.val) (k : Fin 128) :
    ((cfg0.win 0).blk t).view.read (Elt Ideal) A (ix2 p k) = A (ix2 n k) := by
  obtain ⟨e0, e1, e2, e3, e4, e5, e6, e7⟩ := rows_index t
  show A (((cfg0.win 0).blk t).view.emb (ix2 p k)) = A (ix2 n k)
  refine congrArg A ?_
  funext a; apply Fin.ext
  match a with
  | ⟨0, _⟩ => show win0_0.index t (0 : Fin 2) * 10000 + 1 * p.val = n.val; omega
  | ⟨1, _⟩ => show win0_0.index t (1 : Fin 2) * 128 + 1 * k.val = k.val; omega

/-- Through window 1's block at point `t`, element `(p, k)` of an array of 50000 rows is its element `(i·10000 + p, k)`, `i` the point's
    row-block index. -/
private theorem read_rows1 (A : FVec Ideal S50000x128 .f32) (t : Fin cfg0.N) (p : Fin 10000) (n : Fin 50000)
    (hn : n.val = win0_19.index t (0 : Fin 2) * 10000 + p.val) (k : Fin 128) :
    ((cfg0.win 1).blk t).view.read (Elt Ideal) A (ix2 p k) = A (ix2 n k) := by
  obtain ⟨e0, e1, e2, e3, e4, e5, e6, e7⟩ := rows_index t
  show A (((cfg0.win 1).blk t).view.emb (ix2 p k)) = A (ix2 n k)
  refine congrArg A ?_
  funext a; apply Fin.ext
  match a with
  | ⟨0, _⟩ => show win0_1.index t (0 : Fin 2) * 10000 + 1 * p.val = n.val; omega
  | ⟨1, _⟩ => show win0_1.index t (1 : Fin 2) * 128 + 1 * k.val = k.val; omega

/-- Through window 19's block at point `t`, element `(p, k)` of an array of 50000 rows is its element `(i·10000 + p, k)`, `i` the point's
    row-block index. -/
private theorem read_rows19 (A : FVec Ideal S50000x128 .f32) (t : Fin cfg0.N) (p : Fin 10000) (n : Fin 50000)
    (hn : n.val = win0_19.index t (0 : Fin 2) * 10000 + p.val) (k : Fin 128) :
    ((cfg0.win 19).blk t).view.read (Elt Ideal) A (ix2 p k) = A (ix2 n k) := by
  obtain ⟨e0, e1, e2, e3, e4, e5, e6, e7⟩ := rows_index t
  show A (((cfg0.win 19).blk t).view.emb (ix2 p k)) = A (ix2 n k)
  refine congrArg A ?_
  funext a; apply Fin.ext
  match a with
  | ⟨0, _⟩ => show win0_19.index t (0 : Fin 2) * 10000 + 1 * p.val = n.val; omega
  | ⟨1, _⟩ => show win0_19.index t (1 : Fin 2) * 128 + 1 * k.val = k.val; omega

/-- Through window 20's block at point `t`, element `(p, k)` of an array of 50000 rows is its element `(i·10000 + p, k)`, `i` the point's
    row-block index. -/
private theorem read_rows20 (A : FVec Ideal S50000x128 .f32) (t : Fin cfg0.N) (p : Fin 10000) (n : Fin 50000)
    (hn : n.val = win0_19.index t (0 : Fin 2) * 10000 + p.val) (k : Fin 128) :
    ((cfg0.win 20).blk t).view.read (Elt Ideal) A (ix2 p k) = A (ix2 n k) := by
  obtain ⟨e0, e1, e2, e3, e4, e5, e6, e7⟩ := rows_index t
  show A (((cfg0.win 20).blk t).view.emb (ix2 p k)) = A (ix2 n k)
  refine congrArg A ?_
  funext a; apply Fin.ext
  match a with
  | ⟨0, _⟩ => show win0_20.index t (0 : Fin 2) * 10000 + 1 * p.val = n.val; omega
  | ⟨1, _⟩ => show win0_20.index t (1 : Fin 2) * 128 + 1 * k.val = k.val; omega

/-- Row `p` of the aggregated block at point `t` is row `i·10000 + p` of the aggregated array. -/
private theorem aggB_row (c : Dev nD) (t : Fin cfg0.N) (p : Fin 10000) (n : Fin 50000)
    (hn : n.val = win0_19.index t (0 : Fin 2) * 10000 + p.val) : rowOf (aggB m c t) p = rowOf (agg m c) n := by
  funext k
  show iblk m c 0 t (ix2 p k) = agg m c (ix2 n k)
  unfold iblk
  exact read_rows0 (agg m c) t p n hn k

/-- Row `p` of the hidden block at point `t` is row `i·10000 + p` of the hidden array. -/
private theorem hidB_row (c : Dev nD) (t : Fin cfg0.N) (p : Fin 10000) (n : Fin 50000)
    (hn : n.val = win0_19.index t (0 : Fin 2) * 10000 + p.val) : rowOf (hidB m c t) p = rowOf (hid m c) n := by
  funext k
  show iblk m c 1 t (ix2 p k) = hid m c (ix2 n k)
  unfold iblk
  exact read_rows1 (hid m c) t p n hn k

/-! A block at index (0, 0) whose size is its array's is the array: each matrix and each bias row is staged whole. -/

/-- Through window 2's block, which sits at block (0, 0) and has its array's size, an array reads as itself. -/
private theorem read_whole2 (A : FVec Ideal S128x128 .f32) (t : Fin cfg0.N) :
    ((cfg0.win 2).blk t).view.read (Elt Ideal) A = A := by
  obtain ⟨⟨e0, e1⟩, -⟩ := whole_index t
  funext y
  show A (((cfg0.win 2).blk t).view.emb y) = A y
  refine congrArg A ?_
  funext a; apply Fin.ext
  match a with
  | ⟨0, _⟩ => show win0_2.index t (0 : Fin 2) * 128 + 1 * (y 0).val = (y 0).val; omega
  | ⟨1, _⟩ => show win0_2.index t (1 : Fin 2) * 128 + 1 * (y 1).val = (y 1).val; omega

/-- Window 2's block at any point is the whole array. -/
private theorem wczB_eq (c : Dev nD) (t : Fin cfg0.N) : wczB m c t = wcz m c := by
  show iblk m c 2 t = wcz m c
  unfold iblk
  exact read_whole2 (wcz m c) t

/-- Through window 3's block, which sits at block (0, 0) and has its array's size, an array reads as itself. -/
private theorem read_whole3 (A : FVec Ideal S1x128 .f32) (t : Fin cfg0.N) :
    ((cfg0.win 3).blk t).view.read (Elt Ideal) A = A := by
  obtain ⟨-, ⟨e0, e1⟩, -⟩ := whole_index t
  funext y
  show A (((cfg0.win 3).blk t).view.emb y) = A y
  refine congrArg A ?_
  funext a; apply Fin.ext
  match a with
  | ⟨0, _⟩ => show win0_3.index t (0 : Fin 2) * 1 + 1 * (y 0).val = (y 0).val; omega
  | ⟨1, _⟩ => show win0_3.index t (1 : Fin 2) * 128 + 1 * (y 1).val = (y 1).val; omega

/-- Window 3's block at any point is the whole array. -/
private theorem bczB_eq (c : Dev nD) (t : Fin cfg0.N) : bczB m c t = bcz m c := by
  show iblk m c 3 t = bcz m c
  unfold iblk
  exact read_whole3 (bcz m c) t

/-- Through window 4's block, which sits at block (0, 0) and has its array's size, an array reads as itself. -/
private theorem read_whole4 (A : FVec Ideal S128x128 .f32) (t : Fin cfg0.N) :
    ((cfg0.win 4).blk t).view.read (Elt Ideal) A = A := by
  obtain ⟨-, -, ⟨e0, e1⟩, -⟩ := whole_index t
  funext y
  show A (((cfg0.win 4).blk t).view.emb y) = A y
  refine congrArg A ?_
  funext a; apply Fin.ext
  match a with
  | ⟨0, _⟩ => show win0_4.index t (0 : Fin 2) * 128 + 1 * (y 0).val = (y 0).val; omega
  | ⟨1, _⟩ => show win0_4.index t (1 : Fin 2) * 128 + 1 * (y 1).val = (y 1).val; omega

/-- Window 4's block at any point is the whole array. -/
private theorem wcrB_eq (c : Dev nD) (t : Fin cfg0.N) : wcrB m c t = wcr m c := by
  show iblk m c 4 t = wcr m c
  unfold iblk
  exact read_whole4 (wcr m c) t

/-- Through window 5's block, which sits at block (0, 0) and has its array's size, an array reads as itself. -/
private theorem read_whole5 (A : FVec Ideal S1x128 .f32) (t : Fin cfg0.N) :
    ((cfg0.win 5).blk t).view.read (Elt Ideal) A = A := by
  obtain ⟨-, -, -, ⟨e0, e1⟩, -⟩ := whole_index t
  funext y
  show A (((cfg0.win 5).blk t).view.emb y) = A y
  refine congrArg A ?_
  funext a; apply Fin.ext
  match a with
  | ⟨0, _⟩ => show win0_5.index t (0 : Fin 2) * 1 + 1 * (y 0).val = (y 0).val; omega
  | ⟨1, _⟩ => show win0_5.index t (1 : Fin 2) * 128 + 1 * (y 1).val = (y 1).val; omega

/-- Window 5's block at any point is the whole array. -/
private theorem bcrB_eq (c : Dev nD) (t : Fin cfg0.N) : bcrB m c t = bcr m c := by
  show iblk m c 5 t = bcr m c
  unfold iblk
  exact read_whole5 (bcr m c) t

/-- Through window 6's block, which sits at block (0, 0) and has its array's size, an array reads as itself. -/
private theorem read_whole6 (A : FVec Ideal S128x128 .f32) (t : Fin cfg0.N) :
    ((cfg0.win 6).blk t).view.read (Elt Ideal) A = A := by
  obtain ⟨-, -, -, -, ⟨e0, e1⟩, -⟩ := whole_index t
  funext y
  show A (((cfg0.win 6).blk t).view.emb y) = A y
  refine congrArg A ?_
  funext a; apply Fin.ext
  match a with
  | ⟨0, _⟩ => show win0_6.index t (0 : Fin 2) * 128 + 1 * (y 0).val = (y 0).val; omega
  | ⟨1, _⟩ => show win0_6.index t (1 : Fin 2) * 128 + 1 * (y 1).val = (y 1).val; omega

/-- Window 6's block at any point is the whole array. -/
private theorem wchB_eq (c : Dev nD) (t : Fin cfg0.N) : wchB m c t = wch m c := by
  show iblk m c 6 t = wch m c
  unfold iblk
  exact read_whole6 (wch m c) t

/-- Through window 7's block, which sits at block (0, 0) and has its array's size, an array reads as itself. -/
private theorem read_whole7 (A : FVec Ideal S1x128 .f32) (t : Fin cfg0.N) :
    ((cfg0.win 7).blk t).view.read (Elt Ideal) A = A := by
  obtain ⟨-, -, -, -, -, ⟨e0, e1⟩, -⟩ := whole_index t
  funext y
  show A (((cfg0.win 7).blk t).view.emb y) = A y
  refine congrArg A ?_
  funext a; apply Fin.ext
  match a with
  | ⟨0, _⟩ => show win0_7.index t (0 : Fin 2) * 1 + 1 * (y 0).val = (y 0).val; omega
  | ⟨1, _⟩ => show win0_7.index t (1 : Fin 2) * 128 + 1 * (y 1).val = (y 1).val; omega

/-- Window 7's block at any point is the whole array. -/
private theorem bchB_eq (c : Dev nD) (t : Fin cfg0.N) : bchB m c t = bch m c := by
  show iblk m c 7 t = bch m c
  unfold iblk
  exact read_whole7 (bch m c) t

/-- Through window 8's block, which sits at block (0, 0) and has its array's size, an array reads as itself. -/
private theorem read_whole8 (A : FVec Ideal S128x128 .f32) (t : Fin cfg0.N) :
    ((cfg0.win 8).blk t).view.read (Elt Ideal) A = A := by
  obtain ⟨-, -, -, -, -, -, ⟨e0, e1⟩, -⟩ := whole_index t
  funext y
  show A (((cfg0.win 8).blk t).view.emb y) = A y
  refine congrArg A ?_
  funext a; apply Fin.ext
  match a with
  | ⟨0, _⟩ => show win0_8.index t (0 : Fin 2) * 128 + 1 * (y 0).val = (y 0).val; omega
  | ⟨1, _⟩ => show win0_8.index t (1 : Fin 2) * 128 + 1 * (y 1).val = (y 1).val; omega

/-- Window 8's block at any point is the whole array. -/
private theorem wz1B_eq (c : Dev nD) (t : Fin cfg0.N) : wz1B m c t = wz1 m c := by
  show iblk m c 8 t = wz1 m c
  unfold iblk
  exact read_whole8 (wz1 m c) t

/-- Through window 9's block, which sits at block (0, 0) and has its array's size, an array reads as itself. -/
private theorem read_whole9 (A : FVec Ideal S128x128 .f32) (t : Fin cfg0.N) :
    ((cfg0.win 9).blk t).view.read (Elt Ideal) A = A := by
  obtain ⟨-, -, -, -, -, -, -, ⟨e0, e1⟩, -⟩ := whole_index t
  funext y
  show A (((cfg0.win 9).blk t).view.emb y) = A y
  refine congrArg A ?_
  funext a; apply Fin.ext
  match a with
  | ⟨0, _⟩ => show win0_9.index t (0 : Fin 2) * 128 + 1 * (y 0).val = (y 0).val; omega
  | ⟨1, _⟩ => show win0_9.index t (1 : Fin 2) * 128 + 1 * (y 1).val = (y 1).val; omega

/-- Window 9's block at any point is the whole array. -/
private theorem wz2B_eq (c : Dev nD) (t : Fin cfg0.N) : wz2B m c t = wz2 m c := by
  show iblk m c 9 t = wz2 m c
  unfold iblk
  exact read_whole9 (wz2 m c) t

/-- Through window 10's block, which sits at block (0, 0) and has its array's size, an array reads as itself. -/
private theorem read_whole10 (A : FVec Ideal S1x128 .f32) (t : Fin cfg0.N) :
    ((cfg0.win 10).blk t).view.read (Elt Ideal) A = A := by
  obtain ⟨-, -, -, -, -, -, -, -, ⟨e0, e1⟩, -⟩ := whole_index t
  funext y
  show A (((cfg0.win 10).blk t).view.emb y) = A y
  refine congrArg A ?_
  funext a; apply Fin.ext
  match a with
  | ⟨0, _⟩ => show win0_10.index t (0 : Fin 2) * 1 + 1 * (y 0).val = (y 0).val; omega
  | ⟨1, _⟩ => show win0_10.index t (1 : Fin 2) * 128 + 1 * (y 1).val = (y 1).val; omega

/-- Window 10's block at any point is the whole array. -/
private theorem blzB_eq (c : Dev nD) (t : Fin cfg0.N) : blzB m c t = blz m c := by
  show iblk m c 10 t = blz m c
  unfold iblk
  exact read_whole10 (blz m c) t

/-- Through window 11's block, which sits at block (0, 0) and has its array's size, an array reads as itself. -/
private theorem read_whole11 (A : FVec Ideal S128x128 .f32) (t : Fin cfg0.N) :
    ((cfg0.win 11).blk t).view.read (Elt Ideal) A = A := by
  obtain ⟨-, -, -, -, -, -, -, -, -, ⟨e0, e1⟩, -⟩ := whole_index t
  funext y
  show A (((cfg0.win 11).blk t).view.emb y) = A y
  refine congrArg A ?_
  funext a; apply Fin.ext
  match a with
  | ⟨0, _⟩ => show win0_11.index t (0 : Fin 2) * 128 + 1 * (y 0).val = (y 0).val; omega
  | ⟨1, _⟩ => show win0_11.index t (1 : Fin 2) * 128 + 1 * (y 1).val = (y 1).val; omega

/-- Window 11's block at any point is the whole array. -/
private theorem wr1B_eq (c : Dev nD) (t : Fin cfg0.N) : wr1B m c t = wr1 m c := by
  show iblk m c 11 t = wr1 m c
  unfold iblk
  exact read_whole11 (wr1 m c) t

/-- Through window 12's block, which sits at block (0, 0) and has its array's size, an array reads as itself. -/
private theorem read_whole12 (A : FVec Ideal S128x128 .f32) (t : Fin cfg0.N) :
    ((cfg0.win 12).blk t).view.read (Elt Ideal) A = A := by
  obtain ⟨-, -, -, -, -, -, -, -, -, -, ⟨e0, e1⟩, -⟩ := whole_index t
  funext y
  show A (((cfg0.win 12).blk t).view.emb y) = A y
  refine congrArg A ?_
  funext a; apply Fin.ext
  match a with
  | ⟨0, _⟩ => show win0_12.index t (0 : Fin 2) * 128 + 1 * (y 0).val = (y 0).val; omega
  | ⟨1, _⟩ => show win0_12.index t (1 : Fin 2) * 128 + 1 * (y 1).val = (y 1).val; omega

/-- Window 12's block at any point is the whole array. -/
private theorem wr2B_eq (c : Dev nD) (t : Fin cfg0.N) : wr2B m c t = wr2 m c := by
  show iblk m c 12 t = wr2 m c
  unfold iblk
  exact read_whole12 (wr2 m c) t

/-- Through window 13's block, which sits at block (0, 0) and has its array's size, an array reads as itself. -/
private theorem read_whole13 (A : FVec Ideal S1x128 .f32) (t : Fin cfg0.N) :
    ((cfg0.win 13).blk t).view.read (Elt Ideal) A = A := by
  obtain ⟨-, -, -, -, -, -, -, -, -, -, -, ⟨e0, e1⟩, -⟩ := whole_index t
  funext y
  show A (((cfg0.win 13).blk t).view.emb y) = A y
  refine congrArg A ?_
  funext a; apply Fin.ext
  match a with
  | ⟨0, _⟩ => show win0_13.index t (0 : Fin 2) * 1 + 1 * (y 0).val = (y 0).val; omega
  | ⟨1, _⟩ => show win0_13.index t (1 : Fin 2) * 128 + 1 * (y 1).val = (y 1).val; omega

/-- Window 13's block at any point is the whole array. -/
private theorem blrB_eq (c : Dev nD) (t : Fin cfg0.N) : blrB m c t = blr m c := by
  show iblk m c 13 t = blr m c
  unfold iblk
  exact read_whole13 (blr m c) t

/-- Through window 14's block, which sits at block (0, 0) and has its array's size, an array reads as itself. -/
private theorem read_whole14 (A : FVec Ideal S128x128 .f32) (t : Fin cfg0.N) :
    ((cfg0.win 14).blk t).view.read (Elt Ideal) A = A := by
  obtain ⟨-, -, -, -, -, -, -, -, -, -, -, -, ⟨e0, e1⟩, -⟩ := whole_index t
  funext y
  show A (((cfg0.win 14).blk t).view.emb y) = A y
  refine congrArg A ?_
  funext a; apply Fin.ext
  match a with
  | ⟨0, _⟩ => show win0_14.index t (0 : Fin 2) * 128 + 1 * (y 0).val = (y 0).val; omega
  | ⟨1, _⟩ => show win0_14.index t (1 : Fin 2) * 128 + 1 * (y 1).val = (y 1).val; omega

/-- Window 14's block at any point is the whole array. -/
private theorem wh1B_eq (c : Dev nD) (t : Fin cfg0.N) : wh1B m c t = wh1 m c := by
  show iblk m c 14 t = wh1 m c
  unfold iblk
  exact read_whole14 (wh1 m c) t

/-- Through window 15's block, which sits at block (0, 0) and has its array's size, an array reads as itself. -/
private theorem read_whole15 (A : FVec Ideal S128x128 .f32) (t : Fin cfg0.N) :
    ((cfg0.win 15).blk t).view.read (Elt Ideal) A = A := by
  obtain ⟨-, -, -, -, -, -, -, -, -, -, -, -, -, ⟨e0, e1⟩, -⟩ := whole_index t
  funext y
  show A (((cfg0.win 15).blk t).view.emb y) = A y
  refine congrArg A ?_
  funext a; apply Fin.ext
  match a with
  | ⟨0, _⟩ => show win0_15.index t (0 : Fin 2) * 128 + 1 * (y 0).val = (y 0).val; omega
  | ⟨1, _⟩ => show win0_15.index t (1 : Fin 2) * 128 + 1 * (y 1).val = (y 1).val; omega

/-- Window 15's block at any point is the whole array. -/
private theorem wh2B_eq (c : Dev nD) (t : Fin cfg0.N) : wh2B m c t = wh2 m c := by
  show iblk m c 15 t = wh2 m c
  unfold iblk
  exact read_whole15 (wh2 m c) t

/-- Through window 16's block, which sits at block (0, 0) and has its array's size, an array reads as itself. -/
private theorem read_whole16 (A : FVec Ideal S1x128 .f32) (t : Fin cfg0.N) :
    ((cfg0.win 16).blk t).view.read (Elt Ideal) A = A := by
  obtain ⟨-, -, -, -, -, -, -, -, -, -, -, -, -, -, ⟨e0, e1⟩, -⟩ := whole_index t
  funext y
  show A (((cfg0.win 16).blk t).view.emb y) = A y
  refine congrArg A ?_
  funext a; apply Fin.ext
  match a with
  | ⟨0, _⟩ => show win0_16.index t (0 : Fin 2) * 1 + 1 * (y 0).val = (y 0).val; omega
  | ⟨1, _⟩ => show win0_16.index t (1 : Fin 2) * 128 + 1 * (y 1).val = (y 1).val; omega

/-- Window 16's block at any point is the whole array. -/
private theorem blhB_eq (c : Dev nD) (t : Fin cfg0.N) : blhB m c t = blh m c := by
  show iblk m c 16 t = blh m c
  unfold iblk
  exact read_whole16 (blh m c) t

/-- Through window 17's block, which sits at block (0, 0) and has its array's size, an array reads as itself. -/
private theorem read_whole17 (A : FVec Ideal S128x128 .f32) (t : Fin cfg0.N) :
    ((cfg0.win 17).blk t).view.read (Elt Ideal) A = A := by
  obtain ⟨-, -, -, -, -, -, -, -, -, -, -, -, -, -, -, ⟨e0, e1⟩, -⟩ := whole_index t
  funext y
  show A (((cfg0.win 17).blk t).view.emb y) = A y
  refine congrArg A ?_
  funext a; apply Fin.ext
  match a with
  | ⟨0, _⟩ => show win0_17.index t (0 : Fin 2) * 128 + 1 * (y 0).val = (y 0).val; omega
  | ⟨1, _⟩ => show win0_17.index t (1 : Fin 2) * 128 + 1 * (y 1).val = (y 1).val; omega

/-- Window 17's block at any point is the whole array. -/
private theorem wlinB_eq (c : Dev nD) (t : Fin cfg0.N) : wlinB m c t = wlin m c := by
  show iblk m c 17 t = wlin m c
  unfold iblk
  exact read_whole17 (wlin m c) t

/-- Through window 18's block, which sits at block (0, 0) and has its array's size, an array reads as itself. -/
private theorem read_whole18 (A : FVec Ideal S1x128 .f32) (t : Fin cfg0.N) :
    ((cfg0.win 18).blk t).view.read (Elt Ideal) A = A := by
  obtain ⟨-, -, -, -, -, -, -, -, -, -, -, -, -, -, -, -, ⟨e0, e1⟩⟩ := whole_index t
  funext y
  show A (((cfg0.win 18).blk t).view.emb y) = A y
  refine congrArg A ?_
  funext a; apply Fin.ext
  match a with
  | ⟨0, _⟩ => show win0_18.index t (0 : Fin 2) * 1 + 1 * (y 0).val = (y 0).val; omega
  | ⟨1, _⟩ => show win0_18.index t (1 : Fin 2) * 128 + 1 * (y 1).val = (y 1).val; omega

/-- Window 18's block at any point is the whole array. -/
private theorem blinB_eq (c : Dev nD) (t : Fin cfg0.N) : blinB m c t = blin m c := by
  show iblk m c 18 t = blin m c
  unfold iblk
  exact read_whole18 (blin m c) t

/-- The hidden-state result as ONE function of the region-entry arrays: at `(i₀, i₁)`, the new hidden row of node `i₀` at `i₁`. -/
private def hidOut (c : Dev nD) : S50000x128.Idx → Elt Ideal .f32 :=
  fun i => h0K m c ⟨(i 0).val, idx2_lt0 i⟩ ⟨(i 1).val, idx2_lt1 i⟩

/-- The output result as ONE function of the region-entry arrays: at `(i₀, i₁)`, the output row of node `i₀` at `i₁`. -/
private def linOut (c : Dev nD) : S50000x128.Idx → Elt Ideal .f32 :=
  fun i => zoutK m c ⟨(i 0).val, idx2_lt0 i⟩ ⟨(i 1).val, idx2_lt1 i⟩

/-- `hidOut` at `(n, q)`. -/
private theorem hidOut_apply (c : Dev nD) (n : Fin 50000) (q : Fin 128) : hidOut m c (ix2 n q) = h0K m c n q := rfl

/-- `linOut` at `(n, q)`. -/
private theorem linOut_apply (c : Dev nD) (n : Fin 50000) (q : Fin 128) : linOut m c (ix2 n q) = zoutK m c n q := rfl

/-- The node update of the blocks' rows `p` at point `t` is the node update of the arrays' rows `i·10000 + p`. -/
private theorem h0_blocks (c : Dev nD) (t : Fin cfg0.N) (p : Fin 10000) (n : Fin 50000)
    (hn : n.val = win0_19.index t (0 : Fin 2) * 10000 + p.val) :
    h0row (aff (rowOf (aggB m c t) p) (matOf (wczB m c t)) (vec1Of (bczB m c t))) (aff (rowOf (aggB m c t) p) (matOf (wcrB m c t)) (vec1Of (bcrB m c t)))
      (aff (rowOf (aggB m c t) p) (matOf (wchB m c t)) (vec1Of (bchB m c t))) (rowOf (hidB m c t) p)
      (matOf (wz1B m c t)) (matOf (wz2B m c t)) (vec1Of (blzB m c t)) (matOf (wr1B m c t)) (matOf (wr2B m c t)) (vec1Of (blrB m c t))
      (matOf (wh1B m c t)) (matOf (wh2B m c t)) (vec1Of (blhB m c t)) = h0K m c n := by
  rw [aggB_row m c t p n hn, hidB_row m c t p n hn, wczB_eq m c t, bczB_eq m c t, wz1B_eq m c t, wz2B_eq m c t, blzB_eq m c t, wcrB_eq m c t, bcrB_eq m c t, wr1B_eq m c t, wr2B_eq m c t, blrB_eq m c t, wchB_eq m c t, bchB_eq m c t, wh1B_eq m c t, wh2B_eq m c t, blhB_eq m c t]
  rfl

/-- WHAT POINT `t` WRITES BACK to the hidden-state result is block `t` of `hidOut`. -/
private theorem flushed19_eq (c : Dev nD) (t : Fin cfg0.N) :
    (dats m 0 c).flushed 19 t = ((cfg0.win 19).blk t).view.read (Elt Ideal) (hidOut m c) := by
  rw [Value.flushed19]
  unfold Gen.out0_19
  rw [View.canon_unit_zero zero_off]
  simp only [View.ld_unit_zero (S := S10000x128) zero_off, View.ld_unit_zero (S := S128x128) zero_off, View.ld_unit_zero (S := S1x128) zero_off]
  obtain ⟨-, -, -, -, -, -, e6, -⟩ := rows_index t
  funext j
  obtain ⟨p, q, rfl⟩ : ∃ (p : Fin 10000) (q : Fin 128), j = ix2 p q := ⟨j 0, j 1, eq_ix2 j⟩
  have hp : p.val < 10000 := p.isLt
  obtain ⟨n, hn⟩ : ∃ n : Fin 50000, n.val = win0_19.index t (0 : Fin 2) * 10000 + p.val := ⟨⟨_, by omega⟩, rfl⟩
  refine (Cert.KernelIdeal.Pay.pay_h0 (aggB m c t) (hidB m c t) (wczB m c t) (bczB m c t) (wz1B m c t) (wz2B m c t) (blzB m c t) (wcrB m c t) (bcrB m c t) (wr1B m c t) (wr2B m c t) (blrB m c t) (wchB m c t) (bchB m c t) (wh1B m c t) (wh2B m c t) (blhB m c t) p q).trans ?_
  rw [h0_blocks m c t p n hn]
  exact ((read_rows19 (hidOut m c) t p n hn q).trans (hidOut_apply m c n q)).symm

/-- WHAT POINT `t` WRITES BACK to the output result is block `t` of `linOut`. -/
private theorem flushed20_eq (c : Dev nD) (t : Fin cfg0.N) :
    (dats m 0 c).flushed 20 t = ((cfg0.win 20).blk t).view.read (Elt Ideal) (linOut m c) := by
  rw [Value.flushed20]
  unfold Gen.out0_20
  rw [View.canon_unit_zero zero_off]
  simp only [View.ld_unit_zero (S := S10000x128) zero_off, View.ld_unit_zero (S := S128x128) zero_off, View.ld_unit_zero (S := S1x128) zero_off]
  obtain ⟨-, -, -, -, -, -, e6, -⟩ := rows_index t
  funext j
  obtain ⟨p, q, rfl⟩ : ∃ (p : Fin 10000) (q : Fin 128), j = ix2 p q := ⟨j 0, j 1, eq_ix2 j⟩
  have hp : p.val < 10000 := p.isLt
  obtain ⟨n, hn⟩ : ∃ n : Fin 50000, n.val = win0_19.index t (0 : Fin 2) * 10000 + p.val := ⟨⟨_, by omega⟩, rfl⟩
  refine (Cert.KernelIdeal.Pay.pay_zout (aggB m c t) (hidB m c t) (wczB m c t) (bczB m c t) (wz1B m c t) (wz2B m c t) (blzB m c t) (wcrB m c t) (bcrB m c t) (wr1B m c t) (wr2B m c t) (blrB m c t) (wchB m c t) (bchB m c t) (wh1B m c t) (wh2B m c t) (blhB m c t) (wlinB m c t) (blinB m c t) p q).trans ?_
  rw [h0_blocks m c t p n hn, wlinB_eq m c t, blinB_eq m c t]
  exact ((read_rows20 (linOut m c) t p n hn q).trans (linOut_apply m c n q)).symm

/-- An index of a result array is in point `t`'s block iff each coordinate is in the block's range on its axis. -/
private theorem mem_blk19 (t : Fin cfg0.N) (i : S50000x128.Idx) :
    i ∈ ((cfg0.win 19).blk t).view.set ↔ ∀ a : Fin 2, win0_19.index t a * S10000x128.size a ≤ (i a).val ∧ (i a).val < win0_19.index t a * S10000x128.size a + S10000x128.size a := by
  show i ∈ ((View.whole main_v54_0).slice (win0_19.rect t)).set ↔ _
  rw [View.set_slice_whole, Rect.mem_set_unit]
  exact Iff.rfl

/-- The same for the output result's blocks. -/
private theorem mem_blk20 (t : Fin cfg0.N) (i : S50000x128.Idx) :
    i ∈ ((cfg0.win 20).blk t).view.set ↔ ∀ a : Fin 2, win0_20.index t a * S10000x128.size a ≤ (i a).val ∧ (i a).val < win0_20.index t a * S10000x128.size a + S10000x128.size a := by
  show i ∈ ((View.whole main_v54_1).slice (win0_20.rect t)).set ↔ _
  rw [View.set_slice_whole, Rect.mem_set_unit]
  exact Iff.rfl

/-- The five row blocks tile the 50000 rows: row `r` lies in the block of the point whose row-block index is `r / 10000`. -/
private theorem cover19 (i : S50000x128.Idx) :
    ∃ t : Fin cfg0.N, (cfg0.win 19).flush t = true ∧ i ∈ ((cfg0.win 19).blk t).view.set := by
  have hi0 : (i 0).val < 50000 := (i 0).isLt
  have hi1 : (i 1).val < 128 := (i 1).isLt
  obtain ⟨t, q0⟩ := rows_onto ⟨(i 0).val / 10000, by omega⟩
  have q0' : win0_19.index t (0 : Fin 2) = (i 0).val / 10000 := q0
  obtain ⟨-, -, -, -, -, -, -, q1⟩ := rows_index t
  refine ⟨t, flush0_19 t, ?_⟩
  rw [mem_blk19]
  intro a
  match a with
  | ⟨0, _⟩ => show win0_19.index t (0 : Fin 2) * 10000 ≤ (i 0).val ∧ (i 0).val < win0_19.index t (0 : Fin 2) * 10000 + 10000; omega
  | ⟨1, _⟩ => show win0_19.index t (1 : Fin 2) * 128 ≤ (i 1).val ∧ (i 1).val < win0_19.index t (1 : Fin 2) * 128 + 128; omega

/-- The output result's blocks sit at the same row-block indices, so they tile the rows the same way. -/
private theorem cover20 (i : S50000x128.Idx) :
    ∃ t : Fin cfg0.N, (cfg0.win 20).flush t = true ∧ i ∈ ((cfg0.win 20).blk t).view.set := by
  have hi0 : (i 0).val < 50000 := (i 0).isLt
  have hi1 : (i 1).val < 128 := (i 1).isLt
  obtain ⟨t, q0⟩ := rows_onto ⟨(i 0).val / 10000, by omega⟩
  have q0' : win0_19.index t (0 : Fin 2) = (i 0).val / 10000 := q0
  obtain ⟨-, -, -, -, e4, e5, -, -⟩ := rows_index t
  refine ⟨t, flush0_20 t, ?_⟩
  rw [mem_blk20]
  intro a
  match a with
  | ⟨0, _⟩ => show win0_20.index t (0 : Fin 2) * 10000 ≤ (i 0).val ∧ (i 0).val < win0_20.index t (0 : Fin 2) * 10000 + 10000; omega
  | ⟨1, _⟩ => show win0_20.index t (1 : Fin 2) * 128 ≤ (i 1).val ∧ (i 1).val < win0_20.index t (1 : Fin 2) * 128 + 128; omega

/-- So the hidden-state result ends holding `hidOut`, -/
private theorem hid_array (c : Dev nD) : (dats m 0 c).arrAt 19 cfg0.N = hidOut m c :=
  (dats m 0 c).arrAt_eq_of_cover 19 (hidOut m c) (fun t _ => flushed19_eq m c t) cover19

/-- and the output result `linOut`. -/
private theorem lin_array (c : Dev nD) : (dats m 0 c).arrAt 20 cfg0.N = linOut m c :=
  (dats m 0 c).arrAt_eq_of_cover 20 (linOut m c) (fun t _ => flushed20_eq m c t) cover20

/-- After the run the hidden-state result holds, at `(n, q)`, the new hidden row of node `n` at `q`. -/
theorem final19 (c : Dev nD) (n : Fin 50000) (q : Fin 128) :
    (dats m 0 c).arrAt 19 cfg0.N (ix2 n q) = h0K m c n q := by
  rw [hid_array m c]
  exact hidOut_apply m c n q

/-- After the run the output result holds, at `(n, q)`, the output row of node `n` at `q`. -/
theorem final20 (c : Dev nD) (n : Fin 50000) (q : Fin 128) :
    (dats m 0 c).arrAt 20 cfg0.N (ix2 n q) = zoutK m c n q := by
  rw [lin_array m c]
  exact linOut_apply m c n q

end Cert.KernelIdeal.Blocks

end
-- ==== Proof.KHost.lean ====
/-
  What @main's host lines leave in the weight and bias arrays the region stages: each half of a gate matrix is the
  upper or lower 128 rows of the 256 × 128 input; each bias row is the length-128 input reshaped to one row; the
  other staged weight arrays, and the hidden state, are inputs untouched.

  Three facts about arrays carry it. A slice of 128 rows of a 256 × 128 array W, taken from row r (r = 0 or 128),
  has entry W (r + k, j) at (k, j): with r = 0 that is the upper half, with r = 128 the lower half. A vector b of
  128 entries reshaped to 1 × 128 has entry b j at (0, j), since (0, j) and j have the same row-major position
  0 · 128 + j = j. Each staged array is written by exactly one host line, whose operand is an input no line
  writes, so the array is that slice, or that reshape, of the input as launched.
-/
import proofs.«110313_j28329604284505_2_alg».proof.Proof.KArr
import proofs.«110313_j28329604284505_2_alg».proof.Proof.Spec
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.Host

open Cert.KernelIdeal Cert.KernelIdeal.Gen Cert.KernelIdeal.Arr Cert.GruSpec
open Idealize.ShloMosaic Idealize.ShloMosaic.TcCoe Idealize.SL.Sem Idealize.ShloMosaic.ValueIdx Idealize.ShloMosaic.StableHlo

variable (m : (ℓ : Loc nD τ sig) → Buf (Elt Ideal) ℓ)

/-- The 128 rows from row 0 of a 256 × 128 array are its upper half: entry (k, j) of the slice is entry
    (0 + k, 0 + j) of the array. -/
private theorem matOf_slice_top (W : FVec Ideal S256x128 .f32) :
    matOf (extractStridedSlice S128x128 ![0, 0] W slices_S256x128_S128x128_0_0) = topOf W := by
  funext k j
  refine extractStridedSlice_apply ![0, 0] W slices_S256x128_S128x128_0_0 (ix2 k j) (ix2 (Fin.castAdd 128 k) j) (fun a => ?_)
  match a with
  | ⟨0, _⟩ => show (Fin.castAdd 128 k).val = 0 + k.val; rw [Fin.coe_castAdd, Nat.zero_add]
  | ⟨1, _⟩ => show j.val = 0 + j.val; rw [Nat.zero_add]

/-- The 128 rows from row 128 of a 256 × 128 array are its lower half: entry (k, j) of the slice is entry
    (128 + k, 0 + j) of the array. -/
private theorem matOf_slice_bot (W : FVec Ideal S256x128 .f32) :
    matOf (extractStridedSlice S128x128 ![128, 0] W slices_S256x128_S128x128_128_0) = botOf W := by
  funext k j
  refine extractStridedSlice_apply ![128, 0] W slices_S256x128_S128x128_128_0 (ix2 k j) (ix2 (Fin.natAdd 128 k) j) (fun a => ?_)
  match a with
  | ⟨0, _⟩ => show (Fin.natAdd 128 k).val = 128 + k.val; rw [Fin.coe_natAdd]
  | ⟨1, _⟩ => show j.val = 0 + j.val; rw [Nat.zero_add]

/-- A vector of 128 entries reshaped to one row of 128 has that vector as its row. -/
private theorem vec1Of_reshape (b : FVec Ideal S128 .f32) :
    vec1Of (shapeCast S1x128 b shapeCasts_S128_S1x128) = vecOf b := by
  funext j
  exact shapeCast_a_1a_apply b shapeCasts_S128_S1x128 (0 : Fin 1) j

/-- The halves of the three gate matrices. -/
theorem wz1_eq (c : Dev nD) : matOf (wz1 m c) = topOf (m ((c : Thread nD τ).loc main_arg6)) := by
  have e : (wz1 m c : S128x128.Idx → EReal)
      = extractStridedSlice S128x128 ![0, 0] (m ((c : Thread nD τ).loc main_arg6)) slices_S256x128_S128x128_0_0 := by
    dsimp only [Arr.wz1, Gen.V]
    simp only [Gen.hostOps0, Gen.hostOps0_1, Gen.hostOps0_2, List.flatten_cons, List.flatten_nil, List.append_nil, List.cons_append,
      List.nil_append]
    after_results
  exact (congrArg matOf e).trans (matOf_slice_top _)
theorem wz2_eq (c : Dev nD) : matOf (wz2 m c) = botOf (m ((c : Thread nD τ).loc main_arg6)) := by
  have e : (wz2 m c : S128x128.Idx → EReal)
      = extractStridedSlice S128x128 ![128, 0] (m ((c : Thread nD τ).loc main_arg6)) slices_S256x128_S128x128_128_0 := by
    dsimp only [Arr.wz2, Gen.V]
    simp only [Gen.hostOps0, Gen.hostOps0_1, Gen.hostOps0_2, List.flatten_cons, List.flatten_nil, List.append_nil, List.cons_append,
      List.nil_append]
    after_results
  exact (congrArg matOf e).trans (matOf_slice_bot _)
theorem wr1_eq (c : Dev nD) : matOf (wr1 m c) = topOf (m ((c : Thread nD τ).loc main_arg10)) := by
  have e : (wr1 m c : S128x128.Idx → EReal)
      = extractStridedSlice S128x128 ![0, 0] (m ((c : Thread nD τ).loc main_arg10)) slices_S256x128_S128x128_0_0 := by
    dsimp only [Arr.wr1, Gen.V]
    simp only [Gen.hostOps0, Gen.hostOps0_1, Gen.hostOps0_2, List.flatten_cons, List.flatten_nil, List.append_nil, List.cons_append,
      List.nil_append]
    after_results
  exact (congrArg matOf e).trans (matOf_slice_top _)
theorem wr2_eq (c : Dev nD) : matOf (wr2 m c) = botOf (m ((c : Thread nD τ).loc main_arg10)) := by
  have e : (wr2 m c : S128x128.Idx → EReal)
      = extractStridedSlice S128x128 ![128, 0] (m ((c : Thread nD τ).loc main_arg10)) slices_S256x128_S128x128_128_0 := by
    dsimp only [Arr.wr2, Gen.V]
    simp only [Gen.hostOps0, Gen.hostOps0_1, Gen.hostOps0_2, List.flatten_cons, List.flatten_nil, List.append_nil, List.cons_append,
      List.nil_append]
    after_results
  exact (congrArg matOf e).trans (matOf_slice_bot _)
theorem wh1_eq (c : Dev nD) : matOf (wh1 m c) = topOf (m ((c : Thread nD τ).loc main_arg14)) := by
  have e : (wh1 m c : S128x128.Idx → EReal)
      = extractStridedSlice S128x128 ![0, 0] (m ((c : Thread nD τ).loc main_arg14)) slices_S256x128_S128x128_0_0 := by
    dsimp only [Arr.wh1, Gen.V]
    simp only [Gen.hostOps0, Gen.hostOps0_1, Gen.hostOps0_2, List.flatten_cons, List.flatten_nil, List.append_nil, List.cons_append,
      List.nil_append]
    after_results
  exact (congrArg matOf e).trans (matOf_slice_top _)
theorem wh2_eq (c : Dev nD) : matOf (wh2 m c) = botOf (m ((c : Thread nD τ).loc main_arg14)) := by
  have e : (wh2 m c : S128x128.Idx → EReal)
      = extractStridedSlice S128x128 ![128, 0] (m ((c : Thread nD τ).loc main_arg14)) slices_S256x128_S128x128_128_0 := by
    dsimp only [Arr.wh2, Gen.V]
    simp only [Gen.hostOps0, Gen.hostOps0_1, Gen.hostOps0_2, List.flatten_cons, List.flatten_nil, List.append_nil, List.cons_append,
      List.nil_append]
    after_results
  exact (congrArg matOf e).trans (matOf_slice_bot _)

/-- The bias rows. -/
theorem bcz_eq (c : Dev nD) : vec1Of (bcz m c) = vecOf (m ((c : Thread nD τ).loc main_arg5)) := by
  have e : (bcz m c : S1x128.Idx → EReal)
      = shapeCast S1x128 (m ((c : Thread nD τ).loc main_arg5)) shapeCasts_S128_S1x128 := by
    dsimp only [Arr.bcz, Gen.V]
    simp only [Gen.hostOps0, Gen.hostOps0_1, Gen.hostOps0_2, List.flatten_cons, List.flatten_nil, List.append_nil, List.cons_append,
      List.nil_append]
    after_results
    rfl
  exact (congrArg vec1Of e).trans (vec1Of_reshape _)
theorem bcr_eq (c : Dev nD) : vec1Of (bcr m c) = vecOf (m ((c : Thread nD τ).loc main_arg9)) := by
  have e : (bcr m c : S1x128.Idx → EReal)
      = shapeCast S1x128 (m ((c : Thread nD τ).loc main_arg9)) shapeCasts_S128_S1x128 := by
    dsimp only [Arr.bcr, Gen.V]
    simp only [Gen.hostOps0, Gen.hostOps0_1, Gen.hostOps0_2, List.flatten_cons, List.flatten_nil, List.append_nil, List.cons_append,
      List.nil_append]
    after_results
    rfl
  exact (congrArg vec1Of e).trans (vec1Of_reshape _)
theorem bch_eq (c : Dev nD) : vec1Of (bch m c) = vecOf (m ((c : Thread nD τ).loc main_arg13)) := by
  have e : (bch m c : S1x128.Idx → EReal)
      = shapeCast S1x128 (m ((c : Thread nD τ).loc main_arg13)) shapeCasts_S128_S1x128 := by
    dsimp only [Arr.bch, Gen.V]
    simp only [Gen.hostOps0, Gen.hostOps0_1, Gen.hostOps0_2, List.flatten_cons, List.flatten_nil, List.append_nil, List.cons_append,
      List.nil_append]
    after_results
    rfl
  exact (congrArg vec1Of e).trans (vec1Of_reshape _)
theorem blz_eq (c : Dev nD) : vec1Of (blz m c) = vecOf (m ((c : Thread nD τ).loc main_arg7)) := by
  have e : (blz m c : S1x128.Idx → EReal)
      = shapeCast S1x128 (m ((c : Thread nD τ).loc main_arg7)) shapeCasts_S128_S1x128 := by
    dsimp only [Arr.blz, Gen.V]
    simp only [Gen.hostOps0, Gen.hostOps0_1, Gen.hostOps0_2, List.flatten_cons, List.flatten_nil, List.append_nil, List.cons_append,
      List.nil_append]
    after_results
    rfl
  exact (congrArg vec1Of e).trans (vec1Of_reshape _)
theorem blr_eq (c : Dev nD) : vec1Of (blr m c) = vecOf (m ((c : Thread nD τ).loc main_arg11)) := by
  have e : (blr m c : S1x128.Idx → EReal)
      = shapeCast S1x128 (m ((c : Thread nD τ).loc main_arg11)) shapeCasts_S128_S1x128 := by
    dsimp only [Arr.blr, Gen.V]
    simp only [Gen.hostOps0, Gen.hostOps0_1, Gen.hostOps0_2, List.flatten_cons, List.flatten_nil, List.append_nil, List.cons_append,
      List.nil_append]
    after_results
    rfl
  exact (congrArg vec1Of e).trans (vec1Of_reshape _)
theorem blh_eq (c : Dev nD) : vec1Of (blh m c) = vecOf (m ((c : Thread nD τ).loc main_arg15)) := by
  have e : (blh m c : S1x128.Idx → EReal)
      = shapeCast S1x128 (m ((c : Thread nD τ).loc main_arg15)) shapeCasts_S128_S1x128 := by
    dsimp only [Arr.blh, Gen.V]
    simp only [Gen.hostOps0, Gen.hostOps0_1, Gen.hostOps0_2, List.flatten_cons, List.flatten_nil, List.append_nil, List.cons_append,
      List.nil_append]
    after_results
    rfl
  exact (congrArg vec1Of e).trans (vec1Of_reshape _)
theorem blin_eq (c : Dev nD) : vec1Of (blin m c) = vecOf (m ((c : Thread nD τ).loc main_arg17)) := by
  have e : (blin m c : S1x128.Idx → EReal)
      = shapeCast S1x128 (m ((c : Thread nD τ).loc main_arg17)) shapeCasts_S128_S1x128 := by
    dsimp only [Arr.blin, Gen.V]
    simp only [Gen.hostOps0, Gen.hostOps0_1, Gen.hostOps0_2, List.flatten_cons, List.flatten_nil, List.append_nil, List.cons_append,
      List.nil_append]
    after_results
    rfl
  exact (congrArg vec1Of e).trans (vec1Of_reshape _)

/-- The staged inputs no host line touches. -/
theorem hid_eq (c : Dev nD) : hid m c = (m ((c : Thread nD τ).loc main_arg3)) := V_main_arg3 m c
theorem wcz_eq (c : Dev nD) : wcz m c = (m ((c : Thread nD τ).loc main_arg4)) := V_main_arg4 m c
theorem wcr_eq (c : Dev nD) : wcr m c = (m ((c : Thread nD τ).loc main_arg8)) := V_main_arg8 m c
theorem wch_eq (c : Dev nD) : wch m c = (m ((c : Thread nD τ).loc main_arg12)) := V_main_arg12 m c
theorem wlin_eq (c : Dev nD) : wlin m c = (m ((c : Thread nD τ).loc main_arg16)) := V_main_arg16 m c

end Cert.KernelIdeal.Host

end
-- ==== Proof.Agg.lean ====
/-
  The aggregated node features: row `n` is the sum, over the edges (self-loops included) whose destination is `n`,
  of the source node's feature row times the edge's normalising weight. Spelt with the reference's own stages for
  the three things both programs compute alike from the edge lists — the gather's start indices, the scatter's
  indices and the edge weights broadcast along the feature axis — so that the two programs share them as terms.
-/
import proofs.«110313_j28329604284505_2_alg».proof.Proof.ReadP

noncomputable section

namespace Cert.Agg

open Cert.ReferenceIdeal Cert.ReferenceIdeal.Read Idealize.ShloMosaic Idealize.ShloMosaic.TcCoe

/-- Gather each edge's source row of `x0`, weight it, and add it into its destination row. Stated for any float
    family; the certificate reads it at the extended reals. -/
def AGG {F : FTy → Type} [FloatOps F] (x0 : FVec F S50000x128 .f32) (x1 x2 : IVec S800000 32) : FVec F S50000x128 .f32 :=
  Host.scatterAdd scatter_S50000x128_S850000x1_S850000x128_1_0_0_1 (val_main_v39 (F := F)) (val_main_v40 (F := F) x2)
    (mulf (Host.gather gather_S50000x128_S850000x1_S850000x128_1_0_n_n_0_1_1128 x0 (val_main_v35 (F := F) x1))
      (val_main_v37 (F := F) x1 x2))

end Cert.Agg

end
-- ==== Proof.KAgg.lean ====
/-
  What @main's host lines leave in the first staged array: the scatter-add, along the destination indices, of the
  gathered source rows of the node features each times its edge weight — `Agg.AGG` of the three inputs it depends on.
  The kernel program's host lines that build the indices and the weights are, operation for operation, the
  reference's, so the two chains are one term.
-/
import proofs.«110313_j28329604284505_2_alg».proof.Proof.KArr
import proofs.«110313_j28329604284505_2_alg».proof.Proof.Agg
import Idealize.ShloMosaic.Lib.StableHlo.Run

noncomputable section

namespace Cert.KernelIdeal.HostAgg

open Cert.KernelIdeal Cert.KernelIdeal.Gen Cert.KernelIdeal.Arr
open Idealize.ShloMosaic Idealize.ShloMosaic.TcCoe Idealize.SL.Sem Idealize.ShloMosaic.StableHlo

set_option maxHeartbeats 2000000 in
/-- At any float family: the array the region finds staged in window 0 is the aggregate of the inputs as launched. -/
theorem V_agg {F : FTy → Type} [FloatOps F] (m : (ℓ : Loc nD τ sig) → Buf (Elt F) ℓ) (c : Dev nD) :
    (V m c main_v40 : S50000x128.Idx → F .f32)
      = Cert.Agg.AGG (F := F) (m ((c : Thread nD τ).loc main_arg0)) (m ((c : Thread nD τ).loc main_arg1)) (m ((c : Thread nD τ).loc main_arg2)) := by
  dsimp only [Gen.V]
  simp only [Gen.hostOps0, Gen.hostOps0_1, Gen.hostOps0_2, List.flatten_cons, List.flatten_nil, List.append_nil, List.cons_append,
    List.nil_append]
  after_results_simp
  all_goals rfl

variable (m : (ℓ : Loc nD τ sig) → Buf (Elt Ideal) ℓ)

/-- The aggregated array is the gather–weight–scatter of the node features along the edge lists. -/
theorem agg_eq (c : Dev nD) : agg m c = Cert.Agg.AGG (F := Ideal) (m ((c : Thread nD τ).loc main_arg0)) (m ((c : Thread nD τ).loc main_arg1)) (m ((c : Thread nD τ).loc main_arg2)) :=
  V_agg m c

end Cert.KernelIdeal.HostAgg

end
-- ==== Proof.SwapCore.lean ====
/-
  The exchange of sums behind "aggregate, then project = project, then aggregate", stated for any dimension
  numbers of the two shapes at hand: a row gather (operand [N, C], one start index per edge, a whole row of C read)
  and a row scatter-add (updates [E, C] added into rows of [N, C], an edge whose index is out of range dropped).

  A row gather reads, at `(e, k)`, the operand at `(g e, k)` where `g e` is edge `e`'s start index clamped into the
  rows: the row depends on the edge alone and the column passes through. A row scatter lands update `(e, k)` on
  `(s e, k)` when edge `e`'s index `s e` is a row, and nowhere otherwise. So with real weights `w`, real entries
  `x` and a real matrix `W`,

      ∑ₖ (∑_{e : s e = n} x (g e, k) · w e) · W (k, j) = ∑_{e : s e = n} w e · ∑ₖ x (g e, k) · W (k, j):

  both sides are finite sums of reals, equal by distributivity and an exchange of the two sums.
-/
import proofs.«110313_j28329604284505_2_alg».proof.Proof.Spec
import Idealize.ShloMosaic.PureOps.Ideal
import Idealize.ShloMosaic.PureOps.Ideal.Laws
import Idealize.ShloMosaic.Lib.ValueIdx

noncomputable section

open scoped BigOperators

namespace Cert.SwapCore

open Idealize.ShloMosaic Idealize.ShloMosaic.ValueIdx

/-- The printed dimension numbers of a row gather: operand [N, C], start indices [E, 1], result [E, C]. -/
structure RowGather {N E C : Nat} (d : GatherDims ⟨2, ![N, C]⟩ ⟨2, ![E, 1]⟩ ⟨2, ![E, C]⟩) : Prop where
  offset : d.offsetDims = [1]
  collapsed : d.collapsedSliceDims = [0]
  opBatch : d.operandBatchingDims = []
  siBatch : d.startIndicesBatchingDims = []
  startMap : d.startIndexMap = [0]
  ivd : d.indexVectorDim = 1
  slice0 : d.sliceSizes 0 = 1
  slice1 : d.sliceSizes 1 = C

/-- The printed dimension numbers of a row scatter: operand [N, C], scatter indices [E, 1], updates [E, C]. -/
structure RowScatter {N E C : Nat} (d : ScatterDims ⟨2, ![N, C]⟩ ⟨2, ![E, 1]⟩ ⟨2, ![E, C]⟩) : Prop where
  window : d.updateWindowDims = [1]
  inserted : d.insertedWindowDims = [0]
  toOperand : d.scatterDimsToOperandDims = [0]
  ivd : d.indexVectorDim = 1

/-- The coercion of a finite real sum is the sum of the coercions. -/
private theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- THE LAW ITSELF. For a finite set S of edges, a row map g, real weights w, real entries x and a real matrix W:
    ∑ₖ (∑_{e ∈ S} x (g e, k) · w e) · W (k, j) = ∑_{e ∈ S} w e · ∑ₖ x (g e, k) · W (k, j). Every term is the coercion of a
    real, so both sides are coercions of real sums; there it is distributivity and the exchange of the two sums. -/
private theorem real_swap {E N : Nat} (S : Finset (Fin E)) (g : Fin E → Fin N) (w : Fin E → ℝ)
    (x : Fin N → Fin 128 → ℝ) (Wr : Fin 128 → Fin 128 → ℝ) (j : Fin 128) :
    ∑ k : Fin 128, ((0 : EReal) + ∑ e ∈ S, ((x (g e) k : ℝ) : EReal) * ((w e : ℝ) : EReal)) * ((Wr k j : ℝ) : EReal)
      = (0 : EReal) + ∑ e ∈ S, ((w e : ℝ) : EReal) * ∑ k : Fin 128, ((x (g e) k : ℝ) : EReal) * ((Wr k j : ℝ) : EReal) := by
  simp only [zero_add, ← EReal.coe_mul, ← coe_sum]
  congr 1
  simp only [Finset.sum_mul, Finset.mul_sum]
  rw [Finset.sum_comm]
  refine Finset.sum_congr rfl fun e _ => Finset.sum_congr rfl fun k _ => ?_
  ring

/-- The dimension numbers of a row gather, as a literal record over any slice sizes. -/
private abbrev rgDims (N E C : Nat) (ss : Fin 2 → Nat)
    (wf : GatherDims.WF ⟨2, ![N, C]⟩ ⟨2, ![E, 1]⟩ ⟨2, ![E, C]⟩ [1] [0] [] [0] [] 1 ss) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ss
  wf := wf

/-- The operand index the literal record reads at (e, k). On the row axis the offset and batching coordinates vanish
    (the axis is collapsed; there are no batching axes) and the start is edge e's index read signed and clamped into
    [0, N − 1], the slice there having size one. On the column axis the start is 0 (the axis is not start-indexed) and
    the offset coordinate is k. -/
private theorem rg_apply {N E C : Nat} (ss : Fin 2 → Nat)
    (wf : GatherDims.WF ⟨2, ![N, C]⟩ ⟨2, ![E, 1]⟩ ⟨2, ![E, C]⟩ [1] [0] [] [0] [] 1 ss) (h7 : ss 0 = 1)
    (hN : 0 < N) (gi : IVec ⟨2, ![E, 1]⟩ 32) (e : Fin E) (k : Fin C) :
    (rgDims N E C ss wf).operandIdx (ix2 e k) gi
      = ix2 ⟨min (gi (ix2 e (0 : Fin 1))).toInt.toNat (N - 1), by omega⟩ k := by
  funext a
  refine Fin.ext ?_
  match a with
  | ⟨0, _⟩ =>
    show (rgDims N E C ss wf).start (ix2 e k) gi 0 + (rgDims N E C ss wf).batchCoord (ix2 e k) 0
      + (rgDims N E C ss wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rgDims N E C ss wf).startIndexMap from List.mem_singleton.mpr rfl)]
    have hsi : (rgDims N E C ss wf).siIdx (ix2 e k) ⟨List.idxOf (0 : Fin 2) (rgDims N E C ss wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    show min _ (N - ss 0) = _
    rw [h7]
  | ⟨1, _⟩ =>
    show (rgDims N E C ss wf).start (ix2 e k) gi 1 + (rgDims N E C ss wf).batchCoord (ix2 e k) 1
      + (rgDims N E C ss wf).offCoord (ix2 e k) 1 = k.val
    rw [GatherDims.batchCoord_eq_zero _ _ _ List.not_mem_nil]
    have hs : (rgDims N E C ss wf).start (ix2 e k) gi 1 = 0 := by
      unfold GatherDims.start
      rw [dif_neg (show (1 : Fin 2) ∉ (rgDims N E C ss wf).startIndexMap from (by decide : (1 : Fin 2) ∉ ([0] : List (Fin 2))))]
    have ho : (rgDims N E C ss wf).offCoord (ix2 e k) 1 = k.val := by
      unfold GatherDims.offCoord
      rw [dif_pos (show (1 : Fin 2) ∈ (rgDims N E C ss wf).sKept from (GatherDims.mem_sKept _ _).mpr
        ⟨(by decide : (1 : Fin 2) ∉ ([0] : List (Fin 2))), List.not_mem_nil⟩)]
      rfl
    rw [hs, ho]; omega

/-- A ROW GATHER READ AT (e, k): row = edge e's start index read signed and clamped into the rows, column = k. -/
private theorem gather_row {N E C : Nat} (dg : GatherDims ⟨2, ![N, C]⟩ ⟨2, ![E, 1]⟩ ⟨2, ![E, C]⟩) (hdg : RowGather dg)
    (hN : 0 < N) (gi : IVec ⟨2, ![E, 1]⟩ 32) (e : Fin E) (k : Fin C) :
    dg.operandIdx (ix2 e k) gi = ix2 ⟨min (gi (ix2 e (0 : Fin 1))).toInt.toNat (N - 1), by omega⟩ k := by
  obtain ⟨od, cd, ob, sb, sm, iv, ss, wf⟩ := dg
  obtain ⟨h1, h2, h3, h4, h5, h6, h7, h8⟩ := hdg
  dsimp only at h1 h2 h3 h4 h5 h6 h7 h8
  subst h1 h2 h3 h4 h5 h6
  exact rg_apply ss wf h7 hN gi e k

/-- The dimension numbers of a row scatter, as a literal record. -/
private abbrev rsDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section RowScatterLiteral
variable {N E C : Nat} (wf : ScatterDims.WF ⟨2, ![N, C]⟩ ⟨2, ![E, 1]⟩ ⟨2, ![E, C]⟩ [1] [0] [0] 1)
  (di : IVec ⟨2, ![E, 1]⟩ 32) (e : Fin E) (k : Fin C)

/-- On the row axis the window of update (e, k) starts at edge e's index, read signed and not clamped … -/
private theorem rs_start0 : (rsDims N E C wf).start (ix2 e k) di 0 = (di (ix2 e (0 : Fin 1))).toInt := by
  unfold ScatterDims.start
  rw [dif_pos (show (0 : Fin 2) ∈ (rsDims N E C wf).scatterDimsToOperandDims from List.mem_singleton.mpr rfl)]
  have hsi : (rsDims N E C wf).siIdx (ix2 e k) ⟨List.idxOf (0 : Fin 2) (rsDims N E C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- … and on the column axis, which the scatter indices do not address, at 0. -/
private theorem rs_start1 : (rsDims N E C wf).start (ix2 e k) di 1 = 0 := by
  unfold ScatterDims.start
  rw [dif_neg (show (1 : Fin 2) ∉ (rsDims N E C wf).scatterDimsToOperandDims from
    (by decide : (1 : Fin 2) ∉ ([0] : List (Fin 2))))]

/-- The row axis is an inserted one: its window coordinate is 0 … -/
private theorem rs_window0 : (rsDims N E C wf).window (ix2 e k) 0 = 0 := by
  unfold ScatterDims.window
  rw [dif_neg]
  intro h
  simp [ScatterDims.sKept, Shape.kept, List.mem_filter] at h

/-- … and the column axis carries the update's column: its window coordinate is k. -/
private theorem rs_window1 : (rsDims N E C wf).window (ix2 e k) 1 = k.val := by
  unfold ScatterDims.window
  rw [dif_pos (show (1 : Fin 2) ∈ (rsDims N E C wf).sKept by
    simp [ScatterDims.sKept, Shape.kept, List.mem_filter, List.mem_finRange])]
  rfl

end RowScatterLiteral

/-- WHERE A ROW SCATTER LANDS: update (e, k) lands on (n, k') exactly when edge e's index, read signed, is the row n
    and the columns agree. The landing point is (index + 0, 0 + k) when that is inside [0, N) × [0, C), and there is none
    otherwise; the column part is always inside, so only the row decides. -/
private theorem rs_lands {N E C : Nat} (wf : ScatterDims.WF ⟨2, ![N, C]⟩ ⟨2, ![E, 1]⟩ ⟨2, ![E, C]⟩ [1] [0] [0] 1)
    (di : IVec ⟨2, ![E, 1]⟩ 32) (e : Fin E) (k : Fin C) (n : Fin N) (k' : Fin C) :
    (rsDims N E C wf).resultIdx? (ix2 e k) di = some (ix2 n k')
      ↔ (di (ix2 e (0 : Fin 1))).toInt = (n.val : ℤ) ∧ k = k' := by
  have hn := n.isLt
  have hk := k.isLt
  unfold ScatterDims.resultIdx?
  split
  · next h =>
    rw [Option.some.injEq]
    constructor
    · intro hf
      have h0 := congrArg (fun f => (f 0).val) hf
      have h1 := congrArg (fun f => (f 1).val) hf
      have g0 := (h 0).1
      simp only [rs_start0, rs_window0, rs_start1, rs_window1] at h0 h1 g0
      change _ = n.val at h0
      change _ = k'.val at h1
      refine ⟨by omega, Fin.ext (by omega)⟩
    · rintro ⟨ht, rfl⟩
      funext a; refine Fin.ext ?_
      match a with
      | ⟨0, _⟩ =>
        show ((rsDims N E C wf).start (ix2 e k) di 0 + ((rsDims N E C wf).window (ix2 e k) 0 : ℕ)).toNat = n.val
        rw [rs_start0, rs_window0, ht]; omega
      | ⟨1, _⟩ =>
        show ((rsDims N E C wf).start (ix2 e k) di 1 + ((rsDims N E C wf).window (ix2 e k) 1 : ℕ)).toNat = k.val
        rw [rs_start1, rs_window1]; omega
  · next h =>
    constructor
    · intro hf; cases hf
    · rintro ⟨ht, rfl⟩
      exfalso; apply h
      intro a
      match a with
      | ⟨0, _⟩ =>
        show 0 ≤ (rsDims N E C wf).start (ix2 e k) di 0 + ((rsDims N E C wf).window (ix2 e k) 0 : ℕ)
          ∧ (rsDims N E C wf).start (ix2 e k) di 0 + ((rsDims N E C wf).window (ix2 e k) 0 : ℕ) < (N : ℤ)
        rw [rs_start0, rs_window0, ht]; omega
      | ⟨1, _⟩ =>
        show 0 ≤ (rsDims N E C wf).start (ix2 e k) di 1 + ((rsDims N E C wf).window (ix2 e k) 1 : ℕ)
          ∧ (rsDims N E C wf).start (ix2 e k) di 1 + ((rsDims N E C wf).window (ix2 e k) 1 : ℕ) < (C : ℤ)
        rw [rs_start1, rs_window1]; omega

/-- The updates a row scatter lands on (n, k) are the updates (e, k) of the edges whose index, read signed, is the row n:
    the sum over the landing updates, split by coordinates, keeps in each edge's inner sum the one column k' = k. -/
private theorem rs_sum {N E C : Nat} (ds : ScatterDims ⟨2, ![N, C]⟩ ⟨2, ![E, 1]⟩ ⟨2, ![E, C]⟩) (hds : RowScatter ds)
    (di : IVec ⟨2, ![E, 1]⟩ 32) (f : (⟨2, ![E, C]⟩ : Shape).Idx → EReal) (n : Fin N) (k : Fin C)
    [DecidablePred fun u : (⟨2, ![E, C]⟩ : Shape).Idx => ds.resultIdx? u di = some (ix2 n k)] :
    ∑ u ∈ Finset.univ.filter (fun u => ds.resultIdx? u di = some (ix2 n k)), f u
      = ∑ e ∈ Finset.univ.filter (fun e : Fin E => (di (ix2 e (0 : Fin 1))).toInt = (n.val : ℤ)), f (ix2 e k) := by
  rw [Finset.sum_filter, sum_idx2, Finset.sum_filter]
  refine Finset.sum_congr rfl fun e _ => ?_
  obtain ⟨uw, iw, sd, iv, wf⟩ := ds
  obtain ⟨h1, h2, h3, h4⟩ := hds
  dsimp only at h1 h2 h3 h4
  subst h1 h2 h3 h4
  have hl : ∀ k' : Fin C, (rsDims N E C wf).resultIdx? (ix2 e k') di = some (ix2 n k)
      ↔ (di (ix2 e (0 : Fin 1))).toInt = (n.val : ℤ) ∧ k' = k := fun k' => rs_lands wf di e k' n k
  simp only [hl]
  by_cases ht : (di (ix2 e (0 : Fin 1))).toInt = (n.val : ℤ)
  · simp [ht]
  · simp [ht]

/-- THE EXCHANGE. `nb` is the edge weights spread along the columns, `xw` the projected operand. -/
theorem scatter_gather_swap {N E : Nat} (dg : GatherDims ⟨2, ![N, 128]⟩ ⟨2, ![E, 1]⟩ ⟨2, ![E, 128]⟩) (hdg : RowGather dg)
    (ds : ScatterDims ⟨2, ![N, 128]⟩ ⟨2, ![E, 1]⟩ ⟨2, ![E, 128]⟩) (hds : RowScatter ds)
    (x0 : (⟨2, ![N, 128]⟩ : Shape).Idx → EReal) (W : (⟨2, ![128, 128]⟩ : Shape).Idx → EReal)
    (gi di : IVec ⟨2, ![E, 1]⟩ 32) (z : (⟨2, ![N, 128]⟩ : Shape).Idx → EReal) (nb : (⟨2, ![E, 128]⟩ : Shape).Idx → EReal)
    (w : Fin E → ℝ) (hnb : ∀ e k, nb (ix2 e k) = ((w e : ℝ) : EReal))
    (hx : ∀ i, ∃ r : ℝ, x0 i = (r : EReal)) (hW : ∀ i, ∃ r : ℝ, W i = (r : EReal)) (hz : ∀ i, z i = 0)
    (xw : (⟨2, ![N, 128]⟩ : Shape).Idx → EReal) (hxw : ∀ r j, xw (ix2 r j) = ∑ k : Fin 128, x0 (ix2 r k) * W (ix2 k j))
    (n : Fin N) (j : Fin 128) :
    ∑ k : Fin 128, Ideal.hostScatterAdd ds z di (fun u => x0 (dg.operandIdx u gi) * nb u) (ix2 n k) * W (ix2 k j)
      = Ideal.hostScatterAdd ds z di (fun u => nb u * xw (dg.operandIdx u gi)) (ix2 n j) := by
  have hN : 0 < N := n.pos
  -- real witnesses of the entries of the operand and of the matrix
  choose xr hxr using hx
  choose Wr hWr using hW
  -- the aggregated entry (n, k): over the edges e whose index is the row n, the gathered entry x (g e, k) times w e
  have hL : ∀ k : Fin 128, Ideal.hostScatterAdd ds z di (fun u => x0 (dg.operandIdx u gi) * nb u) (ix2 n k)
      = (0 : EReal) + ∑ e ∈ Finset.univ.filter (fun e : Fin E => (di (ix2 e (0 : Fin 1))).toInt = (n.val : ℤ)),
          ((xr (ix2 ⟨min (gi (ix2 e (0 : Fin 1))).toInt.toNat (N - 1), by omega⟩ k) : ℝ) : EReal) * ((w e : ℝ) : EReal) := by
    intro k
    unfold Ideal.hostScatterAdd
    rw [hz, rs_sum ds hds]
    refine congrArg _ (Finset.sum_congr rfl fun e _ => ?_)
    rw [gather_row dg hdg hN, hnb, hxr]
  -- the aggregate of the projected rows at (n, j): over the same edges, w e times row g e of x through column j of W
  have hR : Ideal.hostScatterAdd ds z di (fun u => nb u * xw (dg.operandIdx u gi)) (ix2 n j)
      = (0 : EReal) + ∑ e ∈ Finset.univ.filter (fun e : Fin E => (di (ix2 e (0 : Fin 1))).toInt = (n.val : ℤ)),
          ((w e : ℝ) : EReal) * ∑ k : Fin 128,
            ((xr (ix2 ⟨min (gi (ix2 e (0 : Fin 1))).toInt.toNat (N - 1), by omega⟩ k) : ℝ) : EReal)
              * ((Wr (ix2 k j) : ℝ) : EReal) := by
    unfold Ideal.hostScatterAdd
    rw [hz, rs_sum ds hds]
    refine congrArg _ (Finset.sum_congr rfl fun e _ => ?_)
    rw [gather_row dg hdg hN, hnb, hxw]
    simp only [hxr, hWr]
  rw [hR]
  simp only [hL, hWr]
  -- what is left is the law over the reals
  exact real_swap _ (fun e => ⟨min (gi (ix2 e (0 : Fin 1))).toInt.toNat (N - 1), by omega⟩) w
    (fun r k => xr (ix2 r k)) (fun k j => Wr (ix2 k j)) j

end Cert.SwapCore

end
-- ==== Proof.Swap.lean ====
/-
  Aggregating before projecting is aggregating after projecting. For finite node features `x0` and a finite
  matrix `W`, row `n` of the aggregated features times `W` is row `n` of the aggregate of the projected features:

      ∑ₖ (∑_{e → n} x0[s(e), k] · w(e)) · W[k, j]  =  ∑_{e → n} w(e) · ∑ₖ x0[s(e), k] · W[k, j],

  where `e → n` ranges over the edges (self-loops included) whose destination index is `n`, `s(e)` is edge `e`'s
  clamped source row and `w(e)` its weight. The weights are finite — a weight is a product of two entries of
  `deg^(−1/2)`, `deg` a count, zero where the count is not positive —, so both sides are sums of real numbers and
  the law is distributivity and an exchange of two finite sums.
-/
import proofs.«110313_j28329604284505_2_alg».proof.Proof.Agg
import proofs.«110313_j28329604284505_2_alg».proof.Proof.Spec
import proofs.«110313_j28329604284505_2_alg».proof.Proof.SwapCore
import Idealize.ShloMosaic.PureOps.Ideal.Laws
import Idealize.ShloMosaic.Lib.ValueIdx
import Idealize.ShloMosaic.Lib.Pipeline.Value
import Idealize.ShloMosaic.Lib.StableHlo.Predicate

noncomputable section

open scoped BigOperators

namespace Cert.Agg

open Cert.ReferenceIdeal Cert.ReferenceIdeal.Read Cert.GruSpec Idealize.ShloMosaic Idealize.ShloMosaic.TcCoe Idealize.ShloMosaic.ValueIdx

/-! ## The edge weights are real numbers -/

/-- A finite sum of real numbers is a real number. -/
private theorem sum_real {ι : Type} (s : Finset ι) (f : ι → EReal) (h : ∀ j ∈ s, ∃ r : ℝ, f j = (r : EReal)) :
    ∃ r : ℝ, ∑ j ∈ s, f j = (r : EReal) := by
  classical
  induction s using Finset.induction_on with
  | empty => exact ⟨0, by simp⟩
  | insert a s ha ih =>
    obtain ⟨r, hr⟩ := ih (fun j hj => h j (Finset.mem_insert_of_mem hj))
    obtain ⟨q, hq⟩ := h a (Finset.mem_insert_self a s)
    exact ⟨q + r, by rw [Finset.sum_insert ha, hr, hq, EReal.coe_add]⟩

/-- `d^(−1/2)` where the real `d` is positive and zero where it is not: a real either way. For `d > 0` the
    reciprocal square root is `(√d)⁻¹`; otherwise the comparison fails and the zero constant is chosen. -/
private theorem dinv_point (d : EReal) (hd : ∃ r : ℝ, d = (r : EReal)) :
    ∃ r : ℝ, Scalar.select (Ideal.cmp .ogt d (Ideal.ofBits .f32 0x00000000#32)) (Ideal.rsqrt d) (Ideal.ofBits .f32 0x00000000#32)
      = (r : EReal) := by
  obtain ⟨r, rfl⟩ := hd
  rw [Ideal.ofBits_zero_f32]
  by_cases h : (0 : EReal) < (r : EReal)
  · have hc : Ideal.cmp .ogt (r : EReal) 0 = 1#1 := by
      show BitVec.ofBool (decide ((0 : EReal) < (r : EReal))) = 1#1
      rw [decide_eq_true h]; rfl
    rw [hc, select_one]
    have hr : 0 < r := by exact_mod_cast h
    refine ⟨(Real.sqrt r)⁻¹, ?_⟩
    rw [Ideal.rsqrt_coe, if_neg (not_lt.mpr hr.le), if_neg hr.ne']
  · have hc : Ideal.cmp .ogt (r : EReal) 0 = 0#1 := by
      show BitVec.ofBool (decide ((0 : EReal) < (r : EReal))) = 0#1
      rw [decide_eq_false h]; rfl
    rw [hc, select_zero]
    exact ⟨0, EReal.coe_zero.symm⟩

/-- A node's degree — zero plus a one for every edge (self-loops included) whose destination it is — is a real. -/
private theorem deg_real (x2 : IVec S800000 32) (i : S50000.Idx) : ∃ r : ℝ, val_main_v7 (F := Ideal) x2 i = (r : EReal) := by
  unfold val_main_v7
  generalize val_main_v6 (F := Ideal) x2 = di
  rw [Host.scatterAdd, Ideal.hostScatterAdd_def, Ideal.hostScatterAdd]
  obtain ⟨r, hr⟩ := sum_real (Finset.univ.filter (fun j => scatter_S50000_S850000x1_S850000_n_0_0_1.resultIdx? j di = some i))
    (val_main_v4 (F := Ideal))
    (fun j _ => ⟨1, by rw [val_main_v4_apply, val_main_cst_apply, Ideal.ofBits_def]; exact one32_eq.trans EReal.coe_one.symm⟩)
  refine ⟨0 + r, ?_⟩
  rw [hr, val_main_v5_apply, val_main_cst_0_apply, Ideal.ofBits_def, Ideal.ofBits_zero_f32, EReal.coe_add, EReal.coe_zero]

/-- Each entry of `deg^(−1/2)`, zero where the degree is not positive, is a real. -/
private theorem dinv_real (x2 : IVec S800000 32) (i : S50000.Idx) : ∃ r : ℝ, val_main_v12 (F := Ideal) x2 i = (r : EReal) := by
  rw [val_main_v12_apply, val_main_v9_apply, val_main_v10_apply, val_main_v8_apply, val_main_cst_1_apply, val_main_v11_apply,
    val_main_cst_2_apply, Ideal.cmpf_def, Ideal.hostUnary_rsqrt_def, Ideal.ofBits_def]
  exact dinv_point _ (deg_real x2 i)

/-- An edge's weight `deg^(−1/2)[source] · 1 · deg^(−1/2)[destination]` is a real: each factor is an entry of
    `deg^(−1/2)`, read wherever the gather's clamped start index points. -/
private theorem norm_real (x1 x2 : IVec S800000 32) (e : S850000.Idx) : ∃ r : ℝ, val_main_v28 (F := Ideal) x1 x2 e = (r : EReal) := by
  rw [val_main_v28_apply, val_main_v20_apply, val_main_v4_apply, val_main_cst_apply, Ideal.ofBits_def, Ideal.mulf_def, Ideal.mulf_def]
  unfold val_main_v19 val_main_v27 Host.gather
  obtain ⟨a, ha⟩ := dinv_real x2 (gather_S50000_S850000x1_S850000_n_0_n_n_0_1_1.operandIdx e (val_main_v18 (F := Ideal) x1))
  obtain ⟨b, hb⟩ := dinv_real x2 (gather_S50000_S850000x1_S850000_n_0_n_n_0_1_1.operandIdx e (val_main_v26 (F := Ideal) x2))
  refine ⟨a * 1 * b, ?_⟩
  rw [ha, hb, show Ideal.ofBits .f32 0x3F800000#32 = ((1 : ℝ) : EReal) from one32_eq.trans EReal.coe_one.symm, ← EReal.coe_mul,
    ← EReal.coe_mul]

/-- The weights spread along the feature axis: entry `(e, k)` is edge `e`'s weight, whatever the column `k`. -/
private theorem nb_apply (x1 x2 : IVec S800000 32) (e : Fin 850000) (k : Fin 128) :
    val_main_v37 (F := Ideal) x1 x2 (ix2 e k) = val_main_v28 (F := Ideal) x1 x2 (ix1 e) := by
  rw [val_main_v37_apply, val_main_v29_apply]
  have hi : idx_main_v29 (idx_main_v37 (ix2 e k)) = ix1 e := by
    funext a
    match a with
    | ⟨0, _⟩ => rfl
  rw [hi]

/-! ## Both sides in the exchange law's form -/

/-- Over the extended reals the accumulating scatter is the operand plus the sum of the updates that land there. -/
private theorem scatterAdd_ideal {s si su : Shape} (d : ScatterDims s si su) (z : s.Idx → EReal) (di : IVec si 32)
    (u : su.Idx → EReal) : Host.scatterAdd (F := Ideal) (φ := .f32) d z di u = Ideal.hostScatterAdd d z di u := rfl

/-- A gathered array times an array, entry by entry. -/
private theorem mulf_gather_left {s si t : Shape} (d : GatherDims s si t) (x : s.Idx → EReal) (gi : IVec si 32) (nb : t.Idx → EReal) :
    mulf (F := Ideal) (φ := .f32) (Host.gather d x gi) nb = fun u => x (d.operandIdx u gi) * nb u := rfl

/-- An array times a gathered array, entry by entry. -/
private theorem mulf_gather_right {s si t : Shape} (d : GatherDims s si t) (x : s.Idx → EReal) (gi : IVec si 32) (nb : t.Idx → EReal) :
    mulf (F := Ideal) (φ := .f32) nb (Host.gather d x gi) = fun u => nb u * x (d.operandIdx u gi) := rfl

/-- The exchange, at row `n` and column `j`. -/
theorem swap (x0 : FVec Ideal S50000x128 .f32) (x1 x2 : IVec S800000 32) (W : FVec Ideal S128x128 .f32)
    (hx : ∀ i, ∃ r : ℝ, x0 i = (r : EReal)) (hW : ∀ i, ∃ r : ℝ, W i = (r : EReal)) (n : Fin 50000) (j : Fin 128) :
    rmul (rowOf (AGG x0 x1 x2) n) (matOf W) j = val_main_v41 (F := Ideal) x0 x1 x2 W (ix2 n j) := by
  -- the weights, as a real function of the edge
  have hw : ∀ e : Fin 850000, ∃ r : ℝ, val_main_v28 (F := Ideal) x1 x2 (ix1 e) = (r : EReal) := fun e => norm_real x1 x2 (ix1 e)
  choose w hw using hw
  have hnb : ∀ e k, val_main_v37 (F := Ideal) x1 x2 (ix2 e k) = ((w e : ℝ) : EReal) := fun e k => (nb_apply x1 x2 e k).trans (hw e)
  -- the scatter's operand is zero everywhere
  have hz : ∀ i, val_main_v39 (F := Ideal) i = 0 := fun i => by
    rw [val_main_v39_apply, val_main_cst_8_apply, Ideal.ofBits_def, Ideal.ofBits_zero_f32]
  -- the projected features: entry `(r, j)` is row `r` of `x0` against column `j` of `W`
  have hxw : ∀ r j, val_main_v0 (F := Ideal) x0 W (ix2 r j) = ∑ k : Fin 128, x0 (ix2 r k) * W (ix2 k j) := fun r j => by
    rw [val_main_v0_apply]
    refine Finset.sum_congr rfl fun k _ => ?_
    have hl : lidx_main_v0 (ix2 r j) k = ix2 r k := by
      funext a
      match a with
      | ⟨0, _⟩ => rfl
      | ⟨1, _⟩ => rfl
    have hr : ridx_main_v0 (ix2 r j) k = ix2 k j := by
      funext a
      match a with
      | ⟨0, _⟩ => rfl
      | ⟨1, _⟩ => rfl
    rw [hl, hr]
  have key := Cert.SwapCore.scatter_gather_swap (N := 50000) (E := 850000)
    gather_S50000x128_S850000x1_S850000x128_1_0_n_n_0_1_1128 ⟨rfl, rfl, rfl, rfl, rfl, rfl, rfl, rfl⟩
    scatter_S50000x128_S850000x1_S850000x128_1_0_0_1 ⟨rfl, rfl, rfl, rfl⟩
    x0 W (val_main_v35 (F := Ideal) x1) (val_main_v40 (F := Ideal) x2) (val_main_v39 (F := Ideal)) (val_main_v37 (F := Ideal) x1 x2)
    w hnb hx hW hz (val_main_v0 (F := Ideal) x0 W) hxw n j
  unfold rmul rowOf matOf AGG val_main_v41 val_main_v38 val_main_v36
  rw [scatterAdd_ideal, scatterAdd_ideal, mulf_gather_left, mulf_gather_right]
  exact key

/-! ## The three convolutions are one function

The second and the third convolution recompute, stage by stage and under other names, everything the first one
computes from the node features and the two edge lists; only the matrix differs. Stage for stage the definitions
coincide, so each copy unfolds to the first convolution's term — for every float family, hence at the extended reals. -/

section Copies
variable {F : FTy → Type} [FloatOps F]

private theorem v97_copy (x0 : (⟨S50000x128, .f32⟩ : BufTy).Contents (Elt F)) (x1 x2 : (⟨S800000, .i32⟩ : BufTy).Contents (Elt F)) (x8 : (⟨S128x128, .f32⟩ : BufTy).Contents (Elt F)) :
    val_main_v97 (F := F) x0 x1 x2 x8 = val_main_v41 (F := F) x0 x1 x2 x8 := rfl

private theorem v153_copy (x0 : (⟨S50000x128, .f32⟩ : BufTy).Contents (Elt F)) (x1 x2 : (⟨S800000, .i32⟩ : BufTy).Contents (Elt F)) (x12 : (⟨S128x128, .f32⟩ : BufTy).Contents (Elt F)) :
    val_main_v153 (F := F) x0 x1 x2 x12 = val_main_v41 (F := F) x0 x1 x2 x12 := rfl

end Copies

/-- The second and third convolutions of the reference are the first one's function at another matrix. -/
theorem v97_eq (x0 : FVec Ideal S50000x128 .f32) (x1 x2 : IVec S800000 32) (x8 : FVec Ideal S128x128 .f32) :
    val_main_v97 (F := Ideal) x0 x1 x2 x8 = val_main_v41 (F := Ideal) x0 x1 x2 x8 :=
  v97_copy (F := Ideal) x0 x1 x2 x8
theorem v153_eq (x0 : FVec Ideal S50000x128 .f32) (x1 x2 : IVec S800000 32) (x12 : FVec Ideal S128x128 .f32) :
    val_main_v153 (F := Ideal) x0 x1 x2 x12 = val_main_v41 (F := Ideal) x0 x1 x2 x12 :=
  v153_copy (F := Ideal) x0 x1 x2 x12

end Cert.Agg

end
-- ==== Proof.RefRead.lean ====
/-
  The reference's two results at one element. Row `n` of the new hidden state is the node update of row `n` of the
  three convolutions' outputs and of the hidden input: each gate's product over the 256 joined columns is the sum
  of the products over the first 128 (the convolution's row against the upper half of the gate matrix) and over the
  last 128 (the hidden row against the lower half), and `1 / (1 + e^(−x))` is the logistic function. Row `n` of the
  output is that row rectified, through the output matrix, plus the bias.
-/
import proofs.«110313_j28329604284505_2_alg».proof.Proof.ReadP
import proofs.«110313_j28329604284505_2_alg».proof.Proof.Spec
import Idealize.ShloMosaic.PureOps.Ideal.Laws
import Idealize.ShloMosaic.Lib.ValueIdx
import Idealize.ShloMosaic.Lib.Pipeline.Value

noncomputable section

open scoped BigOperators

namespace Cert.ReferenceIdeal.RefRead

open Cert.ReferenceIdeal Cert.ReferenceIdeal.Read Cert.GruSpec Idealize.ShloMosaic Idealize.ShloMosaic.TcCoe Idealize.ShloMosaic.ValueIdx

/-! ### Indices by their coordinates, and two arrays joined along the columns -/

/-- A rank-2 index is known by its two coordinates. -/
private theorem idx2_eq {a b : Nat} (i : (⟨2, ![a, b]⟩ : Shape).Idx) (p : Fin a) (q : Fin b)
    (h0 : i 0 = p) (h1 : i 1 = q) : i = ix2 p q := by
  subst h0 h1
  exact eq_ix2 i

/-- Two arrays of 128 columns joined along the columns: column `k < 128` of the join is column `k` of the first. -/
private theorem cat_left (A B : S50000x128.Idx → EReal) (h : Shape.Concatenates [S50000x128, S50000x128] S50000x256 1) (n : Fin 50000) (k : Fin 128) :
    concatenate S50000x256 1 [⟨S50000x128, A⟩, ⟨S50000x128, B⟩] h (ix2 n (Fin.castAdd 128 k)) = A (ix2 n k) := by
  refine concatenate_pair_apply_left (1 : Fin S50000x256.rank) A B h _ rfl (ix2 n k) ?_
  intro b
  match b with
  | ⟨0, _⟩ => rfl
  | ⟨1, _⟩ => rfl

/-- Column `128 + k` of the join is column `k` of the second. -/
private theorem cat_right (A B : S50000x128.Idx → EReal) (h : Shape.Concatenates [S50000x128, S50000x128] S50000x256 1) (n : Fin 50000) (k : Fin 128) :
    concatenate S50000x256 1 [⟨S50000x128, A⟩, ⟨S50000x128, B⟩] h (ix2 n (Fin.natAdd 128 k)) = B (ix2 n k) := by
  refine concatenate_pair_apply_right (1 : Fin S50000x256.rank) A B h _ rfl rfl (ix2 n k) ?_ ?_
  · intro b hb
    match b, hb with
    | ⟨0, _⟩, _ => rfl
    | ⟨1, _⟩, hb => exact absurd rfl hb
  · show k.val + 128 = 128 + k.val
    omega

/-- Row `n` of the join against a 256 × 128 matrix: the sum over the 256 joined columns is the first array's row
    against the upper half of the matrix plus the second array's row against the lower half. -/
private theorem dot_cat (A B : S50000x128.Idx → EReal) (W : S256x128.Idx → EReal) (h : Shape.Concatenates [S50000x128, S50000x128] S50000x256 1)
    (n : Fin 50000) (j : Fin 128) :
    ∑ k : Fin 256, concatenate S50000x256 1 [⟨S50000x128, A⟩, ⟨S50000x128, B⟩] h (ix2 n k) * W (ix2 k j)
      = rmul (rowOf A n) (topOf W) j + rmul (rowOf B n) (botOf W) j := by
  refine (sum_256 _).trans ?_
  simp only [cat_left, cat_right]
  rfl

/-! ### The biases: a vector of 128 broadcast over the rows reads the vector at the column -/

/-- The first convolution's bias, broadcast over the rows, at `(n, j)`. -/
private theorem v43_at (x5 : FVec Ideal S128 .f32) (n : Fin 50000) (j : Fin 128) :
    val_main_v43 (F := Ideal) x5 (ix2 n j) = vecOf x5 j := by
  rw [val_main_v43_apply, val_main_v42_apply]
  exact congrArg x5 (funext fun a => match a with | ⟨0, _⟩ => rfl)

/-- The update gate's bias, broadcast over the rows, at `(n, j)`. -/
private theorem v48_at (x7 : FVec Ideal S128 .f32) (n : Fin 50000) (j : Fin 128) :
    val_main_v48 (F := Ideal) x7 (ix2 n j) = vecOf x7 j := by
  rw [val_main_v48_apply, val_main_v47_apply]
  exact congrArg x7 (funext fun a => match a with | ⟨0, _⟩ => rfl)

/-- The second convolution's bias, broadcast over the rows, at `(n, j)`. -/
private theorem v99_at (x9 : FVec Ideal S128 .f32) (n : Fin 50000) (j : Fin 128) :
    val_main_v99 (F := Ideal) x9 (ix2 n j) = vecOf x9 j := by
  rw [val_main_v99_apply, val_main_v98_apply]
  exact congrArg x9 (funext fun a => match a with | ⟨0, _⟩ => rfl)

/-- The reset gate's bias, broadcast over the rows, at `(n, j)`. -/
private theorem v104_at (x11 : FVec Ideal S128 .f32) (n : Fin 50000) (j : Fin 128) :
    val_main_v104 (F := Ideal) x11 (ix2 n j) = vecOf x11 j := by
  rw [val_main_v104_apply, val_main_v103_apply]
  exact congrArg x11 (funext fun a => match a with | ⟨0, _⟩ => rfl)

/-- The third convolution's bias, broadcast over the rows, at `(n, j)`. -/
private theorem v155_at (x13 : FVec Ideal S128 .f32) (n : Fin 50000) (j : Fin 128) :
    val_main_v155 (F := Ideal) x13 (ix2 n j) = vecOf x13 j := by
  rw [val_main_v155_apply, val_main_v154_apply]
  exact congrArg x13 (funext fun a => match a with | ⟨0, _⟩ => rfl)

/-- The candidate's bias, broadcast over the rows, at `(n, j)`. -/
private theorem v161_at (x15 : FVec Ideal S128 .f32) (n : Fin 50000) (j : Fin 128) :
    val_main_v161 (F := Ideal) x15 (ix2 n j) = vecOf x15 j := by
  rw [val_main_v161_apply, val_main_v160_apply]
  exact congrArg x15 (funext fun a => match a with | ⟨0, _⟩ => rfl)

/-- The output's bias, broadcast over the rows, at `(n, j)`. -/
private theorem v172_at (x17 : FVec Ideal S128 .f32) (n : Fin 50000) (j : Fin 128) :
    val_main_v172 (F := Ideal) x17 (ix2 n j) = vecOf x17 j := by
  rw [val_main_v172_apply, val_main_v171_apply]
  exact congrArg x17 (funext fun a => match a with | ⟨0, _⟩ => rfl)

/-! ### The three convolutions' outputs -/

/-- A convolution's output is its aggregate plus the bias at the column. -/
theorem v44_at (x0 : FVec Ideal S50000x128 .f32) (x1 x2 : IVec S800000 32) (x4 : FVec Ideal S128x128 .f32) (x5 : FVec Ideal S128 .f32)
    (n : Fin 50000) (j : Fin 128) :
    val_main_v44 (F := Ideal) x0 x1 x2 x4 x5 (ix2 n j) = val_main_v41 (F := Ideal) x0 x1 x2 x4 (ix2 n j) + vecOf x5 j := by
  rw [val_main_v44_apply, v43_at]
  rfl
theorem v100_at (x0 : FVec Ideal S50000x128 .f32) (x1 x2 : IVec S800000 32) (x8 : FVec Ideal S128x128 .f32) (x9 : FVec Ideal S128 .f32)
    (n : Fin 50000) (j : Fin 128) :
    val_main_v100 (F := Ideal) x0 x1 x2 x8 x9 (ix2 n j) = val_main_v97 (F := Ideal) x0 x1 x2 x8 (ix2 n j) + vecOf x9 j := by
  rw [val_main_v100_apply, v99_at]
  rfl
theorem v156_at (x0 : FVec Ideal S50000x128 .f32) (x1 x2 : IVec S800000 32) (x12 : FVec Ideal S128x128 .f32) (x13 : FVec Ideal S128 .f32)
    (n : Fin 50000) (j : Fin 128) :
    val_main_v156 (F := Ideal) x0 x1 x2 x12 x13 (ix2 n j) = val_main_v153 (F := Ideal) x0 x1 x2 x12 (ix2 n j) + vecOf x13 j := by
  rw [val_main_v156_apply, v155_at]
  rfl

/-! ### The update gate and the reset gate -/

/-- The update gate's product: the joined row `[cz | h]` of node `n` against the 256 × 128 gate matrix is
    `cz·Wz₁ + h·Wz₂` at column `j`. -/
private theorem v46_at (x0 : FVec Ideal S50000x128 .f32) (x1 x2 : IVec S800000 32) (x3 : FVec Ideal S50000x128 .f32) (x4 : FVec Ideal S128x128 .f32) (x5 : FVec Ideal S128 .f32) (x6 : FVec Ideal S256x128 .f32) (n : Fin 50000) (j : Fin 128) :
    val_main_v46 (F := Ideal) x0 x1 x2 x3 x4 x5 x6 (ix2 n j)
      = rmul (rowOf (val_main_v44 (F := Ideal) x0 x1 x2 x4 x5) n) (topOf x6) j + rmul (rowOf x3 n) (botOf x6) j := by
  rw [val_main_v46_apply]
  unfold val_main_v45
  generalize val_main_v44 (F := Ideal) x0 x1 x2 x4 x5 = c
  refine (Finset.sum_congr rfl fun k _ => ?_).trans (dot_cat c x3 x6 Gen.concatenates_S50000x128_S50000x128_S50000x256_d1 n j)
  rw [idx2_eq (lidx_main_v46 (ix2 n j) k) n k rfl rfl, idx2_eq (ridx_main_v46 (ix2 n j) k) k j rfl rfl]

/-- The update gate at `(n, j)`: `1 / (1 + e^(−x))` of the product plus the bias is the logistic function of it. -/
private theorem v55_at (x0 : FVec Ideal S50000x128 .f32) (x1 x2 : IVec S800000 32) (x3 : FVec Ideal S50000x128 .f32) (x4 : FVec Ideal S128x128 .f32) (x5 : FVec Ideal S128 .f32) (x6 : FVec Ideal S256x128 .f32) (x7 : FVec Ideal S128 .f32) (n : Fin 50000) (j : Fin 128) :
    val_main_v55 (F := Ideal) x0 x1 x2 x3 x4 x5 x6 x7 (ix2 n j)
      = zgate (rowOf (val_main_v44 (F := Ideal) x0 x1 x2 x4 x5) n) (rowOf x3 n) (topOf x6) (botOf x6) (vecOf x7) j := by
  rw [val_main_v55_apply, val_main_v54_apply, val_main_cst_10_apply, val_main_v53_apply, val_main_v52_apply,
    val_main_cst_9_apply, val_main_v51_apply, val_main_v50_apply, val_main_v49_apply, v46_at, v48_at]
  simp only [Ideal.hostDivf_def, Ideal.ofBits_def, Ideal.addf_def, Ideal.hostUnary_exp_def, Ideal.hostNegf_def, Ideal.negf_def]
  exact logistic_spelt _

/-- The reset gate's product: the joined row `[cr | h]` of node `n` against the gate matrix is `cr·Wr₁ + h·Wr₂`
    at column `j`. -/
private theorem v102_at (x0 : FVec Ideal S50000x128 .f32) (x1 x2 : IVec S800000 32) (x3 : FVec Ideal S50000x128 .f32) (x8 : FVec Ideal S128x128 .f32) (x9 : FVec Ideal S128 .f32) (x10 : FVec Ideal S256x128 .f32) (n : Fin 50000) (j : Fin 128) :
    val_main_v102 (F := Ideal) x0 x1 x2 x3 x8 x9 x10 (ix2 n j)
      = rmul (rowOf (val_main_v100 (F := Ideal) x0 x1 x2 x8 x9) n) (topOf x10) j + rmul (rowOf x3 n) (botOf x10) j := by
  rw [val_main_v102_apply]
  unfold val_main_v101
  generalize val_main_v100 (F := Ideal) x0 x1 x2 x8 x9 = c
  refine (Finset.sum_congr rfl fun k _ => ?_).trans (dot_cat c x3 x10 Gen.concatenates_S50000x128_S50000x128_S50000x256_d1 n j)
  rw [idx2_eq (lidx_main_v102 (ix2 n j) k) n k rfl rfl, idx2_eq (ridx_main_v102 (ix2 n j) k) k j rfl rfl]

/-- The reset gate at `(n, j)`. -/
private theorem v111_at (x0 : FVec Ideal S50000x128 .f32) (x1 x2 : IVec S800000 32) (x3 : FVec Ideal S50000x128 .f32) (x8 : FVec Ideal S128x128 .f32) (x9 : FVec Ideal S128 .f32) (x10 : FVec Ideal S256x128 .f32) (x11 : FVec Ideal S128 .f32) (n : Fin 50000) (j : Fin 128) :
    val_main_v111 (F := Ideal) x0 x1 x2 x3 x8 x9 x10 x11 (ix2 n j)
      = zgate (rowOf (val_main_v100 (F := Ideal) x0 x1 x2 x8 x9) n) (rowOf x3 n) (topOf x10) (botOf x10) (vecOf x11) j := by
  rw [val_main_v111_apply, val_main_v110_apply, val_main_cst_23_apply, val_main_v109_apply, val_main_v108_apply,
    val_main_cst_22_apply, val_main_v107_apply, val_main_v106_apply, val_main_v105_apply, v102_at, v104_at]
  simp only [Ideal.hostDivf_def, Ideal.ofBits_def, Ideal.addf_def, Ideal.hostUnary_exp_def, Ideal.hostNegf_def, Ideal.negf_def]
  exact logistic_spelt _

/-! ### The candidate -/

/-- The candidate's product: the joined row `[ch | h ⊙ R]` of node `n` against the candidate matrix is
    `ch·Wh₁ + (h ⊙ R)·Wh₂` at column `j`. -/
private theorem v159_at (x0 : FVec Ideal S50000x128 .f32) (x1 x2 : IVec S800000 32) (x3 : FVec Ideal S50000x128 .f32) (x8 : FVec Ideal S128x128 .f32) (x9 : FVec Ideal S128 .f32) (x10 : FVec Ideal S256x128 .f32) (x11 : FVec Ideal S128 .f32) (x12 : FVec Ideal S128x128 .f32) (x13 : FVec Ideal S128 .f32) (x14 : FVec Ideal S256x128 .f32) (n : Fin 50000) (j : Fin 128) :
    val_main_v159 (F := Ideal) x0 x1 x2 x3 x8 x9 x10 x11 x12 x13 x14 (ix2 n j)
      = rmul (rowOf (val_main_v156 (F := Ideal) x0 x1 x2 x12 x13) n) (topOf x14) j
        + rmul (rowOf (val_main_v157 (F := Ideal) x0 x1 x2 x3 x8 x9 x10 x11) n) (botOf x14) j := by
  rw [val_main_v159_apply]
  unfold val_main_v158
  generalize val_main_v156 (F := Ideal) x0 x1 x2 x12 x13 = c
  generalize val_main_v157 (F := Ideal) x0 x1 x2 x3 x8 x9 x10 x11 = d
  refine (Finset.sum_congr rfl fun k _ => ?_).trans (dot_cat c d x14 Gen.concatenates_S50000x128_S50000x128_S50000x256_d1 n j)
  rw [idx2_eq (lidx_main_v159 (ix2 n j) k) n k rfl rfl, idx2_eq (ridx_main_v159 (ix2 n j) k) k j rfl rfl]

/-- Row `n` of the hidden input scaled by the reset gate. -/
private theorem v157_row (x0 : FVec Ideal S50000x128 .f32) (x1 x2 : IVec S800000 32) (x3 : FVec Ideal S50000x128 .f32) (x8 : FVec Ideal S128x128 .f32) (x9 : FVec Ideal S128 .f32) (x10 : FVec Ideal S256x128 .f32) (x11 : FVec Ideal S128 .f32) (n : Fin 50000) :
    rowOf (val_main_v157 (F := Ideal) x0 x1 x2 x3 x8 x9 x10 x11) n
      = fun k => rowOf x3 n k * Ideal.logistic (gate (rowOf (val_main_v100 (F := Ideal) x0 x1 x2 x8 x9) n) (rowOf x3 n) (topOf x10) (botOf x10) (vecOf x11) k) := by
  funext k
  show val_main_v157 (F := Ideal) x0 x1 x2 x3 x8 x9 x10 x11 (ix2 n k) = _
  rw [val_main_v157_apply, v111_at]
  rfl

/-- The candidate at `(n, j)`: the hyperbolic tangent of the product plus the bias, the hidden row scaled by the
    reset gate before the lower half of the matrix. -/
private theorem v163_at (x0 : FVec Ideal S50000x128 .f32) (x1 x2 : IVec S800000 32) (x3 : FVec Ideal S50000x128 .f32) (x8 : FVec Ideal S128x128 .f32) (x9 : FVec Ideal S128 .f32) (x10 : FVec Ideal S256x128 .f32) (x11 : FVec Ideal S128 .f32) (x12 : FVec Ideal S128x128 .f32) (x13 : FVec Ideal S128 .f32) (x14 : FVec Ideal S256x128 .f32) (x15 : FVec Ideal S128 .f32) (n : Fin 50000) (j : Fin 128) :
    val_main_v163 (F := Ideal) x0 x1 x2 x3 x8 x9 x10 x11 x12 x13 x14 x15 (ix2 n j)
      = cand (rowOf (val_main_v100 (F := Ideal) x0 x1 x2 x8 x9) n) (rowOf (val_main_v156 (F := Ideal) x0 x1 x2 x12 x13) n) (rowOf x3 n)
          (topOf x10) (botOf x10) (vecOf x11) (topOf x14) (botOf x14) (vecOf x15) j := by
  rw [val_main_v163_apply, val_main_v162_apply, v159_at, v161_at, v157_row, Ideal.hostUnary_tanh_def, Ideal.addf_def]
  rfl

/-! ### The two results -/

/-- The new hidden state at `(n, q)`. -/
theorem v168_at (x0 : FVec Ideal S50000x128 .f32) (x1 x2 : IVec S800000 32) (x3 : FVec Ideal S50000x128 .f32) (x4 : FVec Ideal S128x128 .f32) (x5 : FVec Ideal S128 .f32) (x6 : FVec Ideal S256x128 .f32) (x7 : FVec Ideal S128 .f32) (x8 : FVec Ideal S128x128 .f32) (x9 : FVec Ideal S128 .f32) (x10 : FVec Ideal S256x128 .f32) (x11 : FVec Ideal S128 .f32) (x12 : FVec Ideal S128x128 .f32) (x13 : FVec Ideal S128 .f32) (x14 : FVec Ideal S256x128 .f32) (x15 : FVec Ideal S128 .f32) (n : Fin 50000) (q : Fin 128) :
    val_main_v168 (F := Ideal) x0 x1 x2 x3 x4 x5 x6 x7 x8 x9 x10 x11 x12 x13 x14 x15 (ix2 n q)
      = h0row (rowOf (val_main_v44 (F := Ideal) x0 x1 x2 x4 x5) n) (rowOf (val_main_v100 (F := Ideal) x0 x1 x2 x8 x9) n)
          (rowOf (val_main_v156 (F := Ideal) x0 x1 x2 x12 x13) n) (rowOf x3 n)
          (topOf x6) (botOf x6) (vecOf x7) (topOf x10) (botOf x10) (vecOf x11) (topOf x14) (botOf x14) (vecOf x15) q := by
  rw [val_main_v168_apply, val_main_v164_apply, val_main_v167_apply, val_main_v166_apply, val_main_v165_apply,
    val_main_cst_35_apply, v55_at, v163_at]
  rfl

/-- The output at `(n, q)`. -/
theorem v173_at (x0 : FVec Ideal S50000x128 .f32) (x1 x2 : IVec S800000 32) (x3 : FVec Ideal S50000x128 .f32) (x4 : FVec Ideal S128x128 .f32) (x5 : FVec Ideal S128 .f32) (x6 : FVec Ideal S256x128 .f32) (x7 : FVec Ideal S128 .f32) (x8 : FVec Ideal S128x128 .f32) (x9 : FVec Ideal S128 .f32) (x10 : FVec Ideal S256x128 .f32) (x11 : FVec Ideal S128 .f32) (x12 : FVec Ideal S128x128 .f32) (x13 : FVec Ideal S128 .f32) (x14 : FVec Ideal S256x128 .f32) (x15 : FVec Ideal S128 .f32) (x16 : FVec Ideal S128x128 .f32) (x17 : FVec Ideal S128 .f32) (n : Fin 50000) (q : Fin 128) :
    val_main_v173 (F := Ideal) x0 x1 x2 x3 x4 x5 x6 x7 x8 x9 x10 x11 x12 x13 x14 x15 x16 x17 (ix2 n q)
      = zoutrow (rowOf (val_main_v168 (F := Ideal) x0 x1 x2 x3 x4 x5 x6 x7 x8 x9 x10 x11 x12 x13 x14 x15) n) (matOf x16) (vecOf x17) q := by
  rw [val_main_v173_apply, val_main_v170_apply, v172_at, Ideal.addf_def]
  unfold zoutrow rmul
  refine congrArg (· + vecOf x17 q) (Finset.sum_congr rfl fun k _ => ?_)
  rw [idx2_eq (lidx_main_v170 (ix2 n q) k) n k rfl rfl, idx2_eq (ridx_main_v170 (ix2 n q) k) k q rfl rfl,
    val_main_v169_apply, val_main_call3_v0_apply, val_main_call3_cst_apply]
  generalize val_main_v168 (F := Ideal) x0 x1 x2 x3 x4 x5 x6 x7 x8 x9 x10 x11 x12 x13 x14 x15 = h0
  rfl

end Cert.ReferenceIdeal.RefRead

end
-- ==== Proof.PreFin.lean ====
/-
  What the precondition says of the four arrays the exchange of sums needs. The precondition is the conjunction,
  over every float input, of "every entry's absolute value is below +∞"; at the extended reals an entry with
  `|x| < ⊤` is a real number. Read off here for the node features and the three projection matrices.
-/
import proofs.«110313_j28329604284505_2_alg».proof.Pre_finite_inputs
import Idealize.ShloMosaic.PureOps.Ideal.Laws
import Idealize.ShloMosaic.Lib.ValueIdx
import Idealize.ShloMosaic.Lib.ReduceAll

noncomputable section

namespace Cert.PreFin

open Cert.Pre_finite_inputs Idealize.ShloMosaic Idealize.ShloMosaic.ValueIdx

/-- The rank-0 shape has exactly one index. -/
private instance : Subsingleton S_.Idx := ⟨fun a b => funext fun d => d.elim0⟩

/-- An extended real whose absolute value `max x (-x)` is below `⊤` is a real number: at `⊥` and at `⊤` the
    maximum is `⊤` itself. -/
private theorem real_of_abs_lt_top (x : EReal) (h : max x (-x) < ⊤) : ∃ r : ℝ, x = (r : EReal) := by
  induction x using EReal.rec with
  | bot => simp at h
  | coe r => exact ⟨r, rfl⟩
  | top => simp at h

/-- The word `0x7F800000` (sign 0, exponent all ones, significand 0) denotes `+∞`. -/
private theorem top_bits : Ideal.ofBits .f32 0x7F800000#32 = (⊤ : EReal) := by
  simp [Ideal.ofBits, Ideal.ieee]

/-- One entry: if the ordered comparison `|x| < +∞` holds (its bit is 1), then `x` is a real number. -/
private theorem real_of_cmp (x : Ideal .f32)
    (h : FloatOps.cmpf (F := Ideal) .olt (FloatOps.hostAbsf x) (FloatOps.ofBits .f32 0x7F800000#32) = 1#1) :
    ∃ r : ℝ, x = (r : EReal) := by
  rw [Ideal.ofBits_def, Ideal.hostAbsf_def, Ideal.cmpf_def, Ideal.absf_def, top_bits] at h
  refine real_of_abs_lt_top x ?_
  by_contra hn
  simp [Ideal.cmp, hn] at h

/-- One array, of any shape: if the conjunction over all its entries of `|x| < +∞` is 1, every entry is real.
    A conjunction that is 1 has every conjunct 1; the broadcast scalar is `+∞` at every index. -/
private theorem real_of_all {s : Shape} {axes : List (Fin s.rank)} (a : FVec Ideal s .f32)
    (hb : S_.BroadcastsInDim s (![] : Fin 0 → Fin s.rank)) (hr : s.ReducesTo axes S_) (hu : 0 < S_.numel) (j : S_.Idx)
    (e : Host.reduce IntOp.andi (cmpf .olt (Host.absf a) (broadcastInDim s ![] hb (constant (F := Ideal) S_ .f32 0x7F800000#32)))
      (constantI S_ 1 1#1) hr hu j = 1#1) :
    ∀ i, ∃ r : ℝ, a i = (r : EReal) := fun i =>
  real_of_cmp (a i) (Host.reduce_andi_all _ _ hr hu j e i)

/-- A two-fold conjunction of truth values that is 1 has both sides 1. -/
private theorem andi_split (x y : IVec S_ 1) (j : S_.Idx) (h : andi x y j = 1#1) :
    x j = 1#1 ∧ y j = 1#1 :=
  IntOp.andi_eq_one.1 h

/-- Under the precondition the node features and the three projection matrices hold real numbers. -/
theorem finite_of_fn [Cert.Pre_finite_inputs.Facts] (a0 : FVec Ideal S50000x128 .f32) (a1 a2 : IVec S800000 32) (a3 : FVec Ideal S50000x128 .f32) (a4 : FVec Ideal S128x128 .f32) (a5 : FVec Ideal S128 .f32) (a6 : FVec Ideal S256x128 .f32) (a7 : FVec Ideal S128 .f32) (a8 : FVec Ideal S128x128 .f32) (a9 : FVec Ideal S128 .f32) (a10 : FVec Ideal S256x128 .f32) (a11 : FVec Ideal S128 .f32) (a12 : FVec Ideal S128x128 .f32) (a13 : FVec Ideal S128 .f32) (a14 : FVec Ideal S256x128 .f32) (a15 : FVec Ideal S128 .f32) (a16 : FVec Ideal S128x128 .f32) (a17 : FVec Ideal S128 .f32)
    (h : Cert.Pre_finite_inputs.fn (F := Ideal) a0 a1 a2 a3 a4 a5 a6 a7 a8 a9 a10 a11 a12 a13 a14 a15 a16 a17 = fun _ => 1#1) :
    (∀ i, ∃ r : ℝ, a0 i = (r : EReal)) ∧ (∀ i, ∃ r : ℝ, a4 i = (r : EReal)) ∧ (∀ i, ∃ r : ℝ, a8 i = (r : EReal))
      ∧ (∀ i, ∃ r : ℝ, a12 i = (r : EReal)) := by
  -- The precondition is the left-nested conjunction ((…((c0 ∧ c3) ∧ c4) ∧ …) ∧ c16) ∧ c17, with ck the statement
  -- "every entry of input k has |x| < +∞". Peel it from the outside: each step splits off the rightmost conjunct;
  -- keep c12, c8, c4 on the way in, and c0 is the left half of the innermost pair.
  have h0 := congrFun h ValueIdx.ix0
  dsimp only [Cert.Pre_finite_inputs.fn, fn_part1, fn_part2, fn_part3, fn_part4] at h0
  obtain ⟨h1, -⟩ := andi_split _ _ _ h0
  obtain ⟨h2, -⟩ := andi_split _ _ _ h1
  obtain ⟨h3, -⟩ := andi_split _ _ _ h2
  obtain ⟨h4, -⟩ := andi_split _ _ _ h3
  obtain ⟨h5, -⟩ := andi_split _ _ _ h4
  obtain ⟨h6, e12⟩ := andi_split _ _ _ h5
  obtain ⟨h7, -⟩ := andi_split _ _ _ h6
  obtain ⟨h8, -⟩ := andi_split _ _ _ h7
  obtain ⟨h9, -⟩ := andi_split _ _ _ h8
  obtain ⟨h10, e8⟩ := andi_split _ _ _ h9
  obtain ⟨h11, -⟩ := andi_split _ _ _ h10
  obtain ⟨h12, -⟩ := andi_split _ _ _ h11
  obtain ⟨h13, -⟩ := andi_split _ _ _ h12
  obtain ⟨h14, e4⟩ := andi_split _ _ _ h13
  obtain ⟨e0, -⟩ := andi_split _ _ _ h14
  exact ⟨real_of_all a0 _ _ _ _ e0, real_of_all a4 _ _ _ _ e4, real_of_all a8 _ _ _ _ e8,
    real_of_all a12 _ _ _ _ e12⟩

end Cert.PreFin

end
-- ==== Proof.Bridge.lean ====
/-
  The two programs meet. For one device and memories that agree on the inputs:

  * each convolution's row is the same on both sides — the kernel projects the aggregated features, the reference
    aggregates the projected features, and for finite features and a finite matrix these are one row (the exchange
    of sums), the bias row added to both;
  * so the node update, a function of those three rows, of the hidden row and of the weights, gives the same new
    hidden row and the same output row at every node;
  * and every element of a result array is some node's row at some column.
-/
import proofs.«110313_j28329604284505_2_alg».proof.Proof.KBlocks
import proofs.«110313_j28329604284505_2_alg».proof.Proof.KHost
import proofs.«110313_j28329604284505_2_alg».proof.Proof.KAgg
import proofs.«110313_j28329604284505_2_alg».proof.Proof.Swap
import proofs.«110313_j28329604284505_2_alg».proof.Proof.RefRead
import proofs.«110313_j28329604284505_2_alg».proof.Proof.PreFin

noncomputable section

open scoped BigOperators

namespace Cert.Bridge

open Cert.KernelIdeal Cert.KernelIdeal.Gen Cert.KernelIdeal.Arr Cert.GruSpec
open Idealize.ShloMosaic Idealize.ShloMosaic.TcCoe Idealize.SL.Sem Idealize.ShloMosaic.ValueIdx
open Cert.ReferenceIdeal.Read (val_main_v41 val_main_v44 val_main_v97 val_main_v100 val_main_v153 val_main_v156 val_main_v168 val_main_v173)

variable (m : (ℓ : Loc nD τ sig) → Buf (Elt Ideal) ℓ)

/-- The kernel program's eighteen inputs on device `c`, at their literal types. -/
abbrev a0 (c : Dev nD) : FVec Ideal S50000x128 .f32 := (m ((c : Thread nD τ).loc main_arg0))
abbrev a1 (c : Dev nD) : IVec S800000 32 := (m ((c : Thread nD τ).loc main_arg1))
abbrev a2 (c : Dev nD) : IVec S800000 32 := (m ((c : Thread nD τ).loc main_arg2))
abbrev a3 (c : Dev nD) : FVec Ideal S50000x128 .f32 := (m ((c : Thread nD τ).loc main_arg3))
abbrev a4 (c : Dev nD) : FVec Ideal S128x128 .f32 := (m ((c : Thread nD τ).loc main_arg4))
abbrev a5 (c : Dev nD) : FVec Ideal S128 .f32 := (m ((c : Thread nD τ).loc main_arg5))
abbrev a6 (c : Dev nD) : FVec Ideal S256x128 .f32 := (m ((c : Thread nD τ).loc main_arg6))
abbrev a7 (c : Dev nD) : FVec Ideal S128 .f32 := (m ((c : Thread nD τ).loc main_arg7))
abbrev a8 (c : Dev nD) : FVec Ideal S128x128 .f32 := (m ((c : Thread nD τ).loc main_arg8))
abbrev a9 (c : Dev nD) : FVec Ideal S128 .f32 := (m ((c : Thread nD τ).loc main_arg9))
abbrev a10 (c : Dev nD) : FVec Ideal S256x128 .f32 := (m ((c : Thread nD τ).loc main_arg10))
abbrev a11 (c : Dev nD) : FVec Ideal S128 .f32 := (m ((c : Thread nD τ).loc main_arg11))
abbrev a12 (c : Dev nD) : FVec Ideal S128x128 .f32 := (m ((c : Thread nD τ).loc main_arg12))
abbrev a13 (c : Dev nD) : FVec Ideal S128 .f32 := (m ((c : Thread nD τ).loc main_arg13))
abbrev a14 (c : Dev nD) : FVec Ideal S256x128 .f32 := (m ((c : Thread nD τ).loc main_arg14))
abbrev a15 (c : Dev nD) : FVec Ideal S128 .f32 := (m ((c : Thread nD τ).loc main_arg15))
abbrev a16 (c : Dev nD) : FVec Ideal S128x128 .f32 := (m ((c : Thread nD τ).loc main_arg16))
abbrev a17 (c : Dev nD) : FVec Ideal S128 .f32 := (m ((c : Thread nD τ).loc main_arg17))

/-- The update gate's convolution row: projecting the aggregate is aggregating the projection. -/
theorem conv_z (c : Dev nD) (hx : ∀ i, ∃ r : ℝ, a0 m c i = (r : EReal)) (hW : ∀ i, ∃ r : ℝ, a4 m c i = (r : EReal)) (n : Fin 50000) :
    aff (rowOf (agg m c) n) (matOf (wcz m c)) (vec1Of (bcz m c))
      = rowOf (val_main_v44 (F := Ideal) (a0 m c) (a1 m c) (a2 m c) (a4 m c) (a5 m c)) n := by
  funext j
  have e1 : agg m c = Cert.Agg.AGG (a0 m c) (a1 m c) (a2 m c) := Cert.KernelIdeal.HostAgg.agg_eq m c
  have e2 : wcz m c = a4 m c := Cert.KernelIdeal.Host.wcz_eq m c
  have e3 : vec1Of (bcz m c) = vecOf (a5 m c) := Cert.KernelIdeal.Host.bcz_eq m c
  show rmul (rowOf (agg m c) n) (matOf (wcz m c)) j + vec1Of (bcz m c) j = val_main_v44 (F := Ideal) (a0 m c) (a1 m c) (a2 m c) (a4 m c) (a5 m c) (ix2 n j)
  rw [e1, e2, e3, Cert.Agg.swap (a0 m c) (a1 m c) (a2 m c) (a4 m c) hx hW n j, Cert.ReferenceIdeal.RefRead.v44_at]

/-- The reset gate's convolution row. -/
theorem conv_r (c : Dev nD) (hx : ∀ i, ∃ r : ℝ, a0 m c i = (r : EReal)) (hW : ∀ i, ∃ r : ℝ, a8 m c i = (r : EReal)) (n : Fin 50000) :
    aff (rowOf (agg m c) n) (matOf (wcr m c)) (vec1Of (bcr m c))
      = rowOf (val_main_v100 (F := Ideal) (a0 m c) (a1 m c) (a2 m c) (a8 m c) (a9 m c)) n := by
  funext j
  have e1 : agg m c = Cert.Agg.AGG (a0 m c) (a1 m c) (a2 m c) := Cert.KernelIdeal.HostAgg.agg_eq m c
  have e2 : wcr m c = a8 m c := Cert.KernelIdeal.Host.wcr_eq m c
  have e3 : vec1Of (bcr m c) = vecOf (a9 m c) := Cert.KernelIdeal.Host.bcr_eq m c
  show rmul (rowOf (agg m c) n) (matOf (wcr m c)) j + vec1Of (bcr m c) j = val_main_v100 (F := Ideal) (a0 m c) (a1 m c) (a2 m c) (a8 m c) (a9 m c) (ix2 n j)
  rw [e1, e2, e3, Cert.Agg.swap (a0 m c) (a1 m c) (a2 m c) (a8 m c) hx hW n j, Cert.ReferenceIdeal.RefRead.v100_at, Cert.Agg.v97_eq]

/-- The candidate's convolution row. -/
theorem conv_h (c : Dev nD) (hx : ∀ i, ∃ r : ℝ, a0 m c i = (r : EReal)) (hW : ∀ i, ∃ r : ℝ, a12 m c i = (r : EReal)) (n : Fin 50000) :
    aff (rowOf (agg m c) n) (matOf (wch m c)) (vec1Of (bch m c))
      = rowOf (val_main_v156 (F := Ideal) (a0 m c) (a1 m c) (a2 m c) (a12 m c) (a13 m c)) n := by
  funext j
  have e1 : agg m c = Cert.Agg.AGG (a0 m c) (a1 m c) (a2 m c) := Cert.KernelIdeal.HostAgg.agg_eq m c
  have e2 : wch m c = a12 m c := Cert.KernelIdeal.Host.wch_eq m c
  have e3 : vec1Of (bch m c) = vecOf (a13 m c) := Cert.KernelIdeal.Host.bch_eq m c
  show rmul (rowOf (agg m c) n) (matOf (wch m c)) j + vec1Of (bch m c) j = val_main_v156 (F := Ideal) (a0 m c) (a1 m c) (a2 m c) (a12 m c) (a13 m c) (ix2 n j)
  rw [e1, e2, e3, Cert.Agg.swap (a0 m c) (a1 m c) (a2 m c) (a12 m c) hx hW n j, Cert.ReferenceIdeal.RefRead.v156_at, Cert.Agg.v153_eq]

/-- The new hidden row of node `n` is the reference's row `n`. -/
theorem h0_row (c : Dev nD) (hx : ∀ i, ∃ r : ℝ, a0 m c i = (r : EReal)) (hW4 : ∀ i, ∃ r : ℝ, a4 m c i = (r : EReal))
    (hW8 : ∀ i, ∃ r : ℝ, a8 m c i = (r : EReal)) (hW12 : ∀ i, ∃ r : ℝ, a12 m c i = (r : EReal)) (n : Fin 50000) :
    Cert.KernelIdeal.Blocks.h0K m c n = rowOf (val_main_v168 (F := Ideal) (a0 m c) (a1 m c) (a2 m c) (a3 m c) (a4 m c) (a5 m c) (a6 m c) (a7 m c) (a8 m c) (a9 m c) (a10 m c) (a11 m c) (a12 m c) (a13 m c) (a14 m c) (a15 m c)) n := by
  funext q
  show Cert.KernelIdeal.Blocks.h0K m c n q = val_main_v168 (F := Ideal) (a0 m c) (a1 m c) (a2 m c) (a3 m c) (a4 m c) (a5 m c) (a6 m c) (a7 m c) (a8 m c) (a9 m c) (a10 m c) (a11 m c) (a12 m c) (a13 m c) (a14 m c) (a15 m c) (ix2 n q)
  rw [Cert.ReferenceIdeal.RefRead.v168_at]
  unfold Cert.KernelIdeal.Blocks.h0K
  rw [conv_z m c hx hW4 n, conv_r m c hx hW8 n, conv_h m c hx hW12 n, Cert.KernelIdeal.Host.hid_eq,
    Cert.KernelIdeal.Host.wz1_eq, Cert.KernelIdeal.Host.wz2_eq, Cert.KernelIdeal.Host.blz_eq,
    Cert.KernelIdeal.Host.wr1_eq, Cert.KernelIdeal.Host.wr2_eq, Cert.KernelIdeal.Host.blr_eq,
    Cert.KernelIdeal.Host.wh1_eq, Cert.KernelIdeal.Host.wh2_eq, Cert.KernelIdeal.Host.blh_eq]

/-- THE RESULTS: after the kernel's run both result arrays are the reference's stages of the same inputs. -/
theorem results (c : Dev nD) (hx : ∀ i, ∃ r : ℝ, a0 m c i = (r : EReal)) (hW4 : ∀ i, ∃ r : ℝ, a4 m c i = (r : EReal))
    (hW8 : ∀ i, ∃ r : ℝ, a8 m c i = (r : EReal)) (hW12 : ∀ i, ∃ r : ℝ, a12 m c i = (r : EReal)) :
    (dats m 0 c).arrAt 20 cfg0.N = val_main_v173 (F := Ideal) (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c)
      ∧ (dats m 0 c).arrAt 19 cfg0.N = val_main_v168 (F := Ideal) (a0 m c) (a1 m c) (a2 m c) (a3 m c) (a4 m c) (a5 m c) (a6 m c) (a7 m c) (a8 m c) (a9 m c) (a10 m c) (a11 m c) (a12 m c) (a13 m c) (a14 m c) (a15 m c) := by
  constructor
  · funext i
    obtain ⟨n, q, rfl⟩ : ∃ (n : Fin 50000) (q : Fin 128), i = ix2 n q := ⟨i 0, i 1, eq_ix2 i⟩
    rw [Cert.KernelIdeal.Blocks.final20, Cert.ReferenceIdeal.RefRead.v173_at]
    unfold Cert.KernelIdeal.Blocks.zoutK
    rw [h0_row m c hx hW4 hW8 hW12 n, Cert.KernelIdeal.Host.wlin_eq, Cert.KernelIdeal.Host.blin_eq]
  · funext i
    obtain ⟨n, q, rfl⟩ : ∃ (n : Fin 50000) (q : Fin 128), i = ix2 n q := ⟨i 0, i 1, eq_ix2 i⟩
    rw [Cert.KernelIdeal.Blocks.final19]
    exact congrFun (h0_row m c hx hW4 hW8 hW12 n) q

end Cert.Bridge

end
-- ==== Proof.lean ====
/-
  A graph-convolution gated recurrent cell: the kernel against its reference.

  Both programs build, from the edge lists, the symmetric normalisation weights `deg^(−1/2)[src] · deg^(−1/2)[dst]`
  (self-loops appended) and three graph convolutions feeding the gates of a GRU cell, then a rectified linear
  output layer. They differ in two arrangements. The reference projects the node features by each convolution's
  matrix and then aggregates along the edges, three times; the kernel aggregates the features once and projects the
  aggregate three times inside the fused kernel. And the reference multiplies the joined row `[conv, h]` by a
  256 × 128 gate matrix, where the kernel multiplies the two halves separately and adds.

  The second is a regrouping of one finite sum and holds for all extended reals. The first is linearity of the
  aggregation: it exchanges two finite sums and distributes a product over a sum, which is sound because the
  precondition makes the features and the projection matrices finite and the weights are finite by construction;
  this is the one place the precondition is used. Everything after the convolutions — the logistic and tanh gates,
  the convex combination, the rectifier and the output layer — is the same function of equal rows.

  The frames of the two kernel programs are the generated ones; the reference's frame is its generated run with the
  results dropped; the idealisation rewrote no operation, so there is nothing to preserve beyond reading the same
  program at the extended reals.
-/
import proofs.«110313_j28329604284505_2_alg».proof.Defs
import proofs.«110313_j28329604284505_2_alg».proof.Proof.Gen.Kernel
import proofs.«110313_j28329604284505_2_alg».proof.Proof.Gen.Kernel.Skeleton
import proofs.«110313_j28329604284505_2_alg».proof.Proof.Gen.Kernel.Launch
import proofs.«110313_j28329604284505_2_alg».proof.Proof.Gen.Kernel.Points
import proofs.«110313_j28329604284505_2_alg».proof.Proof.Gen.Kernel.Frame
import proofs.«110313_j28329604284505_2_alg».proof.Proof.Gen.KernelIdeal
import proofs.«110313_j28329604284505_2_alg».proof.Proof.Gen.KernelIdeal.Skeleton
import proofs.«110313_j28329604284505_2_alg».proof.Proof.Gen.KernelIdeal.Launch
import proofs.«110313_j28329604284505_2_alg».proof.Proof.Gen.KernelIdeal.Points
import proofs.«110313_j28329604284505_2_alg».proof.Proof.Gen.KernelIdeal.Frame
import proofs.«110313_j28329604284505_2_alg».proof.Proof.Gen.ReferenceIdeal
import proofs.«110313_j28329604284505_2_alg».proof.Proof.Gen.Pre_finite_inputs
import proofs.«110313_j28329604284505_2_alg».proof.Proof.Gen.KernelIdeal.Value
import proofs.«110313_j28329604284505_2_alg».proof.Proof.RefRun
import proofs.«110313_j28329604284505_2_alg».proof.Proof.Bridge
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Gen.frame m ρ

/-- So does the kernel read at the extended reals. -/
theorem frame_kernelIdeal : Cert.frame_KernelIdeal := fun m ρ _ => Cert.KernelIdeal.Gen.frame m ρ

/-- The reference is a straight line of host operations: its run ends, and the arguments are among the buffers
    no operation writes. -/
theorem frame_reference : Cert.frame_ReferenceIdeal := fun m ρ _ =>
  (θ_run Cert.ReferenceIdeal.defs _ _).mono (fun _ h c => (h c).2.2) (Cert.ReferenceIdeal.RefRun.run (F := Ideal) m ρ)

set_option maxHeartbeats 4000000 in
/-- From memories that agree on the eighteen inputs, the kernel's output and new hidden state are the reference's,
    element by element. -/
theorem algebraic : Cert.algebraic_KernelIdeal_ReferenceIdeal := by
  intro m ρ m' ρ' hpre hagree
  refine ⟨fun c => (Cert.KernelIdeal.Gen.dats m 0 c).arrAt 20 Cert.KernelIdeal.cfg0.N,
    fun c => (Cert.KernelIdeal.Gen.dats m 0 c).arrAt 19 Cert.KernelIdeal.cfg0.N, ?_, ?_⟩
  · exact (θ_run Cert.KernelIdeal.defs _ _).mono (fun r h c => ⟨(h c).2.1, (h c).1, (h c).2.2⟩)
      (Cert.KernelIdeal.Value.run_blocks m ρ)
  · refine (θ_run Cert.ReferenceIdeal.defs _ _).mono (fun r h c => ?_) (Cert.ReferenceIdeal.RefRun.run (F := Ideal) m' ρ')
    obtain ⟨hx, hW4, hW8, hW12⟩ := Cert.PreFin.finite_of_fn _ _ _ _ _ _ _ _ _ _ _ _ _ _ _ _ _ _ (hpre c)
    obtain ⟨r20, r19⟩ := Cert.Bridge.results m c hx hW4 hW8 hW12
    obtain ⟨g0, g1, g2, g3, g4, g5, g6, g7, g8, g9, g10, g11, g12, g13, g14, g15, g16, g17⟩ := hagree c
    refine ⟨(h c).1.trans ?_, (h c).2.1.trans ?_, (h c).2.2⟩
    · rw [g0, g1, g2, g3, g4, g5, g6, g7, g8, g9, g10, g11, g12, g13, g14, g15, g16, g17]
      exact r20.symm
    · rw [g0, g1, g2, g3, g4, g5, g6, g7, g8, g9, g10, g11, g12, g13, g14, g15]
      exact r19.symm

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
